-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x128 : Shape := ⟨2, ![32768, 128]⟩
abbrev S4096x32768 : Shape := ⟨2, ![4096, 32768]⟩
abbrev S1024x4096 : Shape := ⟨2, ![1024, 4096]⟩
abbrev S256x256 : Shape := ⟨2, ![256, 256]⟩
abbrev S256x512 : Shape := ⟨2, ![256, 512]⟩
abbrev S4096 : Shape := ⟨1, ![4096]⟩
abbrev S1024 : Shape := ⟨1, ![1024]⟩
abbrev S_ : Shape := ⟨0, ![]⟩

class Facts : Prop where
  bcast_S_S32768x128 : S_.BroadcastsInDim S32768x128 (![] : Fin 0 → Fin S32768x128.rank)
  reducesTo_S32768x128_S_d0_1 : S32768x128.ReducesTo [0, 1] S_
  h_S_ : 0 < S_.numel
  bcast_S_S4096x32768 : S_.BroadcastsInDim S4096x32768 (![] : Fin 0 → Fin S4096x32768.rank)
  reducesTo_S4096x32768_S_d0_1 : S4096x32768.ReducesTo [0, 1] S_
  bcast_S_S1024x4096 : S_.BroadcastsInDim S1024x4096 (![] : Fin 0 → Fin S1024x4096.rank)
  reducesTo_S1024x4096_S_d0_1 : S1024x4096.ReducesTo [0, 1] S_
  bcast_S_S256x256 : S_.BroadcastsInDim S256x256 (![] : Fin 0 → Fin S256x256.rank)
  reducesTo_S256x256_S_d0_1 : S256x256.ReducesTo [0, 1] S_
  bcast_S_S256x512 : S_.BroadcastsInDim S256x512 (![] : Fin 0 → Fin S256x512.rank)
  reducesTo_S256x512_S_d0_1 : S256x512.ReducesTo [0, 1] S_

variable [Facts]

def fn_part1 {F : FTy → Type} [FloatOps F] (main_arg4 : FVec F S256x512 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256x512 .f32 := Host.absf main_arg4
  let main_cst_6 : FVec F S_ .f32 := constant S_ .f32 0x7F800000#32
  let main_v20 : FVec F S256x512 .f32 := broadcastInDim S256x512 ![] bcast_S_S256x512 main_cst_6
  let main_v21 : IVec S256x512 1 := cmpf .olt main_v19 main_v20
  let main_c_7 : IVec S_ 1 := constantI S_ 1 1#1
  let main_v22 : IVec S_ 1 := (fun x v => Host.reduce IntOp.andi x v reducesTo_S256x512_S_d0_1 h_S_) main_v21 main_c_7
  let main_v23 : IVec S_ 1 := andi main_v18 main_v22
  main_v23

def fn {F : FTy → Type} [FloatOps F] (main_arg0 : FVec F S32768x128 .f32) (main_arg1 : FVec F S4096x32768 .f32) (main_arg2 : FVec F S1024x4096 .f32) (main_arg3 : FVec F S256x256 .f32) (main_arg4 : FVec F S256x512 .f32) (main_arg5 : IVec S4096 32) (main_arg6 : IVec S1024 32) : IVec S_ 1 :=
  let main_v0 : FVec F S32768x128 .f32 := Host.absf main_arg0
  let main_cst : FVec F S_ .f32 := constant S_ .f32 0x7F800000#32
  let main_v1 : FVec F S32768x128 .f32 := broadcastInDim S32768x128 ![] bcast_S_S32768x128 main_cst
  let main_v2 : IVec S32768x128 1 := cmpf .olt main_v0 main_v1
  let main_c : IVec S_ 1 := constantI S_ 1 1#1
  let main_v3 : IVec S_ 1 := (fun x v => Host.reduce IntOp.andi x v reducesTo_S32768x128_S_d0_1 h_S_) main_v2 main_c
  let main_v4 : FVec F S4096x32768 .f32 := Host.absf main_arg1
  let main_cst_0 : FVec F S_ .f32 := constant S_ .f32 0x7F800000#32
  let main_v5 : FVec F S4096x32768 .f32 := broadcastInDim S4096x32768 ![] bcast_S_S4096x32768 main_cst_0
  let main_v6 : IVec S4096x32768 1 := cmpf .olt main_v4 main_v5
  let main_c_1 : IVec S_ 1 := constantI S_ 1 1#1
  let main_v7 : IVec S_ 1 := (fun x v => Host.reduce IntOp.andi x v reducesTo_S4096x32768_S_d0_1 h_S_) main_v6 main_c_1
  let main_v8 : IVec S_ 1 := andi main_v3 main_v7
  let main_v9 : FVec F S1024x4096 .f32 := Host.absf main_arg2
  let main_cst_2 : FVec F S_ .f32 := constant S_ .f32 0x7F800000#32
  let main_v10 : FVec F S1024x4096 .f32 := broadcastInDim S1024x4096 ![] bcast_S_S1024x4096 main_cst_2
  let main_v11 : IVec S1024x4096 1 := cmpf .olt main_v9 main_v10
  let main_c_3 : IVec S_ 1 := constantI S_ 1 1#1
  let main_v12 : IVec S_ 1 := (fun x v => Host.reduce IntOp.andi x v reducesTo_S1024x4096_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_v13 main_v16
-- ==== Kernel.lean ====
abbrev S32768x128 : Shape := ⟨2, ![32768, 128]⟩
abbrev S4096x32768 : Shape := ⟨2, ![4096, 32768]⟩
abbrev S1024x4096 : Shape := ⟨2, ![1024, 4096]⟩
abbrev S256x256 : Shape := ⟨2, ![256, 256]⟩
abbrev S256x512 : Shape := ⟨2, ![256, 512]⟩
abbrev S4096 : Shape := ⟨1, ![4096]⟩
abbrev S1024 : Shape := ⟨1, ![1024]⟩
abbrev S4096x128 : Shape := ⟨2, ![4096, 128]⟩
abbrev S1024x2048 : Shape := ⟨2, ![1024, 2048]⟩
abbrev S2048x128 : Shape := ⟨2, ![2048, 128]⟩
abbrev S1024x128 : Shape := ⟨2, ![1024, 128]⟩
abbrev S_ : Shape := ⟨0, ![]⟩
abbrev S4096x1 : Shape := ⟨2, ![4096, 1]⟩
abbrev S256x128 : Shape := ⟨2, ![256, 128]⟩
abbrev S128x256 : Shape := ⟨2, ![128, 256]⟩
abbrev S4096x256 : Shape := ⟨2, ![4096, 256]⟩
abbrev S1024x256 : Shape := ⟨2, ![1024, 256]⟩
abbrev S1024x1024 : Shape := ⟨2, ![1024, 1024]⟩
abbrev S1024x1 : Shape := ⟨2, ![1024, 1]⟩
abbrev S512x256 : Shape := ⟨2, ![512, 256]⟩

abbrev nBuf : Space → Nat
  | .hbm => 37
  | .vmem => 29
  | .smem => 0
  | _ => 0

abbrev bufTy : (tb : Table) → Fin (tcTables nBuf tb) → BufTy
  | .hbm, ⟨0, _⟩ => ⟨S32768x128, .f32⟩
  | .hbm, ⟨1, _⟩ => ⟨S4096x32768, .f32⟩
  | .hbm, ⟨2, _⟩ => ⟨S1024x4096, .f32⟩
  | .hbm, ⟨3, _⟩ => ⟨S256x256, .f32⟩
  | .hbm, ⟨4, _⟩ => ⟨S256x512, .f32⟩
  | .hbm, ⟨5, _⟩ => ⟨S4096, .i32⟩
  | .hbm, ⟨6, _⟩ => ⟨S1024, .i32⟩
  | .hbm, ⟨7, _⟩ => ⟨S4096x128, .f32⟩
  | .hbm, ⟨8, _⟩ => ⟨S_, .i32⟩
  | .hbm, ⟨9, _⟩ => ⟨S4096, .i32⟩
  | .hbm, ⟨10, _⟩ => ⟨S4096, .i1⟩
  | .hbm, ⟨11, _⟩ => ⟨S_, .i32⟩
  | .hbm, ⟨12, _⟩ => ⟨S4096, .i32⟩
  | .hbm, ⟨13, _⟩ => ⟨S4096, .i32⟩
  | .hbm, ⟨14, _⟩ => ⟨S4096, .i32⟩
  | .hbm, ⟨15, _⟩ => ⟨S4096x1, .i32⟩
  | .hbm, ⟨16, _⟩ => ⟨S4096x128, .f32⟩
  | .hbm, ⟨17, _⟩ => ⟨S256x128, .f32⟩
  | .hbm, ⟨18, _⟩ => ⟨S128x256, .f32⟩
  | .hbm, ⟨19, _⟩ => ⟨S256x128, .f32⟩
  | .hbm, ⟨20, _⟩ => ⟨S128x256, .f32⟩
  | .hbm, ⟨21, _⟩ => ⟨S4096x256, .f32⟩
  | .hbm, ⟨22, _⟩ => ⟨S1024x256, .f32⟩
  | .hbm, ⟨23, _⟩ => ⟨S_, .i32⟩
  | .hbm, ⟨24, _⟩ => ⟨S1024, .i32⟩
  | .hbm, ⟨25, _⟩ => ⟨S1024, .i1⟩
  | .hbm, ⟨26, _⟩ => ⟨S_, .i32⟩
  | .hbm, ⟨27, _⟩ => ⟨S1024, .i32⟩
  | .hbm, ⟨28, _⟩ => ⟨S1024, .i32⟩
  | .hbm, ⟨29, _⟩ => ⟨S1024, .i32⟩
  | .hbm, ⟨30, _⟩ => ⟨S1024x1, .i32⟩
  | .hbm, ⟨31, _⟩ => ⟨S1024x256, .f32⟩
  | .hbm, ⟨32, _⟩ => ⟨S256x256, .f32⟩
  | .hbm, ⟨33, _⟩ => ⟨S256x256, .f32⟩
  | .hbm, ⟨34, _⟩ => ⟨S256x256, .f32⟩
  | .hbm, ⟨35, _⟩ => ⟨S256x256, .f32⟩
  | .hbm, ⟨36, _⟩ => ⟨S1024x256, .f32⟩
  | .local _ .vmem, ⟨0, _⟩ => ⟨S1024x2048, .f32⟩
  | .local _ .vmem, ⟨1, _⟩ => ⟨S1024x2048, .f32⟩
  | .local _ .vmem, ⟨2, _⟩ => ⟨S2048x128, .f32⟩
  | .local _ .vmem, ⟨3, _⟩ => ⟨S2048x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S128x256, .f32⟩
  | .local _ .vmem, ⟨12, _⟩ => ⟨S128x256, .f32⟩
  | .local _ .vmem, ⟨13, _⟩ => ⟨S1024x256, .f32⟩
  | .local _ .vmem, ⟨14, _⟩ => ⟨S1024x256, .f32⟩
  | .local _ .vmem, ⟨15, _⟩ => ⟨S1024x1024, .f32⟩
  | .local _ .vmem, ⟨16, _⟩ => ⟨S1024x1024, .f32⟩
  | .local _ .vmem, ⟨17, _⟩ => ⟨S1024x256, .f32⟩
  | .local _ .vmem, ⟨18, _⟩ => ⟨S1024x256, .f32⟩
  | .local _ .vmem, ⟨19, _⟩ => ⟨S1024x256, .f32⟩
  | .local _ .vmem, ⟨20, _⟩ => ⟨S1024x256, .f32⟩
  | .local _ .vmem, ⟨21, _⟩ => ⟨S512x256, .f32⟩
  | .local _ .vmem, ⟨22, _⟩ => ⟨S512x256, .f32⟩
  | .local _ .vmem, ⟨23, _⟩ => ⟨S512x256, .f32⟩
  | .local _ .vmem, ⟨24, _⟩ => ⟨S512x256, .f32⟩
  | .local _ .vmem, ⟨25, _⟩ => ⟨S256x256, .f32⟩
  | .local _ .vmem, ⟨26, _⟩ => ⟨S256x256, .f32⟩
  | .local _ .vmem, ⟨27, _⟩ => ⟨S512x256, .f32⟩
  | .local _ .vmem, ⟨28, _⟩ => ⟨S512x256, .f32⟩
  | _, _ => ⟨S32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_scratch0 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg4_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem3_0 : DmaSem sig := 24
abbrev cc3_sem4_0 : DmaSem sig := 25
abbrev cc3_sem4_1 : DmaSem sig := 26

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v13 : BitVec 1 := Scalar.cmpi .eq arg1 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1024x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨2, ![1, 4], ![false, false]⟩

def k2_cond2 (i : grid2.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1024x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S1024x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true, false]

abbrev grid3 : Pipeline.Grid := ⟨1, ![2], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S512x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S512x256 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  inb_S2048x128_S2048x128_0_0 : ∀ a, (![0, 0] : Fin 2 → Nat) a + S2048x128.size a ≤ S2048x128.size a
  h_S2048x128 : 0 < S2048x128.numel
  bcast_S_S4096 : S_.BroadcastsInDim S4096 (![] : Fin 0 → Fin S4096.rank)
  bcast_S4096_S4096x1_0 : S4096.BroadcastsInDim S4096x1 (![0] : Fin 1 → Fin S4096x1.rank)
  slices_S256x256_S256x128_0_0 : S256x256.Slices ![0, 0] S256x128
  transposes_S256x128_S128x256_1_0 : S256x128.Transposes [1, 0] S128x256
  slices_S256x256_S256x128_0_128 : S256x256.Slices ![0, 128] S256x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x1024_S1024x1024_0_0 : ∀ a, (![0, 0] : Fin 2 → Nat) a + S1024x1024.size a ≤ S1024x1024.size a
  h_S1024x1024 : 0 < S1024x1024.numel
  bcast_S_S1024 : S_.BroadcastsInDim S1024 (![] : Fin 0 → Fin S1024.rank)
  bcast_S1024_S1024x1_0 : S1024.BroadcastsInDim S1024x1 (![0] : Fin 1 → Fin S1024x1.rank)
  slices_S256x512_S256x256_0_0 : S256x512.Slices ![0, 0] S256x256
  transposes_S256x256_S256x256_1_0 : S256x256.Transposes [1, 0] S256x256
  slices_S256x512_S256x256_0_256 : S256x512.Slices ![0, 256] S256x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  dot_S1024x2048_S2048x128_S1024x128_1_0_0_1_n_n_wf : DotDims.WF S1024x2048 S2048x128 S1024x128 [1] [0] [0] [1] [] []
  gather_S32768x128_S4096x1_S4096x128_1_0_n_n_0_1_1128_wf : GatherDims.WF S32768x128 S4096x1 S4096x128 [1] [0] [] [0] [] 1 ![1, 128]
  dot_S1024x128_S128x256_S1024x256_1_0_0_1_n_n_wf : DotDims.WF S1024x128 S128x256 S1024x256 [1] [0] [0] [1] [] []
  dot_S1024x1024_S1024x256_S1024x256_1_0_0_1_n_n_wf : DotDims.WF S1024x1024 S1024x256 S1024x256 [1] [0] [0] [1] [] []
  gather_S4096x256_S1024x1_S1024x256_1_0_n_n_0_1_1256_wf : GatherDims.WF S4096x256 S1024x1 S1024x256 [1] [0] [] [0] [] 1 ![1, 256]
  dot_S512x256_S256x256_S512x256_1_0_0_1_n_n_wf : DotDims.WF S512x256 S256x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S4096x32768.size a
  hwx0_0 : ∀ i : grid0.Coords, EltTy.bits .f32 = 32 ∨ (Rect.block (s := S4096x32768) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S32768x128.size a
  hwx0_1 : ∀ i : grid0.Coords, EltTy.bits .f32 = 32 ∨ (Rect.block (s := S32768x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S4096x128.size a
  hwx0_2 : ∀ i : grid0.Coords, EltTy.bits .f32 = 32 ∨ (Rect.block (s := S4096x128) S1024x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S4096x128.size a
  hwx1_0 : ∀ i : grid1.Coords, EltTy.bits .f32 = 32 ∨ (Rect.block (s := S4096x128) S1024x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S4096x128.size a
  hwx1_1 : ∀ i : grid1.Coords, EltTy.bits .f32 = 32 ∨ (Rect.block (s := S4096x128) S1024x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x256.size a ≤ S128x256.size a
  hwx1_2 : ∀ i : grid1.Coords, EltTy.bits .f32 = 32 ∨ (Rect.block (s := S128x256) S128x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x256.size a ≤ S128x256.size a
  hwx1_3 : ∀ i : grid1.Coords, EltTy.bits .f32 = 32 ∨ (Rect.block (s := S128x256) S128x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x256.size a ≤ S4096x256.size a
  hwx1_4 : ∀ i : grid1.Coords, EltTy.bits .f32 = 32 ∨ (Rect.block (s := S4096x256) S1024x256.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S1024x4096.size a
  hwx2_0 : ∀ i : grid2.Coords, EltTy.bits .f32 = 32 ∨ (Rect.block (s := S1024x4096) S1024x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x256.size a ≤ S4096x256.size a
  hwx2_1 : ∀ i : grid2.Coords, EltTy.bits .f32 = 32 ∨ (Rect.block (s := S4096x256) S1024x256.size (cc2_transform_1 i) (hinb2_1 i)).WholeWords (EltTy.packing .f32)
  hstage2_2 : ∀ j, (stage2_2 j).IsWhole
  nbuf2_2 : grid2.bufCount reads2_2 false = 1
  hreads2_2 : ∀ i i' : grid2.Coords, (∀ a, reads2_2 a = true → i a = i' a) → cc2_transform_2 i = cc2_transform_2 i'
  hinb2_2 : ∀ (i : grid2.Coords) a, (cc2_transform_2 i a + 1) * S1024x256.size a ≤ S1024x256.size a
  hwx2_2 : ∀ i : grid2.Coords, EltTy.bits .f32 = 32 ∨ (Rect.block (s := S1024x256) S1024x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x256.size a ≤ S1024x256.size a
  hwx3_0 : ∀ i : grid3.Coords, EltTy.bits .f32 = 32 ∨ (Rect.block (s := S1024x256) S512x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S512x256.size a ≤ S1024x256.size a
  hwx3_1 : ∀ i : grid3.Coords, EltTy.bits .f32 = 32 ∨ (Rect.block (s := S1024x256) S512x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x256.size a ≤ S256x256.size a
  hwx3_2 : ∀ i : grid3.Coords, EltTy.bits .f32 = 32 ∨ (Rect.block (s := S256x256) S256x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x256.size a ≤ S256x256.size a
  hwx3_3 : ∀ i : grid3.Coords, EltTy.bits .f32 = 32 ∨ (Rect.block (s := S256x256) S256x256.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S512x256.size a ≤ S1024x256.size a
  hwx3_4 : ∀ i : grid3.Coords, EltTy.bits .f32 = 32 ∨ (Rect.block (s := S1024x256) S512x256.size (cc3_transform_4 i) (hinb3_4 i)).WholeWords (EltTy.packing .f32)

variable [Facts₀]

def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf
def gather_S32768x128_S4096x1_S4096x128_1_0_n_n_0_1_1128 : GatherDims S32768x128 S4096x1 S4096x128 where
  offsetDims := [1]
  collapsedSliceDims := [0]
  operandBatchingDims := []
  startIndicesBatchingDims := []
  startIndexMap := [0]
  indexVectorDim := 1
  sliceSizes := ![1, 128]
  wf := gather_S32768x128_S4096x1_S4096x128_1_0_n_n_0_1_1128_wf
def dot_S1024x128_S128x256_S1024x256_1_0_0_1_n_n : DotDims S1024x128 S128x256 S1024x256 where
  lhsContracting := [1]
  rhsContracting := [0]
  lhsNonContracting := [0]
  rhsNonContracting := [1]
  lhsBatch := []
  rhsBatch := []
  wf := dot_S1024x128_S128x256_S1024x256_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def gather_S4096x256_S1024x1_S1024x256_1_0_n_n_0_1_1256 : GatherDims S4096x256 S1024x1 S1024x256 where
  offsetDims := [1]
  collapsedSliceDims := [0]
  operandBatchingDims := []
  startIndicesBatchingDims := []
  startIndexMap := [0]
  indexVectorDim := 1
  sliceSizes := ![1, 256]
  wf := gather_S4096x256_S1024x1_S1024x256_1_0_n_n_0_1_1256_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf

abbrev win0_0 : Pipeline.Window sig grid0 :=
  Pipeline.Window.ofSpec (Memref.whole main_arg1) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v7) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S128x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S128x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v12) S1024x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg2) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S1024x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v13) S1024x256.size cc2_transform_2 reads2_2 true false 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_v20) S512x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v13) S512x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v22) S256x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v24) S256x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v25) S512x256.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S32768x128 : Shape := ⟨2, ![32768, 128]⟩
abbrev S4096x32768 : Shape := ⟨2, ![4096, 32768]⟩
abbrev S1024x4096 : Shape := ⟨2, ![1024, 4096]⟩
abbrev S256x256 : Shape := ⟨2, ![256, 256]⟩
abbrev S256x512 : Shape := ⟨2, ![256, 512]⟩
abbrev S4096 : Shape := ⟨1, ![4096]⟩
abbrev S1024 : Shape := ⟨1, ![1024]⟩
abbrev S4096x128 : Shape := ⟨2, ![4096, 128]⟩
abbrev S_ : Shape := ⟨0, ![]⟩
abbrev S4096x1 : Shape := ⟨2, ![4096, 1]⟩
abbrev S4096x256 : Shape := ⟨2, ![4096, 256]⟩
abbrev S1024x256 : Shape := ⟨2, ![1024, 256]⟩
abbrev S1024x1 : Shape := ⟨2, ![1024, 1]⟩
abbrev S1024x512 : Shape := ⟨2, ![1024, 512]⟩
abbrev S512x256 : Shape := ⟨2, ![512, 256]⟩

abbrev nBuf : Space → Nat
  | .hbm => 39
  | .vmem => 0
  | .smem => 0
  | _ => 0

abbrev bufTy : (tb : Table) → Fin (tcTables nBuf tb) → BufTy
  | .hbm, ⟨0, _⟩ => ⟨S32768x128, .f32⟩
  | .hbm, ⟨1, _⟩ => ⟨S4096x32768, .f32⟩
  | .hbm, ⟨2, _⟩ => ⟨S1024x4096, .f32⟩
  | .hbm, ⟨3, _⟩ => ⟨S256x256, .f32⟩
  | .hbm, ⟨4, _⟩ => ⟨S256x512, .f32⟩
  | .hbm, ⟨5, _⟩ => ⟨S4096, .i32⟩
  | .hbm, ⟨6, _⟩ => ⟨S1024, .i32⟩
  | .hbm, ⟨7, _⟩ => ⟨S4096x128, .f32⟩
  | .hbm, ⟨8, _⟩ => ⟨S_, .i32⟩
  | .hbm, ⟨9, _⟩ => ⟨S4096, .i32⟩
  | .hbm, ⟨10, _⟩ => ⟨S4096, .i1⟩
  | .hbm, ⟨11, _⟩ => ⟨S_, .i32⟩
  | .hbm, ⟨12, _⟩ => ⟨S4096, .i32⟩
  | .hbm, ⟨13, _⟩ => ⟨S4096, .i32⟩
  | .hbm, ⟨14, _⟩ => ⟨S4096, .i32⟩
  | .hbm, ⟨15, _⟩ => ⟨S4096x1, .i32⟩
  | .hbm, ⟨16, _⟩ => ⟨S4096x128, .f32⟩
  | .hbm, ⟨17, _⟩ => ⟨S4096x256, .f32⟩
  | .hbm, ⟨18, _⟩ => ⟨S256x256, .f32⟩
  | .hbm, ⟨19, _⟩ => ⟨S4096x256, .f32⟩
  | .hbm, ⟨20, _⟩ => ⟨S_, .f32⟩
  | .hbm, ⟨21, _⟩ => ⟨S4096x256, .f32⟩
  | .hbm, ⟨22, _⟩ => ⟨S4096x256, .f32⟩
  | .hbm, ⟨23, _⟩ => ⟨S1024x256, .f32⟩
  | .hbm, ⟨24, _⟩ => ⟨S_, .i32⟩
  | .hbm, ⟨25, _⟩ => ⟨S1024, .i32⟩
  | .hbm, ⟨26, _⟩ => ⟨S1024, .i1⟩
  | .hbm, ⟨27, _⟩ => ⟨S_, .i32⟩
  | .hbm, ⟨28, _⟩ => ⟨S1024, .i32⟩
  | .hbm, ⟨29, _⟩ => ⟨S1024, .i32⟩
  | .hbm, ⟨30, _⟩ => ⟨S1024, .i32⟩
  | .hbm, ⟨31, _⟩ => ⟨S1024x1, .i32⟩
  | .hbm, ⟨32, _⟩ => ⟨S1024x256, .f32⟩
  | .hbm, ⟨33, _⟩ => ⟨S1024x512, .f32⟩
  | .hbm, ⟨34, _⟩ => ⟨S512x256, .f32⟩
  | .hbm, ⟨35, _⟩ => ⟨S1024x256, .f32⟩
  | .hbm, ⟨36, _⟩ => ⟨S_, .f32⟩
  | .hbm, ⟨37, _⟩ => ⟨S1024x256, .f32⟩
  | .hbm, ⟨38, _⟩ => ⟨S1024x256, .f32⟩
  | _, _ => ⟨S32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_call0_cst : Ref sig .tc := ⟨.hbm, 20, rfl⟩
abbrev main_call0_v0 : Ref sig .tc := ⟨.hbm, 21, rfl⟩
abbrev main_v11 : Ref sig .tc := ⟨.hbm, 22, rfl⟩
abbrev main_v12 : Ref sig .tc := ⟨.hbm, 23, rfl⟩
abbrev main_c_1 : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_call1_cst : Ref sig .tc := ⟨.hbm, 36, rfl⟩
abbrev main_call1_v0 : Ref sig .tc := ⟨.hbm, 37, rfl⟩
abbrev main_v23 : Ref sig .tc := ⟨.hbm, 38, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  concatenates_S4096x128_S4096x128_S4096x256_d1 : Shape.Concatenates [S4096x128, S4096x128] S4096x256 1
  transposes_S256x256_S256x256_1_0 : S256x256.Transposes [1, 0] S256x256
  bcast_S_S4096x256 : S_.BroadcastsInDim S4096x256 (![] : Fin 0 → Fin S4096x256.rank)
  bcast_S_S1024 : S_.BroadcastsInDim S1024 (![] : Fin 0 → Fin S1024.rank)
  bcast_S1024_S1024x1_0 : S1024.BroadcastsInDim S1024x1 (![0] : Fin 1 → Fin S1024x1.rank)
  concatenates_S1024x256_S1024x256_S1024x512_d1 : Shape.Concatenates [S1024x256, S1024x256] S1024x512 1
  transposes_S256x512_S512x256_1_0 : S256x512.Transposes [1, 0] S512x256
  bcast_S_S1024x256 : S_.BroadcastsInDim S1024x256 (![] : Fin 0 → Fin S1024x256.rank)
  dot_S4096x32768_S32768x128_S4096x128_1_0_0_1_n_n_wf : DotDims.WF S4096x32768 S32768x128 S4096x128 [1] [0] [0] [1] [] []
  gather_S32768x128_S4096x1_S4096x128_1_0_n_n_0_1_1128_wf : GatherDims.WF S32768x128 S4096x1 S4096x128 [1] [0] [] [0] [] 1 ![1, 128]
  dot_S4096x256_S256x256_S4096x256_1_0_0_1_n_n_wf : DotDims.WF S4096x256 S256x256 S4096x256 [1] [0] [0] [1] [] []
  dot_S1024x4096_S4096x256_S1024x256_1_0_0_1_n_n_wf : DotDims.WF S1024x4096 S4096x256 S1024x256 [1] [0] [0] [1] [] []
  gather_S4096x256_S1024x1_S1024x256_1_0_n_n_0_1_1256_wf : GatherDims.WF S4096x256 S1024x1 S1024x256 [1] [0] [] [0] [] 1 ![1, 256]
  dot_S1024x512_S512x256_S1024x256_1_0_0_1_n_n_wf : DotDims.WF S1024x512 S512x256 S1024x256 [1] [0] [0] [1] [] []

variable [Facts₀]

def dot_S4096x32768_S32768x128_S4096x128_1_0_0_1_n_n : DotDims S4096x32768 S32768x128 S4096x128 where
  lhsContracting := [1]
  rhsContracting := [0]
  lhsNonContracting := [0]
  rhsNonContracting := [1]
  lhsBatch := []
  rhsBatch := []
  wf := dot_S4096x32768_S32768x128_S4096x128_1_0_0_1_n_n_wf
def gather_S32768x128_S4096x1_S4096x128_1_0_n_n_0_1_1128 : GatherDims S32768x128 S4096x1 S4096x128 where
  offsetDims := [1]
  collapsedSliceDims := [0]
  operandBatchingDims := []
  startIndicesBatchingDims := []
  startIndexMap := [0]
  indexVectorDim := 1
  sliceSizes := ![1, 128]
  wf := gather_S32768x128_S4096x1_S4096x128_1_0_n_n_0_1_1128_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S1024x4096_S4096x256_S1024x256_1_0_0_1_n_n : DotDims S1024x4096 S4096x256 S1024x256 where
  lhsContracting := [1]
  rhsContracting := [0]
  lhsNonContracting := [0]
  rhsNonContracting := [1]
  lhsBatch := []
  rhsBatch := []
  wf := dot_S1024x4096_S4096x256_S1024x256_1_0_0_1_n_n_wf
def gather_S4096x256_S1024x1_S1024x256_1_0_n_n_0_1_1256 : GatherDims S4096x256 S1024x1 S1024x256 where
  offsetDims := [1]
  collapsedSliceDims := [0]
  operandBatchingDims := []
  startIndicesBatchingDims := []
  startIndexMap := [0]
  indexVectorDim := 1
  sliceSizes := ![1, 256]
  wf := gather_S4096x256_S1024x1_S1024x256_1_0_n_n_0_1_1256_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf

class Facts : Prop extends Facts₀ where

variable [Facts]
-- ==== Proof.Region0.lean ====
/-
  Region 0 of @main: the K-blocked matrix product. Each grid point multiplies one block of the left operand by
  one block of the right operand and adds the product to an accumulator kept in scratch memory; the accumulator is
  reset at the first step along the contracted axis and copied to the output block at the last.
-/
import proofs.«161480_j6485400617280_1_alg».proof.Proof.Gen.KernelIdeal.Launch
import proofs.«161480_j6485400617280_1_alg».proof.Proof.Gen.KernelIdeal.Skeleton
import proofs.«161480_j6485400617280_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The kernel body on any whole staging memrefs, case by case -/

/-- The branch that resets the accumulator is taken where the contracted coordinate is zero. -/
abbrev fr0_cond0 (i : grid0.Coords) : Prop := (Scalar.cmpi .ne (Scalar.extui (Scalar.cmpi .eq (BitVec.ofNat 32 (i 1).val) 0#32)) 0#32) = 1#1
/-- The branch that copies the accumulator out is taken where the contracted coordinate is the last. -/
abbrev fr0_cond1 (i : grid0.Coords) : Prop := k0_cond2 i = 1#1

theorem fr0_hzA : (![0, 0] : Fin S1024x128.rank → Nat) = fun _ => 0 := funext fun a => by fin_cases a <;> rfl
theorem fr0_hzL : (![0, 0] : Fin S1024x2048.rank → Nat) = fun _ => 0 := funext fun a => by fin_cases a <;> rfl
theorem fr0_hzR : (![0, 0] : Fin S2048x128.rank → Nat) = fun _ => 0 := funext fun a => by fin_cases a <;> rfl

/-- A store through the whole-shape rectangle at zero offsets, made last, leaves its payload, whatever was stored
    before it and whatever the buffer held. -/
theorem fr0_read_writes_last {S : Shape} {e : EltTy} {sp : Space} (v : View sig .tc sp S e) (f : v.ty.Contents (Elt F))
    {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h]

set_option maxHeartbeats 1000000 in
/-- A first step along the contracted axis: the accumulator, at anything, is zeroed and then holds the product of the
    two blocks added to zero; the output block is handed back untouched. -/
theorem fr0_runA (c : Dev nD) (i : grid0.Coords)
    (arg2 : Memref sig .tc .vmem S1024x2048 .f32) (harg2 : arg2.IsWhole)
    (arg3 : Memref sig .tc .vmem S2048x128 .f32) (harg3 : arg3.IsWhole)
    (arg4 : Memref sig .tc .vmem S1024x128 .f32) (harg4 : arg4.IsWhole)
    (arg5 : Memref sig .tc .vmem S1024x128 .f32) (harg5 : arg5.IsWhole)
    (hc0 : fr0_cond0 i) (hc1 : ¬fr0_cond1 i)
    (x0 : Vec F S1024x2048 .f32) (x1 : Vec F S2048x128 .f32) (xi : Vec F S1024x128 .f32)
    (E : Set ℕ) (K : PUnit → sProp 𝕄) :
    iprop(owns (c : Thread nD τ) arg2 fullShare x0 ∗ owns (c : Thread nD τ) arg3 fullShare x1 ∗ owns (c : Thread nD τ) arg4 fullShare xi
        ∗ (∃ d, owns (c : Thread nD τ) arg5 fullShare d)
        ∗ (iprop(owns (c : Thread nD τ) arg2 fullShare x0 ∗ owns (c : Thread nD τ) arg3 fullShare x1 ∗ owns (c : Thread nD τ) arg4 fullShare xi
            ∗ owns (c : Thread nD τ) arg5 fullShare (k0_pay2 x0 x1 (k0_pay1 (F := F)))) -∗ K ⟨⟩))
      ⊢ wp frame (wpE (defs₀ (F := F)) Variants.none c none) E (cc0__matmul_kernel i arg2 harg2 arg3 harg3 arg4 harg4 arg5 harg5) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%ds0, %fs0, -, HS0⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS0
  ipureintro
  refine (fr0_read_writes_last (S := S1024x128) _ _ fr0_hzA inb_S1024x128_S1024x128_0_0 _ _).trans ?_
  sl_unfold_words
  simp only [View.readAt_eq_ld, harg2.read_unread, harg3.read_unread, View.ld_unit_zero (S := S1024x2048) fr0_hzL,
    View.ld_unit_zero (S := S2048x128) fr0_hzR, View.readCov_unit_zero (S := S1024x128) _ fr0_hzA]

set_option maxHeartbeats 1000000 in
/-- A middle step along the contracted axis: the accumulator, at what the step before left, gains the product of the
    two blocks; the output block is handed back untouched. -/
theorem fr0_runB (c : Dev nD) (i : grid0.Coords)
    (arg2 : Memref sig .tc .vmem S1024x2048 .f32) (harg2 : arg2.IsWhole)
    (arg3 : Memref sig .tc .vmem S2048x128 .f32) (harg3 : arg3.IsWhole)
    (arg4 : Memref sig .tc .vmem S1024x128 .f32) (harg4 : arg4.IsWhole)
    (arg5 : Memref sig .tc .vmem S1024x128 .f32) (harg5 : arg5.IsWhole)
    (hc0 : ¬fr0_cond0 i) (hc1 : ¬fr0_cond1 i)
    (x0 : Vec F S1024x2048 .f32) (x1 : Vec F S2048x128 .f32) (xi : Vec F S1024x128 .f32) (xs : Vec F S1024x128 .f32)
    (E : Set ℕ) (K : PUnit → sProp 𝕄) :
    iprop(owns (c : Thread nD τ) arg2 fullShare x0 ∗ owns (c : Thread nD τ) arg3 fullShare x1 ∗ owns (c : Thread nD τ) arg4 fullShare xi
        ∗ owns (c : Thread nD τ) arg5 fullShare xs
        ∗ (iprop(owns (c : Thread nD τ) arg2 fullShare x0 ∗ owns (c : Thread nD τ) arg3 fullShare x1 ∗ owns (c : Thread nD τ) arg4 fullShare xi
            ∗ owns (c : Thread nD τ) arg5 fullShare (k0_pay2 x0 x1 xs)) -∗ K ⟨⟩))
      ⊢ wp frame (wpE (defs₀ (F := F)) Variants.none c none) E (cc0__matmul_kernel i arg2 harg2 arg3 harg3 arg4 harg4 arg5 harg5) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%fs0, %hfs0, HS0⟩, Hk⟩
  obtain rfl := harg2.eq_unread hf0; obtain rfl := harg3.eq_unread hf1; obtain rfl := harg4.eq_unread hf2
  obtain rfl := harg5.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS0
  ipureintro
  refine (fr0_read_writes_last (S := S1024x128) _ _ fr0_hzA inb_S1024x128_S1024x128_0_0 _ _).trans ?_
  try sl_unfold_words
  simp only [View.readAt_eq_ld, harg2.read_unread, harg3.read_unread, harg5.read_unread, View.ld_unit_zero (S := S1024x2048) fr0_hzL,
    View.ld_unit_zero (S := S2048x128) fr0_hzR, View.ld_unit_zero (S := S1024x128) fr0_hzA, View.readCov_unit_zero (S := S1024x128) _ fr0_hzA]

set_option maxHeartbeats 1000000 in
/-- The last step along the contracted axis: the accumulator gains the product of the two blocks and is copied whole
    into the output block, which held anything. -/
theorem fr0_runC (c : Dev nD) (i : grid0.Coords)
    (arg2 : Memref sig .tc .vmem S1024x2048 .f32) (harg2 : arg2.IsWhole)
    (arg3 : Memref sig .tc .vmem S2048x128 .f32) (harg3 : arg3.IsWhole)
    (arg4 : Memref sig .tc .vmem S1024x128 .f32) (harg4 : arg4.IsWhole)
    (arg5 : Memref sig .tc .vmem S1024x128 .f32) (harg5 : arg5.IsWhole)
    (hc0 : ¬fr0_cond0 i) (hc1 : fr0_cond1 i)
    (x0 : Vec F S1024x2048 .f32) (x1 : Vec F S2048x128 .f32) (xs : Vec F S1024x128 .f32)
    (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xs
        ∗ (iprop(owns (c : Thread nD τ) arg2 fullShare x0 ∗ owns (c : Thread nD τ) arg3 fullShare x1
            ∗ owns (c : Thread nD τ) arg4 fullShare (k0_pay2 x0 x1 xs)
            ∗ owns (c : Thread nD τ) arg5 fullShare (k0_pay2 x0 x1 xs)) -∗ K ⟨⟩))
      ⊢ wp frame (wpE (defs₀ (F := F)) Variants.none c none) E (cc0__matmul_kernel i arg2 harg2 arg3 harg3 arg4 harg4 arg5 harg5) K := by
  simp only [cc0__matmul_kernel_eq_skeleton]; unfold cc0__matmul_kernel_skel
  unfold owns
  iintro ⟨⟨%f0, %hf0, H0⟩, ⟨%f1, %hf1, H1⟩, ⟨%d2, %f2, -, H2⟩, ⟨%fs0, %hfs0, HS0⟩, Hk⟩
  obtain rfl := harg2.eq_unread hf0; obtain rfl := harg3.eq_unread hf1
  obtain rfl := harg5.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    refine (fr0_read_writes_last (S := S1024x128) _ _ fr0_hzA inb_S1024x128_S1024x128_0_0 _ _).trans ?_
    try sl_unfold_words
    simp only [View.readAt_eq_ld, harg2.read_unread, harg3.read_unread, harg5.read_unread, View.ld_unit_zero (S := S1024x2048) fr0_hzL,
      View.ld_unit_zero (S := S2048x128) fr0_hzR, View.ld_unit_zero (S := S1024x128) fr0_hzA, View.readCov_unit_zero (S := S1024x128) _ fr0_hzA]
  iexists _; isplitr
  swap; · iexact HS0
  ipureintro
  refine (fr0_read_writes_last (S := S1024x128) _ _ fr0_hzA inb_S1024x128_S1024x128_0_0 _ _).trans ?_
  try sl_unfold_words
  simp only [View.readAt_eq_ld, harg2.read_unread, harg3.read_unread, harg5.read_unread, View.ld_unit_zero (S := S1024x2048) fr0_hzL,
    View.ld_unit_zero (S := S2048x128) fr0_hzR, View.ld_unit_zero (S := S1024x128) fr0_hzA, View.readCov_unit_zero (S := S1024x128) _ fr0_hzA]

section
variable (V : (c : Dev nD) → (b : Ref sig .tc) → Buf (Elt F) ((c : Thread nD τ).loc b))

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator after the body at position `n`: at a first step along the contracted axis the product of the
    point's blocks added to zero, otherwise added to what the point before left. -/
def acc0 (c : Dev nD) : (n : ℕ) → n < cfg0.N → Vec F S1024x128 .f32
  | 0, hn => k0_pay2 (iblk0 V c 0 ⟨0, hn⟩) (iblk0 V c 1 ⟨0, hn⟩) (k0_pay1 (F := F))
  | n + 1, hn =>
    if (n + 1) % 16 = 0 then k0_pay2 (iblk0 V c 0 ⟨n + 1, hn⟩) (iblk0 V c 1 ⟨n + 1, hn⟩) (k0_pay1 (F := F))
    else k0_pay2 (iblk0 V c 0 ⟨n + 1, hn⟩) (iblk0 V c 1 ⟨n + 1, hn⟩) (acc0 c n (Nat.lt_of_succ_lt hn))

theorem acc0_first (c : Dev nD) (t : Fin cfg0.N) (h : t.val % 16 = 0) :
    acc0 V c t.val t.isLt = k0_pay2 (iblk0 V c 0 t) (iblk0 V c 1 t) (k0_pay1 (F := F)) := by
  obtain ⟨n, hn⟩ := t
  cases n with
  | zero => rfl
  | succ n => exact if_pos h

theorem acc0_next (c : Dev nD) (t : Fin cfg0.N) (h : ¬ t.val % 16 = 0) :
    acc0 V c t.val t.isLt = k0_pay2 (iblk0 V c 0 t) (iblk0 V c 1 t)
      (acc0 V c (t.val - 1) (Nat.lt_of_le_of_lt (Nat.sub_le _ _) t.isLt)) := by
  obtain ⟨n, hn⟩ := t
  cases n with
  | zero => exact absurd (Nat.zero_mod _) h
  | succ n => exact if_neg h

/-- The scratch accumulator, whole. -/
abbrev scM0 : Memref sig .tc .vmem S1024x128 .f32 := Memref.whole cc0_scratch0

/-- The core's scoped buffers other than region 0's staging buffers and its accumulator, each at some contents. -/
def restS0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg4_1), ((c : Thread nD τ).loc cc1_stg4_1) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg1_1), ((c : Thread nD τ).loc cc2_stg1_1) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_scratch0), ((c : Thread nD τ).loc cc2_scratch0) ↦{fullShare} f)
    ∗ (∃ f : Buf (Elt F) ((c : Thread nD τ).loc cc3_stg0_0), ((c : Thread nD τ).loc cc3_stg0_0) ↦{fullShare} f)
    ∗ (∃ f : Buf (Elt F) ((c : Thread nD τ).loc cc3_stg0_1), ((c : Thread nD τ).loc cc3_stg0_1) ↦{fullShare} f)
    ∗ (∃ f : Buf (Elt F) ((c : Thread nD τ).loc cc3_stg1_0), ((c : Thread nD τ).loc cc3_stg1_0) ↦{fullShare} f)
    ∗ (∃ f : Buf (Elt F) ((c : Thread nD τ).loc cc3_stg1_1), ((c : Thread nD τ).loc cc3_stg1_1) ↦{fullShare} f)
    ∗ (∃ f : Buf (Elt F) ((c : Thread nD τ).loc cc3_stg2_0), ((c : Thread nD τ).loc cc3_stg2_0) ↦{fullShare} f)
    ∗ (∃ f : Buf (Elt F) ((c : Thread nD τ).loc cc3_stg3_0), ((c : Thread nD τ).loc cc3_stg3_0) ↦{fullShare} f)
    ∗ (∃ f : Buf (Elt F) ((c : Thread nD τ).loc cc3_stg4_0), ((c : Thread nD τ).loc cc3_stg4_0) ↦{fullShare} f)
    ∗ (∃ f : Buf (Elt F) ((c : Thread nD τ).loc cc3_stg4_1), ((c : Thread nD τ).loc cc3_stg4_1) ↦{fullShare} f))

/-- The class invariant with the accumulator split off. -/
theorem PhiA0_eq (c : Dev nD) :
    (Pipeline.ΦA spec0 c : sProp 𝕄)
      ⊣⊢ iprop((∃ d, owns (c : Thread nD τ) (scM0) fullShare d) ∗ restS0 (F := F) c ∗ (∃ r, prngReg c r)) := by
  unfold Pipeline.ΦA restS0; rw [scopedRest0_eq]; simp only [scM0, owns_whole]
  exact sep_assoc

theorem fr0_PhiA0_eq (c : Dev nD) :
    (Pipeline.ΦA spec0 c : sProp 𝕄)
      = iprop((∃ d, owns (c : Thread nD τ) (scM0) fullShare d) ∗ restS0 (F := F) c ∗ (∃ r, prngReg c r)) :=
  BI.equiv_iff.mp ⟨(PhiA0_eq c).mp, (PhiA0_eq c).mpr⟩

/-- The region's invariant before position `n`: before the first point every scoped buffer at some contents; afterwards
    the accumulator at what the point before left. -/
def PhiS0 (c : Dev nD) : (n : ℕ) → n ≤ cfg0.N → sProp 𝕄
  | 0, _ => Pipeline.ΦA spec0 c
  | n + 1, hn => iprop(owns (c : Thread nD τ) (scM0) fullShare (acc0 V c n hn) ∗ restS0 (F := F) c ∗ (∃ r, prngReg c r))

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = acc0 V c t.val t.isLt := by dsimp only [dat0]

/-! ## The branch conditions and the output window's idle points, decided over the grid -/

/-- The reset branch is taken at the points ≡ 0 (mod 16). -/
theorem fr0_hcond0 : ∀ t : Fin cfg0.N, fr0_cond0 (grid0.coords t) ↔ t.val % 16 = 0 :=
  (by decide +kernel : ∀ t : Fin grid0.N, fr0_cond0 (grid0.coords t) ↔ t.val % 16 = 0)
/-- The copy-out branch is taken at the points ≡ 15 (mod 16). -/
theorem fr0_hcond1 : ∀ t : Fin cfg0.N, fr0_cond1 (grid0.coords t) ↔ t.val % 16 = 15 :=
  (by decide +kernel : ∀ t : Fin grid0.N, fr0_cond1 (grid0.coords t) ↔ t.val % 16 = 15)

/-- The input windows are never idle. -/
theorem fr0_live0 : ∀ t : Fin cfg0.N, cfg0.idle 0 (grid0.coords t) = false := by decide +kernel
theorem fr0_live1 : ∀ t : Fin cfg0.N, cfg0.idle 1 (grid0.coords t) = false := by decide +kernel
/-- The output window is idle at every point but a last step along the contracted axis, -/
theorem fr0_idle2 : ∀ t : Fin cfg0.N, ¬ t.val % 16 = 15 → cfg0.idle 2 (grid0.coords t) = true :=
  (by decide +kernel : ∀ t : Fin grid0.N, ¬ t.val % 16 = 15 → cfg0.idle 2 (grid0.coords t) = true)
/-- where it is not written back, -/
theorem fr0_noFlush2 (t : Fin cfg0.N) (h : ¬ t.val % 16 = 15) : (cfg0.win 2).flush t = false :=
  Bool.eq_false_iff.mpr fun hf => h ((flush0_2 t).mp hf)
/-- and live at a last step. -/
theorem fr0_live2 : ∀ t : Fin cfg0.N, t.val % 16 = 15 → cfg0.idle 2 (grid0.coords t) = false :=
  (by decide +kernel : ∀ t : Fin grid0.N, t.val % 16 = 15 → cfg0.idle 2 (grid0.coords t) = false)

/-- Each window's current staging memref at point `t`, and its wholeness. -/
abbrev fr0_ms0 (t : Fin cfg0.N) : Memref sig .tc .vmem S1024x2048 .f32 := win0_0.stage (cfg0.slots t 0)
abbrev fr0_hs0 (t : Fin cfg0.N) : (fr0_ms0 t).IsWhole := hstage0_0 ((cfg0.slots t 0).cast nbuf0_0)
abbrev fr0_ms1 (t : Fin cfg0.N) : Memref sig .tc .vmem S2048x128 .f32 := win0_1.stage (cfg0.slots t 1)
abbrev fr0_hs1 (t : Fin cfg0.N) : (fr0_ms1 t).IsWhole := hstage0_1 ((cfg0.slots t 1).cast nbuf0_1)
abbrev fr0_ms2 (t : Fin cfg0.N) : Memref sig .tc .vmem S1024x128 .f32 := win0_2.stage (cfg0.slots t 2)
abbrev fr0_hs2 (t : Fin cfg0.N) : (fr0_ms2 t).IsWhole := hstage0_2 ((cfg0.slots t 2).cast nbuf0_2)

/-! ## The invariant, point by point -/

theorem fr0_PhiS0_zero (c : Dev nD) (n : ℕ) (h : n ≤ cfg0.N) (hz : n = 0) : PhiS0 V c n h = Pipeline.ΦA spec0 c := by
  subst hz; rfl

/-- After point `n`: the accumulator at that point's contents. -/
theorem fr0_PhiS0_succ (c : Dev nD) (n : ℕ) (hn : n < cfg0.N) :
    PhiS0 V c (n + 1) hn = iprop(owns (c : Thread nD τ) (scM0) fullShare (acc0 V c n hn) ∗ restS0 (F := F) c ∗ (∃ r, prngReg c r)) := rfl

/-- Before a point that is not the first: the accumulator at what the point before left. -/
theorem fr0_PhiS0_pos (c : Dev nD) (n : ℕ) (h : n ≤ cfg0.N) (hz : n ≠ 0) :
    PhiS0 V c n h = iprop(owns (c : Thread nD τ) (scM0) fullShare (acc0 V c (n - 1) (by omega)) ∗ restS0 (F := F) c ∗ (∃ r, prngReg c r)) := by
  cases n with
  | zero => exact absurd rfl hz
  | succ n => rfl

/-- The invariant at a point's start, restated at `t.val`. -/
theorem fr0_PhiS0_castSucc (c : Dev nD) (t : Fin cfg0.N) :
    (dat0 V c).Φ t.castSucc = PhiS0 V c t.val (Nat.le_of_lt t.isLt) := by
  dsimp only [dat0]; simp only [Fin.coe_castSucc]

/-- Each input's current staging buffer holds its block at every point, fetched there or not. -/
theorem fr0_before0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem fr0_before1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-! ## The body obligation, at a generic point -/

/-- What the body is called with at point `t`, the windows one by one, -/
def fr0_bodyPre (c : Dev nD) (t : Fin cfg0.N) : sProp 𝕄 :=
  iprop((dat0 V c).Φ t.castSucc ∗ (dat0 V c).owesAt () t.castSucc
    ∗ (∃ d, owns (c : Thread nD τ) (fr0_ms0 t) fullShare ((dat0 V c).before 0 t d))
    ∗ (∃ d, owns (c : Thread nD τ) (fr0_ms1 t) fullShare ((dat0 V c).before 1 t d))
    ∗ (∃ d, owns (c : Thread nD τ) (fr0_ms2 t) fullShare ((dat0 V c).before 2 t d)))

/-- and what it returns. -/
def fr0_bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The inputs' buffers hold their blocks; the point's position along the contracted axis says
    which branches run. At a first step the accumulator (at anything before the first point, at what the point before
    left otherwise) is reset and accumulates; at a later step it accumulates onto what the point before left; at a last
    step it is also copied to the output's buffer, which is live there. Elsewhere the output's buffer is idle and handed
    back as found. The other scoped buffers and the generator register pass through. -/
theorem fr0_sound_body (c : Dev nD) (t : Fin cfg0.N) :
    fr0_bodyPre V c t ⊢ wp frame (wpE (defs₀ (F := F)) Variants.none c none) Set.univ (bodyAt0 t) (fun _ => fr0_bodyPost V c t) := by
  unfold fr0_bodyPre fr0_bodyPost bodyAt0
  simp only [fr0_before0, fr0_before1]
  rw [show (dat0 V c).owesAt () t.succ = (dat0 V c).owesAt () t.castSucc from rfl]
  rw [show (dat0 V c).Φ t.succ = PhiS0 V c (t.val + 1) t.isLt from rfl, fr0_PhiS0_succ]
  rw [show (dat0 V c).leavesExact 0 t = owns (c : Thread nD τ) (fr0_ms0 t) fullShare ((dat0 V c).after 0 t) from by
    unfold Dat.leavesExact; rw [fr0_live0 t], after0_0]
  rw [show (dat0 V c).leavesExact 1 t = owns (c : Thread nD τ) (fr0_ms1 t) fullShare ((dat0 V c).after 1 t) from by
    unfold Dat.leavesExact; rw [fr0_live1 t], after0_1]
  have hN : t.val < 64 := lt_of_lt_of_eq t.isLt (show cfg0.N = 64 from N_0)
  by_cases h0 : t.val % 16 = 0
  · have h1 : ¬ t.val % 16 = 15 := by omega
    rw [Dat.leavesExact_idle (dat0 V c) 2 t (fr0_idle2 t h1) (fr0_noFlush2 t h1)]
    rw [acc0_first V c t h0]
    by_cases hz : t.val = 0
    · rw [fr0_PhiS0_castSucc V c t, fr0_PhiS0_zero V c _ _ hz, fr0_PhiA0_eq]
      iintro ⟨⟨⟨%ds, HS⟩, HR, Hg⟩, Ho, ⟨%d0, H0⟩, ⟨%d1, H1⟩, ⟨%d2, H2⟩⟩
      iapply (fr0_runA c (grid0.coords t) (fr0_ms0 t) (fr0_hs0 t) (fr0_ms1 t) (fr0_hs1 t) (fr0_ms2 t) (fr0_hs2 t) scM0 (Memref.isWhole_whole _)
        ((fr0_hcond0 t).mpr h0) (fun h => h1 ((fr0_hcond1 t).mp h)) (iblk0 V c 0 t) (iblk0 V c 1 t) ((dat0 V c).before 2 t d2) Set.univ _)
      isplitl [H0]; · iexact H0
      isplitl [H1]; · iexact H1
      isplitl [H2]; · iexact H2
      isplitl [HS]; · iexists _; iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2
    · rw [fr0_PhiS0_castSucc V c t, fr0_PhiS0_pos V c _ _ hz]
      iintro ⟨⟨HS, HR, Hg⟩, Ho, ⟨%d0, H0⟩, ⟨%d1, H1⟩, ⟨%d2, H2⟩⟩
      iapply (fr0_runA c (grid0.coords t) (fr0_ms0 t) (fr0_hs0 t) (fr0_ms1 t) (fr0_hs1 t) (fr0_ms2 t) (fr0_hs2 t) scM0 (Memref.isWhole_whole _)
        ((fr0_hcond0 t).mpr h0) (fun h => h1 ((fr0_hcond1 t).mp h)) (iblk0 V c 0 t) (iblk0 V c 1 t) ((dat0 V c).before 2 t d2) Set.univ _)
      isplitl [H0]; · iexact H0
      isplitl [H1]; · iexact H1
      isplitl [H2]; · iexact H2
      isplitl [HS]; · iexists _; iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2
  · have hz : t.val ≠ 0 := fun e => h0 (by rw [e])
    rw [acc0_next V c t h0]
    rw [fr0_PhiS0_castSucc V c t, fr0_PhiS0_pos V c _ _ hz]
    by_cases h1 : t.val % 16 = 15
    · rw [show (dat0 V c).leavesExact 2 t = owns (c : Thread nD τ) (fr0_ms2 t) fullShare ((dat0 V c).after 2 t) from by
        unfold Dat.leavesExact; rw [fr0_live2 t h1], after0_2, acc0_next V c t h0]
      iintro ⟨⟨HS, HR, Hg⟩, Ho, ⟨%d0, H0⟩, ⟨%d1, H1⟩, ⟨%d2, H2⟩⟩
      iapply (fr0_runC c (grid0.coords t) (fr0_ms0 t) (fr0_hs0 t) (fr0_ms1 t) (fr0_hs1 t) (fr0_ms2 t) (fr0_hs2 t) scM0 (Memref.isWhole_whole _)
        (fun h => h0 ((fr0_hcond0 t).mp h)) ((fr0_hcond1 t).mpr h1) (iblk0 V c 0 t) (iblk0 V c 1 t)
        (acc0 V c (t.val - 1) (Nat.lt_of_le_of_lt (Nat.sub_le _ _) t.isLt)) Set.univ _)
      isplitl [H0]; · iexact H0
      isplitl [H1]; · iexact H1
      isplitl [H2]; · iexists _; iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexact H2
    · rw [Dat.leavesExact_idle (dat0 V c) 2 t (fr0_idle2 t h1) (fr0_noFlush2 t h1)]
      iintro ⟨⟨HS, HR, Hg⟩, Ho, ⟨%d0, H0⟩, ⟨%d1, H1⟩, ⟨%d2, H2⟩⟩
      iapply (fr0_runB c (grid0.coords t) (fr0_ms0 t) (fr0_hs0 t) (fr0_ms1 t) (fr0_hs1 t) (fr0_ms2 t) (fr0_hs2 t) scM0 (Memref.isWhole_whole _)
        (fun h => h0 ((fr0_hcond0 t).mp h)) (fun h => h1 ((fr0_hcond1 t).mp h)) (iblk0 V c 0 t) (iblk0 V c 1 t) ((dat0 V c).before 2 t d2)
        (acc0 V c (t.val - 1) (Nat.lt_of_le_of_lt (Nat.sub_le _ _) t.isLt)) Set.univ _)
      isplitl [H0]; · iexact H0
      isplitl [H1]; · iexact H1
      isplitl [H2]; · iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact fr0_sound_body V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, fr0_PhiS0_zero V c 0 _ rfl]
  try exact Idealize.SL.BI.Entails.refl _

/-- After the last point the invariant gives the class invariant back: the accumulator's contents are forgotten. -/
theorem hout0 (c : Dev nD) : (dat0 V c).Φ (Fin.last cfg0.N) ⊢ Pipeline.ΦA spec0 c := by
  have hne : (Fin.last cfg0.N).val ≠ 0 := by rw [Fin.val_last]; have : cfg0.N = 64 := N_0; omega
  rw [show (dat0 V c).Φ (Fin.last cfg0.N) = PhiS0 V c (Fin.last cfg0.N).val (Nat.le_of_lt_succ (Fin.last cfg0.N).isLt) from rfl,
    fr0_PhiS0_pos V c _ _ hne, fr0_PhiA0_eq]
  iintro ⟨HS, HR, Hg⟩
  isplitl [HS]
  · iexists _; iexact HS
  isplitl [HR]; · iexact HR
  iexact Hg

end

end Cert.KernelIdeal.Hand

end
-- ==== Proof.Region1.lean ====
/-
  Region 1 of @main: the dense transform of one row block. The body multiplies the block of node features by one
  weight matrix, the block of aggregated features by another, adds the two products and clamps the sum below at zero.
-/
import proofs.«161480_j6485400617280_1_alg».proof.Proof.Gen.KernelIdeal.Launch
import proofs.«161480_j6485400617280_1_alg».proof.Proof.Gen.KernelIdeal.Skeleton
import proofs.«161480_j6485400617280_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: every one goes through the whole-shape rectangle -/

/-- The offsets of every access of the body are zero. -/
theorem fr1_hz : (![0, 0] : Fin 2 → ℕ) = fun _ => 0 := by
  funext a; fin_cases a <;> rfl

/-- The output buffer's one store covers it: every index is in the whole-shape rectangle. -/
theorem fr1_cover (inb : ∀ a, (![0, 0] : Fin 2 → ℕ) a + S1024x256.size a ≤ S1024x256.size a) (w : Vec F S1024x256 .f32) (y : S1024x256.Idx) :
    ∃ pc ∈ ([⟨Rect.unit (s := S1024x256) ![0, 0] S1024x256.size inb, w⟩] : List (View.Piece (Elt F) S1024x256 .f32)), y ∈ pc.1.set :=
  ⟨⟨Rect.unit (s := S1024x256) ![0, 0] S1024x256.size inb, w⟩, List.mem_singleton_self _, View.mem_set_unit_zero (S := S1024x256) fr1_hz inb y⟩

/-- So ONE store through it leaves its payload, whatever the buffer held. -/
theorem fr1_read_store {κ : Kind} {sp : Space} (v : View sig κ sp S1024x256 .f32) (f : v.ty.Contents (Elt F))
    (inb : ∀ a, (![0, 0] : Fin 2 → ℕ) a + S1024x256.size a ≤ S1024x256.size a) (w : Vec F S1024x256 .f32) :
    v.read (Elt F) (v.writes (Elt F) f [⟨Rect.unit (s := S1024x256) ![0, 0] S1024x256.size inb, w⟩]) = w :=
  (View.read_writes_eq_canon v f _ (fr1_cover inb w)).trans (View.canon_unit_zero (S := S1024x256) fr1_hz inb w)

/-- A load through the whole-shape rectangle reads the contents: the row blocks' shape, -/
theorem fr1_readAt_rows {κ : Kind} {sp : Space} (v : View sig κ sp S1024x128 .f32) (f : v.ty.Contents (Elt F))
    (inb : ∀ a, (![0, 0] : Fin 2 → ℕ) a + S1024x128.size a ≤ S1024x128.size a) :
    v.readAt (Elt F) (Rect.unit (s := S1024x128) ![0, 0] S1024x128.size inb).toLoadRect f = v.read (Elt F) f :=
  (View.readAt_eq_ld v f _).trans (View.ld_unit_zero (S := S1024x128) fr1_hz inb _)

/-- and the weight matrices'. -/
theorem fr1_readAt_weights {κ : Kind} {sp : Space} (v : View sig κ sp S128x256 .f32) (f : v.ty.Contents (Elt F))
    (inb : ∀ a, (![0, 0] : Fin 2 → ℕ) a + S128x256.size a ≤ S128x256.size a) :
    v.readAt (Elt F) (Rect.unit (s := S128x256) ![0, 0] S128x256.size inb).toLoadRect f = v.read (Elt F) f :=
  (View.readAt_eq_ld v f _).trans (View.ld_unit_zero (S := S128x256) fr1_hz inb _)

section
variable (V : (c : Dev nD) → (b : Ref sig .tc) → Buf (Elt F) ((c : Thread nD τ).loc b))

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data of pipeline 1 on core `c`: each input's buffer keeps its block, the output's holds the body's
    value of the four input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay1 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t
    = k1_pay1 (iblk1 V c 0 t) (iblk1 V c 1 t) (iblk1 V c 2 t) (iblk1 V c 3 t) := by dsimp only [dat1]

/-- Input window 0's current staging buffer holds its block at every point, fetched there or not, for any proof data whose
    array is `V`'s and whose body leaves the block in place: unfetched, the block index has not moved. -/
theorem fr1_before_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data whose
    array is `V`'s and whose body leaves the block in place: unfetched, the block index has not moved. -/
theorem fr1_before_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data whose
    array is `V`'s and whose body leaves the block in place: unfetched, the block index has not moved. -/
theorem fr1_before_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof data whose
    array is `V`'s and whose body leaves the block in place: unfetched, the block index has not moved. -/
theorem fr1_before_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's triple -/

set_option maxHeartbeats 1000000 in
/-- The kernel body on whole staging memrefs, the four inputs' at read contents `x0 … x3` and the output's at anything,
    runs to the continuation holding the inputs' as they were and the output's at the payload of the four inputs: the
    four loads read the contents, the load of the output buffer reads a value nothing uses, and the one store, through
    the whole-shape rectangle, leaves its payload whatever the buffer held. -/
theorem fr1_sound_kernel (c : Dev nD) (E : Set ℕ) (i : grid1.Coords)
    (arg1 : Memref sig .tc .vmem S1024x128 .f32) (harg1 : arg1.IsWhole) (arg2 : Memref sig .tc .vmem S1024x128 .f32) (harg2 : arg2.IsWhole)
    (arg3 : Memref sig .tc .vmem S128x256 .f32) (harg3 : arg3.IsWhole) (arg4 : Memref sig .tc .vmem S128x256 .f32) (harg4 : arg4.IsWhole)
    (arg5 : Memref sig .tc .vmem S1024x256 .f32) (harg5 : arg5.IsWhole)
    (x0 : Vec F S1024x128 .f32) (x1 : Vec F S1024x128 .f32) (x2 : Vec F S128x256 .f32) (x3 : Vec F S128x256 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (k1_pay1 x0 x1 x2 x3)) -∗ K ⟨⟩))
      ⊢ wp frame (wpE (defs₀ (F := F)) Variants.none c none) E (cc1__sage_kernel i arg1 harg1 arg2 harg2 arg3 harg3 arg4 harg4 arg5 harg5) K := by
  simp only [cc1__sage_kernel_eq_skeleton]; unfold cc1__sage_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  -- the one store leaves its payload, and each load through the whole-shape rectangle reads the contents
  rw [fr1_read_store, fr1_readAt_rows, fr1_readAt_rows, fr1_readAt_weights, fr1_readAt_weights]

/-! ## The proof data's contents before the body -/

/-- Each input's current staging buffer holds its block at every point, fetched there or not. -/
theorem fr1_before_0 (c : Dev nD) (t : Fin cfg1.N) (d) : (dat1 V c).before 0 t d = iblk1 V c 0 t :=
  fr1_before_0_of V (dat1 V c) (A_eq1 V c 0) (after1_0 V c) t d
theorem fr1_before_1 (c : Dev nD) (t : Fin cfg1.N) (d) : (dat1 V c).before 1 t d = iblk1 V c 1 t :=
  fr1_before_1_of V (dat1 V c) (A_eq1 V c 1) (after1_1 V c) t d
theorem fr1_before_2 (c : Dev nD) (t : Fin cfg1.N) (d) : (dat1 V c).before 2 t d = iblk1 V c 2 t :=
  fr1_before_2_of V (dat1 V c) (A_eq1 V c 2) (after1_2 V c) t d
theorem fr1_before_3 (c : Dev nD) (t : Fin cfg1.N) (d) : (dat1 V c).before 3 t d = iblk1 V c 3 t :=
  fr1_before_3_of V (dat1 V c) (A_eq1 V c 3) (after1_3 V c) t d

/-! ## The body obligation, at a generic point -/

/-- What the body is called with at point `t`: the invariant, the core's `owes`, and the five windows' current staging
    buffers one by one, -/
def fr1_bodyPre (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def fr1_bodyPost (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the body's triple applies; the invariant and the
    core's `owes` pass through unread. -/
theorem fr1_sound_body (c : Dev nD) (t : Fin cfg1.N) :
    fr1_bodyPre V c t ⊢ wp frame (wpE (defs₀ (F := F)) Variants.none c none) Set.univ (bodyAt1 t) (fun _ => fr1_bodyPost V c t) := by
  unfold fr1_bodyPre fr1_bodyPost bodyAt1
  simp only [fr1_before_0, fr1_before_1, fr1_before_2, fr1_before_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (fr1_sound_kernel c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact fr1_sound_body V c t

end

end Cert.KernelIdeal.Hand

end
-- ==== Proof.Region2.lean ====
/-
  Region 2 of @main: the K-blocked matrix product. Each grid point multiplies one block of the left operand by
  one block of the right operand and adds the product to an accumulator kept in scratch memory; the accumulator is
  reset at the first step along the contracted axis and copied to the output block at the last.
-/
import proofs.«161480_j6485400617280_1_alg».proof.Proof.Gen.KernelIdeal.Launch
import proofs.«161480_j6485400617280_1_alg».proof.Proof.Gen.KernelIdeal.Skeleton
import proofs.«161480_j6485400617280_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, and where the windows are idle, decided over the grid -/

theorem fr2_hz2 : (![0, 0] : Fin 2 → Nat) = fun _ => 0 := funext fun a => by fin_cases a <;> rfl

/-- The first conditional's condition: the coordinate along the contracted axis is zero. -/
abbrev fr2_cond2_0 (i : grid2.Coords) : Prop := (Scalar.cmpi .ne (Scalar.extui (Scalar.cmpi .eq (BitVec.ofNat 32 (i 1).val) 0#32)) 0#32) = 1#1
/-- It holds at the points ≡ 0 (mod 4). -/
theorem fr2_hcond2_0 : ∀ t : Fin cfg2.N, fr2_cond2_0 (grid2.coords t) ↔ t.val % 4 = 0 :=
  (by decide +kernel : ∀ t : Fin grid2.N, fr2_cond2_0 (grid2.coords t) ↔ t.val % 4 = 0)

/-- The second conditional's condition: the coordinate along the contracted axis is the last. -/
abbrev fr2_cond2_1 (i : grid2.Coords) : Prop := k2_cond2 i = 1#1
/-- It holds at the points ≡ 3 (mod 4). -/
theorem fr2_hcond2_1 : ∀ t : Fin cfg2.N, fr2_cond2_1 (grid2.coords t) ↔ t.val % 4 = 3 :=
  (by decide +kernel : ∀ t : Fin grid2.N, fr2_cond2_1 (grid2.coords t) ↔ t.val % 4 = 3)

/-- The two input windows are never idle. -/
theorem fr2_liveAt2_0 : ∀ t : Fin cfg2.N, cfg2.idle 0 (grid2.coords t) = false := by decide +kernel
theorem fr2_liveAt2_1 : ∀ t : Fin cfg2.N, cfg2.idle 1 (grid2.coords t) = false := by decide +kernel
/-- The output window is idle, and not written back, at every point but the last step's; -/
theorem fr2_idleAt2_2 : ∀ t : Fin cfg2.N, ¬t.val % 4 = 3 → cfg2.idle 2 (grid2.coords t) = true := by decide +kernel
theorem fr2_noFlush2_2 : ∀ t : Fin cfg2.N, ¬t.val % 4 = 3 → (cfg2.win 2).flush t = false := by decide +kernel
/-- there it is live. -/
theorem fr2_liveAt2_2 : ∀ t : Fin cfg2.N, t.val % 4 = 3 → cfg2.idle 2 (grid2.coords t) = false := by decide +kernel

/-- Each window's current staging memref at point `t`, as the body is called with it, and its wholeness. -/
abbrev fr2_ms2_0 (t : Fin cfg2.N) : Memref sig .tc .vmem S1024x1024 .f32 := win2_0.stage (cfg2.slots t 0)
abbrev fr2_hs2_0 (t : Fin cfg2.N) : (fr2_ms2_0 t).IsWhole := hstage2_0 ((cfg2.slots t 0).cast nbuf2_0)
abbrev fr2_ms2_1 (t : Fin cfg2.N) : Memref sig .tc .vmem S1024x256 .f32 := win2_1.stage (cfg2.slots t 1)
abbrev fr2_hs2_1 (t : Fin cfg2.N) : (fr2_ms2_1 t).IsWhole := hstage2_1 ((cfg2.slots t 1).cast nbuf2_1)
abbrev fr2_ms2_2 (t : Fin cfg2.N) : Memref sig .tc .vmem S1024x256 .f32 := win2_2.stage (cfg2.slots t 2)
abbrev fr2_hs2_2 (t : Fin cfg2.N) : (fr2_ms2_2 t).IsWhole := hstage2_2 ((cfg2.slots t 2).cast nbuf2_2)

/-! ## The body on any whole memrefs, in each of its three cases

The printed body is its skeleton of loads and stores; each conditional is decided by the case's hypotheses. Every
load and store goes through the whole-shape rectangle at zero offsets, through which a load reads the contents and
a store leaves its payload; so each buffer ends at a named value of the payloads. -/
set_option maxHeartbeats 1000000 in
/-- The body at a first step along the contracted axis, not the last: the accumulator, found at anything, is zeroed and
    the product of the two blocks added to it; the output's buffer is untouched. -/
theorem fr2_kernelRun2_A (c : Dev nD) (i : grid2.Coords) (arg2 : Memref sig .tc .vmem S1024x1024 .f32) (harg2 : arg2.IsWhole)
    (arg3 : Memref sig .tc .vmem S1024x256 .f32) (harg3 : arg3.IsWhole) (arg4 : Memref sig .tc .vmem S1024x256 .f32) (harg4 : arg4.IsWhole)
    (arg5 : Memref sig .tc .vmem S1024x256 .f32) (harg5 : arg5.IsWhole) (hc0 : fr2_cond2_0 i) (hc1 : ¬fr2_cond2_1 i)
    (x0 : Vec F S1024x1024 .f32) (x1 : Vec F S1024x256 .f32) (xi : Vec F S1024x256 .f32)
    (E : Set ℕ) (K : PUnit → sProp 𝕄) :
    iprop(owns (c : Thread nD τ) arg2 fullShare x0 ∗ owns (c : Thread nD τ) arg3 fullShare x1 ∗ owns (c : Thread nD τ) arg4 fullShare xi
        ∗ (∃ d, owns (c : Thread nD τ) arg5 fullShare d)
        ∗ (iprop(owns (c : Thread nD τ) arg2 fullShare x0 ∗ owns (c : Thread nD τ) arg3 fullShare x1 ∗ owns (c : Thread nD τ) arg4 fullShare xi
            ∗ owns (c : Thread nD τ) arg5 fullShare (k2_pay2 x0 x1 (k2_pay1 (F := F)))) -∗ K ⟨⟩))
      ⊢ wp frame (wpE (defs₀ (F := F)) Variants.none c none) E (cc2__matmul_kernel i arg2 harg2 arg3 harg3 arg4 harg4 arg5 harg5) K := by
  simp only [cc2__matmul_kernel_eq_skeleton]; unfold cc2__matmul_kernel_skel
  unfold owns
  iintro ⟨⟨%f0, %hf0, H0⟩, ⟨%f1, %hf1, H1⟩, ⟨%f2, %hf2, H2⟩, ⟨%ds, %fs, -, HS⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact hf2
    iexact H2
  iexists _; isplitr
  swap; · iexact HS
  ipureintro
  sl_unfold_words
  rw [View.read_writes_eq_canon _ _ _ (fun y => ⟨_, List.mem_cons.mpr (Or.inl rfl), View.mem_set_unit_zero fr2_hz2 inb_S1024x256_S1024x256_0_0 y⟩),
    View.canon_cons_unit_zero fr2_hz2]
  simp only [View.readAt_eq_ld, harg2.read_unread, harg3.read_unread, View.ld_unit_zero (S := S1024x1024) fr2_hz2,
    View.ld_unit_zero (S := S1024x256) fr2_hz2, View.readCov_unit_zero (S := S1024x256) _ fr2_hz2]

set_option maxHeartbeats 1000000 in
/-- The body at a step along the contracted axis that is neither the first nor the last: the product of the two blocks
    is added to the accumulator; the output's buffer is untouched. -/
theorem fr2_kernelRun2_B (c : Dev nD) (i : grid2.Coords) (arg2 : Memref sig .tc .vmem S1024x1024 .f32) (harg2 : arg2.IsWhole)
    (arg3 : Memref sig .tc .vmem S1024x256 .f32) (harg3 : arg3.IsWhole) (arg4 : Memref sig .tc .vmem S1024x256 .f32) (harg4 : arg4.IsWhole)
    (arg5 : Memref sig .tc .vmem S1024x256 .f32) (harg5 : arg5.IsWhole) (hc0 : ¬fr2_cond2_0 i) (hc1 : ¬fr2_cond2_1 i)
    (x0 : Vec F S1024x1024 .f32) (x1 : Vec F S1024x256 .f32) (xi : Vec F S1024x256 .f32) (xs : Vec F S1024x256 .f32)
    (E : Set ℕ) (K : PUnit → sProp 𝕄) :
    iprop(owns (c : Thread nD τ) arg2 fullShare x0 ∗ owns (c : Thread nD τ) arg3 fullShare x1 ∗ owns (c : Thread nD τ) arg4 fullShare xi
        ∗ owns (c : Thread nD τ) arg5 fullShare xs
        ∗ (iprop(owns (c : Thread nD τ) arg2 fullShare x0 ∗ owns (c : Thread nD τ) arg3 fullShare x1 ∗ owns (c : Thread nD τ) arg4 fullShare xi
            ∗ owns (c : Thread nD τ) arg5 fullShare (k2_pay2 x0 x1 xs)) -∗ K ⟨⟩))
      ⊢ wp frame (wpE (defs₀ (F := F)) Variants.none c none) E (cc2__matmul_kernel i arg2 harg2 arg3 harg3 arg4 harg4 arg5 harg5) K := by
  simp only [cc2__matmul_kernel_eq_skeleton]; unfold cc2__matmul_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact hf2
    iexact H2
  iexists _; isplitr
  swap; · iexact HS
  ipureintro
  rw [View.read_writes_eq_canon _ _ _ (fun y => ⟨_, List.mem_singleton_self _, View.mem_set_unit_zero fr2_hz2 inb_S1024x256_S1024x256_0_0 y⟩), View.canon_unit_zero fr2_hz2]
  simp only [View.readAt_eq_ld, harg2.read_unread, harg3.read_unread, harg5.read_unread, View.ld_unit_zero (S := S1024x1024) fr2_hz2, View.ld_unit_zero (S := S1024x256) fr2_hz2]

set_option maxHeartbeats 1000000 in
/-- The body at the last step along the contracted axis, not the first: the product of the two blocks is added to the
    accumulator, and the accumulator copied whole to the output's buffer, found at anything. -/
theorem fr2_kernelRun2_C (c : Dev nD) (i : grid2.Coords) (arg2 : Memref sig .tc .vmem S1024x1024 .f32) (harg2 : arg2.IsWhole)
    (arg3 : Memref sig .tc .vmem S1024x256 .f32) (harg3 : arg3.IsWhole) (arg4 : Memref sig .tc .vmem S1024x256 .f32) (harg4 : arg4.IsWhole)
    (arg5 : Memref sig .tc .vmem S1024x256 .f32) (harg5 : arg5.IsWhole) (hc0 : ¬fr2_cond2_0 i) (hc1 : fr2_cond2_1 i)
    (x0 : Vec F S1024x1024 .f32) (x1 : Vec F S1024x256 .f32) (xs : Vec F S1024x256 .f32)
    (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xs
        ∗ (iprop(owns (c : Thread nD τ) arg2 fullShare x0 ∗ owns (c : Thread nD τ) arg3 fullShare x1 ∗ owns (c : Thread nD τ) arg4 fullShare (k2_pay2 x0 x1 xs)
            ∗ owns (c : Thread nD τ) arg5 fullShare (k2_pay2 x0 x1 xs)) -∗ K ⟨⟩))
      ⊢ wp frame (wpE (defs₀ (F := F)) Variants.none c none) E (cc2__matmul_kernel i arg2 harg2 arg3 harg3 arg4 harg4 arg5 harg5) K := by
  simp only [cc2__matmul_kernel_eq_skeleton]; unfold cc2__matmul_kernel_skel
  unfold owns
  iintro ⟨⟨%f0, %hf0, H0⟩, ⟨%f1, %hf1, H1⟩, ⟨%d2, %f2, -, H2⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_words
    rw [View.read_writes_eq_canon _ _ _ (fun y => ⟨_, List.mem_singleton_self _, View.mem_set_unit_zero fr2_hz2 inb_S1024x256_S1024x256_0_0 y⟩),
      View.canon_unit_zero fr2_hz2]
    simp only [View.readAt_eq_ld, harg2.read_unread, harg3.read_unread, harg5.read_unread, View.ld_unit_zero (S := S1024x1024) fr2_hz2,
    View.ld_unit_zero (S := S1024x256) fr2_hz2, View.readCov_unit_zero (S := S1024x256) _ fr2_hz2]
  iexists _; isplitr
  swap; · iexact HS
  ipureintro
  sl_unfold_words
  rw [View.read_writes_eq_canon _ _ _ (fun y => ⟨_, List.mem_singleton_self _, View.mem_set_unit_zero fr2_hz2 inb_S1024x256_S1024x256_0_0 y⟩),
    View.canon_unit_zero fr2_hz2]
  simp only [View.readAt_eq_ld, harg2.read_unread, harg3.read_unread, harg5.read_unread, View.ld_unit_zero (S := S1024x1024) fr2_hz2,
    View.ld_unit_zero (S := S1024x256) fr2_hz2, View.readCov_unit_zero (S := S1024x256) _ fr2_hz2]

section
variable (V : (c : Dev nD) → (b : Ref sig .tc) → Buf (Elt F) ((c : Thread nD τ).loc b))

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The accumulator after the body at position `n`: at a first step along the contracted axis the product of the
    point's blocks added to zero, otherwise added to what the point before left. -/
def acc2 (c : Dev nD) : (n : ℕ) → n < cfg2.N → Vec F S1024x256 .f32
  | 0, hn => k2_pay2 (iblk2 V c 0 ⟨0, hn⟩) (iblk2 V c 1 ⟨0, hn⟩) (k2_pay1 (F := F))
  | n + 1, hn =>
    if (n + 1) % 4 = 0 then k2_pay2 (iblk2 V c 0 ⟨n + 1, hn⟩) (iblk2 V c 1 ⟨n + 1, hn⟩) (k2_pay1 (F := F))
    else k2_pay2 (iblk2 V c 0 ⟨n + 1, hn⟩) (iblk2 V c 1 ⟨n + 1, hn⟩) (acc2 c n (Nat.lt_of_succ_lt hn))

theorem acc2_first (c : Dev nD) (t : Fin cfg2.N) (h : t.val % 4 = 0) :
    acc2 V c t.val t.isLt = k2_pay2 (iblk2 V c 0 t) (iblk2 V c 1 t) (k2_pay1 (F := F)) := by
  obtain ⟨n, hn⟩ := t
  cases n with
  | zero => rfl
  | succ n => exact if_pos h

theorem acc2_next (c : Dev nD) (t : Fin cfg2.N) (h : ¬ t.val % 4 = 0) :
    acc2 V c t.val t.isLt = k2_pay2 (iblk2 V c 0 t) (iblk2 V c 1 t)
      (acc2 V c (t.val - 1) (Nat.lt_of_le_of_lt (Nat.sub_le _ _) t.isLt)) := by
  obtain ⟨n, hn⟩ := t
  cases n with
  | zero => exact absurd (Nat.zero_mod _) h
  | succ n => exact if_neg h

/-- The scratch accumulator, whole. -/
abbrev scM2 : Memref sig .tc .vmem S1024x256 .f32 := Memref.whole cc2_scratch0

/-- The core's scoped buffers other than region 2's staging buffers and its accumulator, each at some contents. -/
def restS2 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_scratch0), ((c : Thread nD τ).loc cc0_scratch0) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg4_1), ((c : Thread nD τ).loc cc1_stg4_1) ↦{fullShare} f)
    ∗ (∃ f : Buf (Elt F) ((c : Thread nD τ).loc cc3_stg0_0), ((c : Thread nD τ).loc cc3_stg0_0) ↦{fullShare} f)
    ∗ (∃ f : Buf (Elt F) ((c : Thread nD τ).loc cc3_stg0_1), ((c : Thread nD τ).loc cc3_stg0_1) ↦{fullShare} f)
    ∗ (∃ f : Buf (Elt F) ((c : Thread nD τ).loc cc3_stg1_0), ((c : Thread nD τ).loc cc3_stg1_0) ↦{fullShare} f)
    ∗ (∃ f : Buf (Elt F) ((c : Thread nD τ).loc cc3_stg1_1), ((c : Thread nD τ).loc cc3_stg1_1) ↦{fullShare} f)
    ∗ (∃ f : Buf (Elt F) ((c : Thread nD τ).loc cc3_stg2_0), ((c : Thread nD τ).loc cc3_stg2_0) ↦{fullShare} f)
    ∗ (∃ f : Buf (Elt F) ((c : Thread nD τ).loc cc3_stg3_0), ((c : Thread nD τ).loc cc3_stg3_0) ↦{fullShare} f)
    ∗ (∃ f : Buf (Elt F) ((c : Thread nD τ).loc cc3_stg4_0), ((c : Thread nD τ).loc cc3_stg4_0) ↦{fullShare} f)
    ∗ (∃ f : Buf (Elt F) ((c : Thread nD τ).loc cc3_stg4_1), ((c : Thread nD τ).loc cc3_stg4_1) ↦{fullShare} f))

/-- The class invariant with the accumulator split off. -/
theorem PhiA2_eq (c : Dev nD) :
    (Pipeline.ΦA spec2 c : sProp 𝕄)
      ⊣⊢ iprop((∃ d, owns (c : Thread nD τ) (scM2) fullShare d) ∗ restS2 (F := F) c ∗ (∃ r, prngReg c r)) := by
  unfold Pipeline.ΦA; rw [scopedRest2_eq]; unfold restS2; simp only [scM2, owns_whole]
  constructor
  · -- the accumulator's conjunct is taken out of the chain
    iintro ⟨⟨H0, H1, H2, H3, H4, H5, H6, H7, H8, H9, H10, H11, H12, H13, H14, H15, H16, H17, H18, H19, H20, H21, H22, H23⟩, Hg⟩
    isplitl [H15]; · iexact H15
    isplitr [Hg]; swap; · iexact Hg
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H16]; · iexact H16
    isplitl [H17]; · iexact H17
    isplitl [H18]; · iexact H18
    isplitl [H19]; · iexact H19
    isplitl [H20]; · iexact H20
    isplitl [H21]; · iexact H21
    isplitl [H22]; · iexact H22
    iexact H23
  · -- and put back in its place
    iintro ⟨H15, ⟨H0, H1, H2, H3, H4, H5, H6, H7, H8, H9, H10, H11, H12, H13, H14, H16, H17, H18, H19, H20, H21, H22, H23⟩, Hg⟩
    isplitr [Hg]; swap; · iexact Hg
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    iexact H23

/-- The region's invariant before position `n`: before the first point every scoped buffer at some contents; afterwards
    the accumulator at what the point before left. -/
def PhiS2 (c : Dev nD) : (n : ℕ) → n ≤ cfg2.N → sProp 𝕄
  | 0, _ => Pipeline.ΦA spec2 c
  | n + 1, hn => iprop(owns (c : Thread nD τ) (scM2) fullShare (acc2 V c n hn) ∗ restS2 (F := F) c ∗ (∃ r, prngReg c r))

theorem fr2_PhiS2_zero (c : Dev nD) (n : ℕ) (h : n ≤ cfg2.N) (hz : n = 0) : PhiS2 V c n h = Pipeline.ΦA spec2 c := by
  subst hz; rfl

/-- After point `n`: the accumulator at that point's contents. -/
theorem fr2_PhiS2_succ (c : Dev nD) (n : ℕ) (hn : n < cfg2.N) :
    PhiS2 V c (n + 1) hn = iprop(owns (c : Thread nD τ) (scM2) fullShare (acc2 V c n hn) ∗ restS2 (F := F) c ∗ (∃ r, prngReg c r)) := rfl

/-- Before a point that is not the first: the accumulator at what the point before left. -/
theorem fr2_PhiS2_pos (c : Dev nD) (n : ℕ) (h : n ≤ cfg2.N) (hz : n ≠ 0) :
    PhiS2 V c n h = iprop(owns (c : Thread nD τ) (scM2) fullShare (acc2 V c (n - 1) (by omega)) ∗ restS2 (F := F) c ∗ (∃ r, prngReg c r)) := by
  cases n with
  | zero => exact absurd rfl hz
  | succ n => rfl

/-- The proof data of pipeline 2 on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => acc2 V c t.val t.isLt
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = acc2 V c t.val t.isLt := by dsimp only [dat2]

/-- The invariant at a point's start, restated at `t.val`. -/
theorem fr2_PhiS2_castSucc (c : Dev nD) (t : Fin cfg2.N) :
    (dat2 V c).Φ t.castSucc = PhiS2 V c t.val (Nat.le_of_lt t.isLt) := by
  dsimp only [dat2]; simp only [Fin.coe_castSucc]

/-- Each input's current staging buffer holds its block at every point, fetched there or not: unfetched, the
    window's index has not moved. -/
theorem fr2_before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0 V c]; unfold Dat.blockOf iblk2; rw [A_eq2 V c]; try rfl) t d).trans
    (by unfold Dat.fetched Dat.blockOf iblk2; rw [A_eq2 V c]; try rfl)
theorem fr2_before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1 V c]; unfold Dat.blockOf iblk2; rw [A_eq2 V c]; try rfl) t d).trans
    (by unfold Dat.fetched Dat.blockOf iblk2; rw [A_eq2 V c]; try rfl)

/-- What the body is called with at point `t`, the windows one by one, -/
def fr2_bodyPre2 (c : Dev nD) (t : Fin cfg2.N) : sProp 𝕄 :=
  iprop((dat2 V c).Φ t.castSucc ∗ (dat2 V c).owesAt () t.castSucc
    ∗ (∃ d, owns (c : Thread nD τ) (fr2_ms2_0 t) fullShare ((dat2 V c).before 0 t d))
    ∗ (∃ d, owns (c : Thread nD τ) (fr2_ms2_1 t) fullShare ((dat2 V c).before 1 t d))
    ∗ (∃ d, owns (c : Thread nD τ) (fr2_ms2_2 t) fullShare ((dat2 V c).before 2 t d)))

/-- and what it returns. -/
def fr2_bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point. The inputs' buffers hold their blocks; the point's position along the contracted axis says
    which of the three runs applies; the invariant hands the body the accumulator (at anything before the first point,
    at what the point before left afterwards) and takes it back at this point's sum; the output's buffer is handed
    back untouched where the window is idle, and at the accumulator's contents at the last step. -/
theorem fr2_sound_body2 (c : Dev nD) (t : Fin cfg2.N) :
    fr2_bodyPre2 V c t ⊢ wp frame (wpE (defs₀ (F := F)) Variants.none c none) Set.univ (bodyAt2 t) (fun _ => fr2_bodyPost2 V c t) := by
  unfold fr2_bodyPre2 fr2_bodyPost2 bodyAt2
  simp only [fr2_before2_0, fr2_before2_1]
  rw [show (dat2 V c).owesAt () t.succ = (dat2 V c).owesAt () t.castSucc from rfl]
  rw [show (dat2 V c).Φ t.succ = PhiS2 V c (t.val + 1) t.isLt from rfl, fr2_PhiS2_succ]
  have hN : t.val < 4 := lt_of_lt_of_eq t.isLt (show cfg2.N = 4 from N_2)
  rw [show (dat2 V c).leavesExact 0 t = owns (c : Thread nD τ) (fr2_ms2_0 t) fullShare ((dat2 V c).after 0 t) from by
    unfold Dat.leavesExact; rw [fr2_liveAt2_0 t], after2_0]
  rw [show (dat2 V c).leavesExact 1 t = owns (c : Thread nD τ) (fr2_ms2_1 t) fullShare ((dat2 V c).after 1 t) from by
    unfold Dat.leavesExact; rw [fr2_liveAt2_1 t], after2_1]
  by_cases h3 : t.val % 4 = 3
  · -- the last step: the output window is live, and gets the accumulator
    have h0 : ¬t.val % 4 = 0 := by omega
    have hz : t.val ≠ 0 := by omega
    rw [show (dat2 V c).leavesExact 2 t = owns (c : Thread nD τ) (fr2_ms2_2 t) fullShare ((dat2 V c).after 2 t) from by
      unfold Dat.leavesExact; rw [fr2_liveAt2_2 t h3], after2_2]
    rw [acc2_next V c t h0]
    rw [fr2_PhiS2_castSucc V c t, fr2_PhiS2_pos V c _ _ hz]
    iintro ⟨⟨HS, Hr, Hg⟩, Ho, ⟨%d0, H0⟩, ⟨%d1, H1⟩, ⟨%d2, H2⟩⟩
    iapply (fr2_kernelRun2_C c (grid2.coords t) _ _ _ _ _ _ _ _ (fun h => h0 ((fr2_hcond2_0 t).mp h)) ((fr2_hcond2_1 t).mpr h3)
      (iblk2 V c 0 t) (iblk2 V c 1 t) _ Set.univ _)
    isplitl [H0]; · iexact H0
    isplitl [H1]; · iexact H1
    isplitl [H2]; · iexists _; iexact H2
    isplitl [HS]; · iexact HS
    iintro ⟨H0, H1, H2, HS⟩
    isplitl [HS Hr Hg]
    · isplitl [HS]; · iexact HS
      isplitl [Hr]; · iexact Hr
      iexact Hg
    isplitl [Ho]; · iexact Ho
    isplitl [H0]; · iexact H0
    isplitl [H1]; · iexact H1
    iexact H2
  · -- any other step: the output window is idle and its buffer handed back as it was found
    rw [Dat.leavesExact_idle (dat2 V c) 2 t (fr2_idleAt2_2 t h3) (fr2_noFlush2_2 t h3)]
    by_cases h0 : t.val % 4 = 0
    · -- the first step: the accumulator, at anything, is reset
      have hz : t.val = 0 := by omega
      rw [acc2_first V c t h0]
      rw [fr2_PhiS2_castSucc V c t, fr2_PhiS2_zero V c _ _ hz]
      iintro ⟨HΦ, Ho, ⟨%d0, H0⟩, ⟨%d1, H1⟩, ⟨%d2, H2⟩⟩
      ihave ⟨HS, Hr, Hg⟩ := (PhiA2_eq (F := F) c).1 $$ HΦ
      iapply (fr2_kernelRun2_A c (grid2.coords t) _ _ _ _ _ _ _ _ ((fr2_hcond2_0 t).mpr h0) (fun h => h3 ((fr2_hcond2_1 t).mp h))
        (iblk2 V c 0 t) (iblk2 V c 1 t) _ Set.univ _)
      isplitl [H0]; · iexact H0
      isplitl [H1]; · iexact H1
      isplitl [H2]; · iexact H2
      isplitl [HS]; · iexact HS
      iintro ⟨H0, H1, H2, HS⟩
      isplitl [HS Hr Hg]
      · isplitl [HS]; · iexact HS
        isplitl [Hr]; · iexact Hr
        iexact Hg
      isplitl [Ho]; · iexact Ho
      isplitl [H0]; · iexact H0
      isplitl [H1]; · iexact H1
      iexists _; iexact H2
    · -- a middle step: the accumulator is what the point before left
      have hz : t.val ≠ 0 := by omega
      rw [acc2_next V c t h0]
      rw [fr2_PhiS2_castSucc V c t, fr2_PhiS2_pos V c _ _ hz]
      iintro ⟨⟨HS, Hr, Hg⟩, Ho, ⟨%d0, H0⟩, ⟨%d1, H1⟩, ⟨%d2, H2⟩⟩
      iapply (fr2_kernelRun2_B c (grid2.coords t) _ _ _ _ _ _ _ _ (fun h => h0 ((fr2_hcond2_0 t).mp h)) (fun h => h3 ((fr2_hcond2_1 t).mp h))
        (iblk2 V c 0 t) (iblk2 V c 1 t) _ _ Set.univ _)
      isplitl [H0]; · iexact H0
      isplitl [H1]; · iexact H1
      isplitl [H2]; · iexact H2
      isplitl [HS]; · iexact HS
      iintro ⟨H0, H1, H2, HS⟩
      isplitl [HS Hr Hg]
      · isplitl [HS]; · iexact HS
        isplitl [Hr]; · iexact Hr
        iexact Hg
      isplitl [Ho]; · iexact Ho
      isplitl [H0]; · iexact H0
      isplitl [H1]; · iexact H1
      iexists _; iexact H2

/-- The library's body obligation, at every point. -/
theorem body_obligation2 (c : Dev nD) : BodyObligation (dat2 (F := F) V c) (defs₀ (F := F)) Variants.none () Set.univ := fun t => by
  rw [bigSep_W2, bigSep_W2]
  exact fr2_sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, fr2_PhiS2_zero V c 0 _ rfl]

/-- After the last point the invariant gives the class invariant back: the accumulator's contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    fr2_PhiS2_pos V c _ _ (by rw [Fin.val_last]; have : cfg2.N = 4 := N_2; omega)]
  iintro ⟨HS, Hr, Hg⟩
  iapply (PhiA2_eq (F := F) c).2
  isplitl [HS]
  · iexists _; iexact HS
  isplitl [Hr]; · iexact Hr
  iexact Hg

end

end Cert.KernelIdeal.Hand

end
-- ==== Proof.Region3.lean ====
/-
  Region 3 of @main: the dense transform of one row block. The body multiplies the block of node features by one
  weight matrix, the block of aggregated features by another, adds the two products and clamps the sum below at zero.
-/
import proofs.«161480_j6485400617280_1_alg».proof.Proof.Gen.KernelIdeal.Launch
import proofs.«161480_j6485400617280_1_alg».proof.Proof.Gen.KernelIdeal.Skeleton
import proofs.«161480_j6485400617280_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: every one goes through the whole-shape rectangle -/

/-- The offsets of every access of the body are zero. -/
theorem fr3_hz : (![0, 0] : Fin 2 → ℕ) = fun _ => 0 := by
  funext a; fin_cases a <;> rfl

/-- The output buffer's one store covers it: every index is in the whole-shape rectangle. -/
theorem fr3_cover (inb : ∀ a, (![0, 0] : Fin 2 → ℕ) a + S512x256.size a ≤ S512x256.size a) (w : Vec F S512x256 .f32) (y : S512x256.Idx) :
    ∃ pc ∈ ([⟨Rect.unit (s := S512x256) ![0, 0] S512x256.size inb, w⟩] : List (View.Piece (Elt F) S512x256 .f32)), y ∈ pc.1.set :=
  ⟨⟨Rect.unit (s := S512x256) ![0, 0] S512x256.size inb, w⟩, List.mem_singleton_self _, View.mem_set_unit_zero (S := S512x256) fr3_hz inb y⟩

/-- So ONE store through it leaves its payload, whatever the buffer held. -/
theorem fr3_read_store {κ : Kind} {sp : Space} (v : View sig κ sp S512x256 .f32) (f : v.ty.Contents (Elt F))
    (inb : ∀ a, (![0, 0] : Fin 2 → ℕ) a + S512x256.size a ≤ S512x256.size a) (w : Vec F S512x256 .f32) :
    v.read (Elt F) (v.writes (Elt F) f [⟨Rect.unit (s := S512x256) ![0, 0] S512x256.size inb, w⟩]) = w :=
  (View.read_writes_eq_canon v f _ (fr3_cover inb w)).trans (View.canon_unit_zero (S := S512x256) fr3_hz inb w)

/-- A load through the whole-shape rectangle reads the contents: the row blocks' shape, -/
theorem fr3_readAt_rows {κ : Kind} {sp : Space} (v : View sig κ sp S512x256 .f32) (f : v.ty.Contents (Elt F))
    (inb : ∀ a, (![0, 0] : Fin 2 → ℕ) a + S512x256.size a ≤ S512x256.size a) :
    v.readAt (Elt F) (Rect.unit (s := S512x256) ![0, 0] S512x256.size inb).toLoadRect f = v.read (Elt F) f :=
  (View.readAt_eq_ld v f _).trans (View.ld_unit_zero (S := S512x256) fr3_hz inb _)

/-- and the weight matrices'. -/
theorem fr3_readAt_weights {κ : Kind} {sp : Space} (v : View sig κ sp S256x256 .f32) (f : v.ty.Contents (Elt F))
    (inb : ∀ a, (![0, 0] : Fin 2 → ℕ) a + S256x256.size a ≤ S256x256.size a) :
    v.readAt (Elt F) (Rect.unit (s := S256x256) ![0, 0] S256x256.size inb).toLoadRect f = v.read (Elt F) f :=
  (View.readAt_eq_ld v f _).trans (View.ld_unit_zero (S := S256x256) fr3_hz inb _)

section
variable (V : (c : Dev nD) → (b : Ref sig .tc) → Buf (Elt F) ((c : Thread nD τ).loc b))

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The proof data of pipeline 3 on core `c`: each input's buffer keeps its block, the output's holds the body's
    value of the four input blocks. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => k3_pay1 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t
    = k3_pay1 (iblk3 V c 0 t) (iblk3 V c 1 t) (iblk3 V c 2 t) (iblk3 V c 3 t) := by dsimp only [dat3]

/-- Input window 0's current staging buffer holds its block at every point, fetched there or not, for any proof data whose
    array is `V`'s and whose body leaves the block in place: unfetched, the block index has not moved. -/
theorem fr3_before_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof data whose
    array is `V`'s and whose body leaves the block in place: unfetched, the block index has not moved. -/
theorem fr3_before_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof data whose
    array is `V`'s and whose body leaves the block in place: unfetched, the block index has not moved. -/
theorem fr3_before_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for any proof data whose
    array is `V`'s and whose body leaves the block in place: unfetched, the block index has not moved. -/
theorem fr3_before_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's triple -/

set_option maxHeartbeats 1000000 in
/-- The kernel body on whole staging memrefs, the four inputs' at read contents `x0 … x3` and the output's at anything,
    runs to the continuation holding the inputs' as they were and the output's at the payload of the four inputs: the
    four loads read the contents, the load of the output buffer reads a value nothing uses, and the one store, through
    the whole-shape rectangle, leaves its payload whatever the buffer held. -/
theorem fr3_sound_kernel (c : Dev nD) (E : Set ℕ) (i : grid3.Coords)
    (arg1 : Memref sig .tc .vmem S512x256 .f32) (harg1 : arg1.IsWhole) (arg2 : Memref sig .tc .vmem S512x256 .f32) (harg2 : arg2.IsWhole)
    (arg3 : Memref sig .tc .vmem S256x256 .f32) (harg3 : arg3.IsWhole) (arg4 : Memref sig .tc .vmem S256x256 .f32) (harg4 : arg4.IsWhole)
    (arg5 : Memref sig .tc .vmem S512x256 .f32) (harg5 : arg5.IsWhole)
    (x0 : Vec F S512x256 .f32) (x1 : Vec F S512x256 .f32) (x2 : Vec F S256x256 .f32) (x3 : Vec F S256x256 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (k3_pay1 x0 x1 x2 x3)) -∗ K ⟨⟩))
      ⊢ wp frame (wpE (defs₀ (F := F)) Variants.none c none) E (cc3__sage_kernel i arg1 harg1 arg2 harg2 arg3 harg3 arg4 harg4 arg5 harg5) K := by
  simp only [cc3__sage_kernel_eq_skeleton]; unfold cc3__sage_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  -- the one store leaves its payload, and each load through the whole-shape rectangle reads the contents
  rw [fr3_read_store, fr3_readAt_rows, fr3_readAt_rows, fr3_readAt_weights, fr3_readAt_weights]

/-! ## The proof data's contents before the body -/

/-- Each input's current staging buffer holds its block at every point, fetched there or not. -/
theorem fr3_before_0 (c : Dev nD) (t : Fin cfg3.N) (d) : (dat3 V c).before 0 t d = iblk3 V c 0 t :=
  fr3_before_0_of V (dat3 V c) (A_eq3 V c 0) (after3_0 V c) t d
theorem fr3_before_1 (c : Dev nD) (t : Fin cfg3.N) (d) : (dat3 V c).before 1 t d = iblk3 V c 1 t :=
  fr3_before_1_of V (dat3 V c) (A_eq3 V c 1) (after3_1 V c) t d
theorem fr3_before_2 (c : Dev nD) (t : Fin cfg3.N) (d) : (dat3 V c).before 2 t d = iblk3 V c 2 t :=
  fr3_before_2_of V (dat3 V c) (A_eq3 V c 2) (after3_2 V c) t d
theorem fr3_before_3 (c : Dev nD) (t : Fin cfg3.N) (d) : (dat3 V c).before 3 t d = iblk3 V c 3 t :=
  fr3_before_3_of V (dat3 V c) (A_eq3 V c 3) (after3_3 V c) t d

/-! ## The body obligation, at a generic point -/

/-- What the body is called with at point `t`: the invariant, the core's `owes`, and the five windows' current staging
    buffers one by one, -/
def fr3_bodyPre (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def fr3_bodyPost (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the inputs' memrefs hold their blocks, so the body's triple applies; the invariant and the
    core's `owes` pass through unread. -/
theorem fr3_sound_body (c : Dev nD) (t : Fin cfg3.N) :
    fr3_bodyPre V c t ⊢ wp frame (wpE (defs₀ (F := F)) Variants.none c none) Set.univ (bodyAt3 t) (fun _ => fr3_bodyPost V c t) := by
  unfold fr3_bodyPre fr3_bodyPost bodyAt3
  simp only [fr3_before_0, fr3_before_1, fr3_before_2, fr3_before_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (fr3_sound_kernel c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation3 (c : Dev nD) : BodyObligation (dat3 (F := F) V c) (defs₀ (F := F)) Variants.none () Set.univ := fun t => by
  rw [bigSep_W3, bigSep_W3]
  exact fr3_sound_body V c t

end

end Cert.KernelIdeal.Hand

end
-- ==== Proof.Run.lean ====
/-
  The run of @main: four kernel regions among two stretches of host operations. The contents of every unscoped buffer
  at each boundary between two items are named by a fold from the launch memory: a host stretch applies its operations,
  a region leaves its arrays at what its write-backs leave and every other buffer as it was.
-/
import proofs.«161480_j6485400617280_1_alg».proof.Proof.Region0
import proofs.«161480_j6485400617280_1_alg».proof.Proof.Region1
import proofs.«161480_j6485400617280_1_alg».proof.Proof.Region2
import proofs.«161480_j6485400617280_1_alg».proof.Proof.Region3
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (region 0's entry: no host operation comes before it). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- At region 0's exit. -/
def W1 (c : Dev nD) : Valuation τ sig (Elt F) :=
  Pipeline.withArrays spec0 c (W0 m ρ c) fun w => (dat0 (V0 m ρ) c).arrAt w cfg0.N
abbrev V1 : (c : Dev nD) → (b : Ref sig .tc) → Buf (Elt F) ((c : Thread nD τ).loc b) := fun c b => W1 m ρ c b
/-- After the first host stretch (region 1's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- At region 1's exit (region 2's entry). -/
def W3 (c : Dev nD) : Valuation τ sig (Elt F) :=
  Pipeline.withArrays spec1 c (W2 m ρ c) fun w => (dat1 (V2 m ρ) c).arrAt w cfg1.N
abbrev V3 : (c : Dev nD) → (b : Ref sig .tc) → Buf (Elt F) ((c : Thread nD τ).loc b) := fun c b => W3 m ρ c b
/-- At region 2's exit. -/
def W4 (c : Dev nD) : Valuation τ sig (Elt F) :=
  Pipeline.withArrays spec2 c (W3 m ρ c) fun w => (dat2 (V3 m ρ) c).arrAt w cfg2.N
abbrev V4 : (c : Dev nD) → (b : Ref sig .tc) → Buf (Elt F) ((c : Thread nD τ).loc b) := fun c b => W4 m ρ c b
/-- After the second host stretch (region 3's entry). -/
abbrev W5 : Dev nD → Valuation τ sig (Elt F) := fun c => StableHlo.after hostOps3 (W4 m ρ c)
abbrev V5 : (c : Dev nD) → (b : Ref sig .tc) → Buf (Elt F) ((c : Thread nD τ).loc b) := fun c b => W5 m ρ c b
/-- At region 3's exit: the end of @main. -/
def W6 (c : Dev nD) : Valuation τ sig (Elt F) :=
  Pipeline.withArrays spec3 c (W5 m ρ c) fun w => (dat3 (V5 m ρ) c).arrAt w cfg3.N

theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
theorem W6_arr (c : Dev nD) (w : Fin cfg3.W) :
    W6 m ρ c (Proc.devRef .tc (Pipeline.arrRef spec3 w)) = (dat3 (V5 m ρ) c).arrAt w cfg3.N := by
  unfold W6; exact Pipeline.withArrays_arr spec3 launch3.win.arr_inj c _ _ w
theorem W6_of_ne (c : Dev nD) (b : Ref sig .tc) (hb : ∀ w, Pipeline.arrRef spec3 w ≠ b) :
    W6 m ρ c (Proc.devRef .tc b) = W5 m ρ c (Proc.devRef .tc b) := by
  unfold W6; exact Pipeline.withArrays_of_ne spec3 c _ _ b hb

/-! ## The proof data family -/

/-- The prefetched tables' admissible contents: no pipeline has a table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
  | ⟨2, _⟩ => fun c => dat2 (V3 m ρ) c
  | ⟨3, _⟩ => fun c => dat3 (V5 m ρ) c

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## What the host stretches write -/

/-- The references the first host stretch writes. -/
abbrev run_W1list : List (Ref sig .tc) := [main_c, main_v1, main_v2, main_c_0, main_v3, main_v4, main_v5, main_v6, main_v7, main_v8, main_v9, main_v10, main_v11]
/-- The references the second host stretch writes. -/
abbrev run_W3list : List (Ref sig .tc) := [main_c_1, main_v14, main_v15, main_c_2, main_v16, main_v17, main_v18, main_v19, main_v20, main_v21, main_v22, main_v23, main_v24]

/-- Every operation of the first host stretch writes a reference of the list. -/
theorem run_writes1 : (hostOps1 : List (HloOp τ sig (Elt F))).Forall fun op => op.writes ⊆ (run_W1list.map (Proc.devRef (τ := τ) .tc)).toFinset := by
  simp only [List.Forall, StableHlo.nullary_writes, StableHlo.unary_writes, StableHlo.binary_writes, StableHlo.ternary_writes,
    Finset.singleton_subset_iff, List.mem_toFinset]
  repeat' apply And.intro
  all_goals exact List.mem_map_of_mem (by decide)
/-- Every operation of the second host stretch writes a reference of the list. -/
theorem run_writes3 : (hostOps3 : List (HloOp τ sig (Elt F))).Forall fun op => op.writes ⊆ (run_W3list.map (Proc.devRef (τ := τ) .tc)).toFinset := by
  simp only [List.Forall, StableHlo.nullary_writes, StableHlo.unary_writes, StableHlo.binary_writes, StableHlo.ternary_writes,
    Finset.singleton_subset_iff, List.mem_toFinset]
  repeat' apply And.intro
  all_goals exact List.mem_map_of_mem (by decide)

/-- A reference the first host stretch does not write keeps its contents through it. -/
theorem run_keeps1 (V : Valuation τ sig (Elt F)) (r : Ref sig .tc) (h : r ∉ run_W1list) :
    StableHlo.after hostOps1 V (Proc.devRef .tc r) = V (Proc.devRef .tc r) :=
  StableHlo.after_of_writes_sub hostOps1 V run_writes1 h
/-- A reference the second host stretch does not write keeps its contents through it. -/
theorem run_keeps3 (V : Valuation τ sig (Elt F)) (r : Ref sig .tc) (h : r ∉ run_W3list) :
    StableHlo.after hostOps3 V (Proc.devRef .tc r) = V (Proc.devRef .tc r) :=
  StableHlo.after_of_writes_sub hostOps3 V run_writes3 h

/-- No operation of either host stretch allocates a buffer. -/
theorem run_fresh1 : (hostOps1 : List (HloOp τ sig (Elt F))).Forall fun op => op.fresh = ∅ := by
  simp only [List.Forall]; repeat' constructor
theorem run_fresh3 : (hostOps3 : List (HloOp τ sig (Elt F))).Forall fun op => op.fresh = ∅ := by
  simp only [List.Forall]; repeat' constructor

/-! ## The arguments end as launched

No host operation writes an argument and no region has one as an output window: a region reads it through an input
window, whose array the write-backs leave as entered, or does not touch it. So the fold at an argument's buffer
walks back to the launch memory. -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := run_keeps3 _ main_arg0 (by decide)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := run_keeps1 _ main_arg0 (by decide)
    _ = W0 m ρ c (Proc.devRef .tc main_arg0) := (W1_arr m ρ c 1).trans (((dat0 (V0 m ρ) c).arrAt_in 1 rfl _).trans (A_eq0 (V0 m ρ) c 1))
    _ = m ((c : Thread nD τ).loc main_arg0) := rfl
theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := run_keeps3 _ main_arg1 (by decide)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := run_keeps1 _ main_arg1 (by decide)
    _ = W0 m ρ c (Proc.devRef .tc main_arg1) := (W1_arr m ρ c 0).trans (((dat0 (V0 m ρ) c).arrAt_in 0 rfl _).trans (A_eq0 (V0 m ρ) c 0))
    _ = m ((c : Thread nD τ).loc main_arg1) := rfl
theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := run_keeps3 _ main_arg2 (by decide)
    _ = W3 m ρ c (Proc.devRef .tc main_arg2) := (W4_arr m ρ c 0).trans (((dat2 (V3 m ρ) c).arrAt_in 0 rfl _).trans (A_eq2 (V3 m ρ) c 0))
    _ = W2 m ρ c (Proc.devRef .tc main_arg2) := W3_of_ne m ρ c main_arg2 (by decide)
    _ = W1 m ρ c (Proc.devRef .tc main_arg2) := run_keeps1 _ main_arg2 (by decide)
    _ = W0 m ρ c (Proc.devRef .tc main_arg2) := W1_of_ne m ρ c main_arg2 (by decide)
    _ = m ((c : Thread nD τ).loc main_arg2) := rfl
theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := run_keeps3 _ main_arg3 (by decide)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := run_keeps1 _ main_arg3 (by decide)
    _ = W0 m ρ c (Proc.devRef .tc main_arg3) := W1_of_ne m ρ c main_arg3 (by decide)
    _ = m ((c : Thread nD τ).loc main_arg3) := rfl
theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := run_keeps3 _ main_arg4 (by decide)
    _ = W3 m ρ c (Proc.devRef .tc main_arg4) := W4_of_ne m ρ c main_arg4 (by decide)
    _ = W2 m ρ c (Proc.devRef .tc main_arg4) := W3_of_ne m ρ c main_arg4 (by decide)
    _ = W1 m ρ c (Proc.devRef .tc main_arg4) := run_keeps1 _ main_arg4 (by decide)
    _ = W0 m ρ c (Proc.devRef .tc main_arg4) := W1_of_ne m ρ c main_arg4 (by decide)
    _ = m ((c : Thread nD τ).loc main_arg4) := rfl
theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := run_keeps3 _ main_arg5 (by decide)
    _ = W3 m ρ c (Proc.devRef .tc main_arg5) := W4_of_ne m ρ c main_arg5 (by decide)
    _ = W2 m ρ c (Proc.devRef .tc main_arg5) := W3_of_ne m ρ c main_arg5 (by decide)
    _ = W1 m ρ c (Proc.devRef .tc main_arg5) := run_keeps1 _ main_arg5 (by decide)
    _ = W0 m ρ c (Proc.devRef .tc main_arg5) := W1_of_ne m ρ c main_arg5 (by decide)
    _ = m ((c : Thread nD τ).loc main_arg5) := rfl
theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := run_keeps3 _ main_arg6 (by decide)
    _ = W3 m ρ c (Proc.devRef .tc main_arg6) := W4_of_ne m ρ c main_arg6 (by decide)
    _ = W2 m ρ c (Proc.devRef .tc main_arg6) := W3_of_ne m ρ c main_arg6 (by decide)
    _ = W1 m ρ c (Proc.devRef .tc main_arg6) := run_keeps1 _ main_arg6 (by decide)
    _ = W0 m ρ c (Proc.devRef .tc main_arg6) := W1_of_ne m ρ c main_arg6 (by decide)
    _ = m ((c : Thread nD τ).loc main_arg6) := rfl

/-! ## The thread state -/

/-- The contents at the end, read at the TensorCore's references. -/
abbrev runV6 : (c : Dev nD) → (b : Ref sig .tc) → Buf (Elt F) ((c : Thread nD τ).loc b) := fun c b => W6 m ρ c b

/-- At region 0's exit each of its arrays holds what the pipeline leaves and every other buffer what it held at entry. -/
theorem run_hF0 (c : Dev nD) (w : Fin cfg0.W) : (dat0 (V0 m ρ) c).arrAt w cfg0.N = V1 m ρ c (Pipeline.arrRef spec0 w) :=
  (W1_arr m ρ c w).symm
theorem run_hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- At region 1's exit each of its arrays holds what the pipeline leaves and every other buffer what it held at entry. -/
theorem run_hF1 (c : Dev nD) (w : Fin cfg1.W) : (dat1 (V2 m ρ) c).arrAt w cfg1.N = V3 m ρ c (Pipeline.arrRef spec1 w) :=
  (W3_arr m ρ c w).symm
theorem run_hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit each of its arrays holds what the pipeline leaves and every other buffer what it held at entry. -/
theorem run_hF2 (c : Dev nD) (w : Fin cfg2.W) : (dat2 (V3 m ρ) c).arrAt w cfg2.N = V4 m ρ c (Pipeline.arrRef spec2 w) :=
  (W4_arr m ρ c w).symm
theorem run_hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- At region 3's exit each of its arrays holds what the pipeline leaves and every other buffer what it held at entry. -/
theorem run_hF3 (c : Dev nD) (w : Fin cfg3.W) : (dat3 (V5 m ρ) c).arrAt w cfg3.N = runV6 m ρ c (Pipeline.arrRef spec3 w) :=
  (W6_arr m ρ c w).symm
theorem run_hrest3 (c : Dev nD) : ∀ b, b ∉ Finset.univ.image (Pipeline.arrRef spec3) → runV6 m ρ c b = V5 m ρ c b :=
  fun b hb => W6_of_ne m ρ c b fun w e => hb (Finset.mem_image.mpr ⟨w, Finset.mem_univ _, e⟩)

abbrev run𝒱 : Variants := Variants.none
/-- No core owes another anything: no level is assigned. -/
abbrev runL : GSem nD τ sig → Finset Unit := fun _ => ∅
abbrev runLv : GSem nD τ sig → Unit → ℕ := fun _ _ => 0
/-- What rides beside the buffers through every segment: the core's generator register at some state and what it
    owes, which is nothing. -/
abbrev runR (c : Dev nD) : sProp 𝕄 := iprop((∃ r, prngReg c r) ∗ ∃ W, owes (c : Thread nD τ) (0 : CellTallies nD τ sig Unit) W)
/-- A host stretch as a segment over the unscoped references from the contents `W`, `runR` riding along: it leaves
    those references at the contents after its operations. -/
abbrev run_hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ run𝒱 runL runLv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W runR
/-- The last thread state without what the core owes: every unscoped buffer at the last boundary's contents, the
    generator register at some state. -/
abbrev runTn (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0 as a segment: entered from every unscoped buffer at `W0`, left at `W1`. Its arrays are split out of
    the unscoped buffers at entry and put back at the exit contents; the generator register and the scoped rest enter
    the region's invariant and come back; nothing is owed; the kernel has no semaphore of its own. -/
def run_reg0 : Pipeline.RegionSeg (pcfgs (F := F)) adm (pdats m ρ) () defs₀ run𝒱 runL runLv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ runL runLv 0 fun _ _ => rfl
  pre c := iprop(StableHlo.held (c : Thread nD τ) (Pipeline.ucRefs τ sig) (W0 m ρ c) ∗ runR c)
  post c := iprop(StableHlo.held (c : Thread nD τ) (Pipeline.ucRefs τ sig) (W1 m ρ c) ∗ runR c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V0 m ρ) c)
    unfold Pipeline.ΦA
    iintro ⟨Hp, -, Hr⟩
    isplitl [Hr]; · iexact Hr
    iexact Hp
  hout c := by
    refine BIBase.Entails.trans (hout0 (V0 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (run_hF0 m ρ c) (run_hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered from every unscoped buffer at `W2`, left at `W3`. Its arrays are split out of
    the unscoped buffers at entry and put back at the exit contents; the generator register and the scoped rest enter
    the region's invariant and come back; nothing is owed; the kernel has no semaphore of its own. -/
def run_reg1 : Pipeline.RegionSeg (pcfgs (F := F)) adm (pdats m ρ) () defs₀ run𝒱 runL runLv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ runL runLv 1 fun _ _ => rfl
  pre c := iprop(StableHlo.held (c : Thread nD τ) (Pipeline.ucRefs τ sig) (W2 m ρ c) ∗ runR c)
  post c := iprop(StableHlo.held (c : Thread nD τ) (Pipeline.ucRefs τ sig) (W3 m ρ c) ∗ runR c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (run_hF1 m ρ c) (run_hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered from every unscoped buffer at `W3`, left at `W4`. Its arrays are split out of
    the unscoped buffers at entry and put back at the exit contents; the generator register and the scoped rest enter
    the region's invariant and come back; nothing is owed; the kernel has no semaphore of its own. -/
def run_reg2 : Pipeline.RegionSeg (pcfgs (F := F)) adm (pdats m ρ) () defs₀ run𝒱 runL runLv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ runL runLv 2 fun _ _ => rfl
  pre c := iprop(StableHlo.held (c : Thread nD τ) (Pipeline.ucRefs τ sig) (W3 m ρ c) ∗ runR c)
  post c := iprop(StableHlo.held (c : Thread nD τ) (Pipeline.ucRefs τ sig) (W4 m ρ c) ∗ runR c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V3 m ρ) c)
    unfold Pipeline.ΦA
    iintro ⟨Hp, -, Hr⟩
    isplitl [Hr]; · iexact Hr
    iexact Hp
  hout c := by
    refine BIBase.Entails.trans (hout2 (V3 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (run_hF2 m ρ c) (run_hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as a segment: entered from every unscoped buffer at `W5`, left at `W6`. Its arrays are split out of
    the unscoped buffers at entry and put back at the exit contents; the generator register and the scoped rest enter
    the region's invariant and come back; nothing is owed; the kernel has no semaphore of its own. -/
def run_reg3 : Pipeline.RegionSeg (pcfgs (F := F)) adm (pdats m ρ) () defs₀ run𝒱 runL runLv 3 where
  win := launch3.win.to₀
  block_pos := launch3.block_pos
  stage_whole := launch3.stage_whole
  K := PEmpty
  osem k := k.elim
  ho := Pipeline.OwnSemFacts.none _
  hbody c := (body_obligation3 (V5 m ρ) c).loose
  hwaits := Pipeline.hwaits_of_owed_zero _ _ _ _ runL runLv 3 fun _ _ => rfl
  pre c := iprop(StableHlo.held (c : Thread nD τ) (Pipeline.ucRefs τ sig) (W5 m ρ c) ∗ runR c)
  post c := iprop(runTn m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V5 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V5 m ρ c) (runV6 m ρ c) ((pdats m ρ 3 c).arrAt · cfg3.N) (run_hF3 m ρ c) (run_hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

/-- @main's six segments in order. -/
abbrev run_segs : List (Pipeline.Seg (pcfgs (F := F)) adm (pdats m ρ) () defs₀ run𝒱 runL runLv) :=
  [ .region (run_reg0 m ρ),
    .host (run_hseg hostOps1 hostOps1_sub run_fresh1 (W1 m ρ)),
    .region (run_reg1 m ρ),
    .region (run_reg2 m ρ),
    .host (run_hseg hostOps3 hostOps3_sub run_fresh3 (W4 m ρ)),
    .region (run_reg3 m ρ) ]
/-- @main is the run of the segments: both are the same chain of items. -/
theorem run_main_eq (c : Dev nD) : main (F := F) c = Pipeline.Seg.run (run_segs m ρ) := (main_chain c).trans (by chain_rfl)

set_option backward.isDefEq.respectTransparency.types false in
/-- From any memory with zero counters every weakly fair execution of @main terminates, nothing faulting, and every
    final state holds every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ run𝒱 runL runLv m ρ main (run_segs m ρ)
    (fun c Q => by rw [run_main_eq m ρ c])
    (by simp only [run_segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ runR c)) (Tₙ := runTn m ρ)
    (hch := ⟨fun _ => .rfl, fun _ => .rfl, fun _ => .rfl, fun _ => .rfl, fun _ => .rfl, fun _ => .rfl, fun _ => .rfl⟩)
    (hinit := by
      refine Pipeline.initEach runL runLv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The result array at the end: what region 3's write-backs leave in its output. -/
theorem W6_result (c : Dev nD) : W6 m ρ c (Proc.devRef .tc main_v25) = (dat3 (V5 m ρ) c).arrAt 4 cfg3.N :=
  W6_arr m ρ c 4

/-- The frame: the arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c)⟩) (run_main m ρ)

/-- The run with the result named: the result array ends at what region 3 leaves, the arguments unchanged. -/
theorem run_value : θ_run defs (onTc (τ := τ) (main (F := F))) ⟨m, fun _ => 0, ρ⟩ (fun r => ∀ c : Dev nD,
      r.2.mem ((c.tc : Thread nD τ).loc main_v25) = (dat3 (V5 m ρ) c).arrAt 4 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v25 (by decide))).trans (W6_result m ρ c),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c)⟩) (run_main m ρ)

end Cert.KernelIdeal.Hand

end
-- ==== Proof.HostVals.lean ====
/-
  What the host stretches leave in the buffers the regions read: each region's operands as terms of the argument
  arrays and of the earlier regions' output arrays.
-/
import proofs.«161480_j6485400617280_1_alg».proof.Proof.Run
import proofs.«161480_j6485400617280_1_alg».proof.Proof.Gen.KernelIdeal.Regions
import Idealize.ShloMosaic.Lib.StableHlo.Run
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## After region 0: its inputs as launched, its output at what the write-backs leave -/

theorem W1_main_arg0 (c : Dev nD) : W1 m ρ c (Proc.devRef .tc main_arg0) = m ((c : Thread nD τ).loc main_arg0) :=
  (W1_arr m ρ c 1).trans (((dat0 (V0 m ρ) c).arrAt_in 1 rfl _).trans (A_eq0 (V0 m ρ) c 1))
theorem W1_main_arg1 (c : Dev nD) : W1 m ρ c (Proc.devRef .tc main_arg1) = m ((c : Thread nD τ).loc main_arg1) :=
  (W1_arr m ρ c 0).trans (((dat0 (V0 m ρ) c).arrAt_in 0 rfl _).trans (A_eq0 (V0 m ρ) c 0))
theorem W1_main_arg2 (c : Dev nD) : W1 m ρ c (Proc.devRef .tc main_arg2) = m ((c : Thread nD τ).loc main_arg2) := W1_of_ne m ρ c main_arg2 (by decide)
theorem W1_main_arg3 (c : Dev nD) : W1 m ρ c (Proc.devRef .tc main_arg3) = m ((c : Thread nD τ).loc main_arg3) := W1_of_ne m ρ c main_arg3 (by decide)
theorem W1_main_arg4 (c : Dev nD) : W1 m ρ c (Proc.devRef .tc main_arg4) = m ((c : Thread nD τ).loc main_arg4) := W1_of_ne m ρ c main_arg4 (by decide)
theorem W1_main_arg5 (c : Dev nD) : W1 m ρ c (Proc.devRef .tc main_arg5) = m ((c : Thread nD τ).loc main_arg5) := W1_of_ne m ρ c main_arg5 (by decide)
theorem W1_main_arg6 (c : Dev nD) : W1 m ρ c (Proc.devRef .tc main_arg6) = m ((c : Thread nD τ).loc main_arg6) := W1_of_ne m ρ c main_arg6 (by decide)
theorem W1_main_v0 (c : Dev nD) : W1 m ρ c (Proc.devRef .tc main_v0) = (dat0 (V0 m ρ) c).arrAt 2 cfg0.N := W1_arr m ρ c 2

/-! ## Region 1's operands, after the first host stretch -/

/-- The node features gathered at the first index list (negative indices wrapped by the host's select). -/
theorem V2_main_v7 (c : Dev nD) : V2 m ρ c main_v7
    = Host.gather gather_S32768x128_S4096x1_S4096x128_1_0_n_n_0_1_1128 (m ((c : Thread nD τ).loc main_arg0))
        (broadcastInDim S4096x1 ![0] bcast_S4096_S4096x1_0 (select (cmpi .slt (m ((c : Thread nD τ).loc main_arg5)) (broadcastInDim S4096 ![] bcast_S_S4096 (constantI S_ 32 0#32))) (addi (m ((c : Thread nD τ).loc main_arg5)) (broadcastInDim S4096 ![] bcast_S_S4096 (constantI S_ 32 32768#32))) (m ((c : Thread nD τ).loc main_arg5)))) := by
  show StableHlo.after hostOps1 (W1 m ρ c) (Proc.devRef .tc main_v7) = _
  after_results
  rw [W1_main_arg0, W1_main_arg5]
theorem V2_main_v9 (c : Dev nD) : V2 m ρ c main_v9
    = transpose S128x256 [1, 0] (extractStridedSlice S256x128 ![0, 0] (m ((c : Thread nD τ).loc main_arg3)) slices_S256x256_S256x128_0_0) transposes_S256x128_S128x256_1_0 := by
  show StableHlo.after hostOps1 (W1 m ρ c) (Proc.devRef .tc main_v9) = _
  after_results
  rw [W1_main_arg3]
theorem V2_main_v11 (c : Dev nD) : V2 m ρ c main_v11
    = transpose S128x256 [1, 0] (extractStridedSlice S256x128 ![0, 128] (m ((c : Thread nD τ).loc main_arg3)) slices_S256x256_S256x128_0_128) transposes_S256x128_S128x256_1_0 := by
  show StableHlo.after hostOps1 (W1 m ρ c) (Proc.devRef .tc main_v11) = _
  after_results
  rw [W1_main_arg3]
theorem W2_of (c : Dev nD) (r : Ref sig .tc) (h : r ∉ hostOps1_W) : W2 m ρ c (Proc.devRef .tc r) = W1 m ρ c (Proc.devRef .tc r) :=
  StableHlo.after_of_writes_sub hostOps1 _ hostOps1_writes h
theorem V2_main_v0 (c : Dev nD) : V2 m ρ c main_v0 = (dat0 (V0 m ρ) c).arrAt 2 cfg0.N :=
  (W2_of m ρ c main_v0 (by decide)).trans (W1_main_v0 m ρ c)

/-! ## Region 2's operands -/

theorem V3_main_v12 (c : Dev nD) : V3 m ρ c main_v12 = (dat1 (V2 m ρ) c).arrAt 4 cfg1.N := W3_arr m ρ c 4
theorem V3_main_arg2 (c : Dev nD) : V3 m ρ c main_arg2 = m ((c : Thread nD τ).loc main_arg2) :=
  (W3_of_ne m ρ c main_arg2 (by decide)).trans ((W2_of m ρ c main_arg2 (by decide)).trans (W1_main_arg2 m ρ c))

/-! ## After region 2 -/

theorem W4_main_v13 (c : Dev nD) : W4 m ρ c (Proc.devRef .tc main_v13) = (dat2 (V3 m ρ) c).arrAt 2 cfg2.N := W4_arr m ρ c 2
theorem W4_main_v12 (c : Dev nD) : W4 m ρ c (Proc.devRef .tc main_v12) = (dat1 (V2 m ρ) c).arrAt 4 cfg1.N :=
  (W4_arr m ρ c 1).trans (((dat2 (V3 m ρ) c).arrAt_in 1 rfl _).trans ((A_eq2 (V3 m ρ) c 1).trans (V3_main_v12 m ρ c)))
theorem W4_main_arg4 (c : Dev nD) : W4 m ρ c (Proc.devRef .tc main_arg4) = m ((c : Thread nD τ).loc main_arg4) :=
  (W4_of_ne m ρ c main_arg4 (by decide)).trans ((W3_of_ne m ρ c main_arg4 (by decide)).trans ((W2_of m ρ c main_arg4 (by decide)).trans (W1_main_arg4 m ρ c)))
theorem W4_main_arg6 (c : Dev nD) : W4 m ρ c (Proc.devRef .tc main_arg6) = m ((c : Thread nD τ).loc main_arg6) :=
  (W4_of_ne m ρ c main_arg6 (by decide)).trans ((W3_of_ne m ρ c main_arg6 (by decide)).trans ((W2_of m ρ c main_arg6 (by decide)).trans (W1_main_arg6 m ρ c)))

/-! ## Region 3's operands, after the second host stretch -/

/-- The first layer's result gathered at the second index list. -/
theorem V5_main_v20 (c : Dev nD) : V5 m ρ c main_v20
    = Host.gather gather_S4096x256_S1024x1_S1024x256_1_0_n_n_0_1_1256 ((dat1 (V2 m ρ) c).arrAt 4 cfg1.N)
        (broadcastInDim S1024x1 ![0] bcast_S1024_S1024x1_0 (select (cmpi .slt (m ((c : Thread nD τ).loc main_arg6)) (broadcastInDim S1024 ![] bcast_S_S1024 (constantI S_ 32 0#32))) (addi (m ((c : Thread nD τ).loc main_arg6)) (broadcastInDim S1024 ![] bcast_S_S1024 (constantI S_ 32 4096#32))) (m ((c : Thread nD τ).loc main_arg6)))) := by
  show StableHlo.after hostOps3 (W4 m ρ c) (Proc.devRef .tc main_v20) = _
  after_results
  rw [W4_main_v12, W4_main_arg6]
theorem V5_main_v22 (c : Dev nD) : V5 m ρ c main_v22
    = transpose S256x256 [1, 0] (extractStridedSlice S256x256 ![0, 0] (m ((c : Thread nD τ).loc main_arg4)) slices_S256x512_S256x256_0_0) transposes_S256x256_S256x256_1_0 := by
  show StableHlo.after hostOps3 (W4 m ρ c) (Proc.devRef .tc main_v22) = _
  after_results
  rw [W4_main_arg4]
theorem V5_main_v24 (c : Dev nD) : V5 m ρ c main_v24
    = transpose S256x256 [1, 0] (extractStridedSlice S256x256 ![0, 256] (m ((c : Thread nD τ).loc main_arg4)) slices_S256x512_S256x256_0_256) transposes_S256x256_S256x256_1_0 := by
  show StableHlo.after hostOps3 (W4 m ρ c) (Proc.devRef .tc main_v24) = _
  after_results
  rw [W4_main_arg4]
theorem W5_of (c : Dev nD) (r : Ref sig .tc) (h : r ∉ hostOps3_W) : W5 m ρ c (Proc.devRef .tc r) = W4 m ρ c (Proc.devRef .tc r) :=
  StableHlo.after_of_writes_sub hostOps3 _ hostOps3_writes h
theorem V5_main_v13 (c : Dev nD) : V5 m ρ c main_v13 = (dat2 (V3 m ρ) c).arrAt 2 cfg2.N :=
  (W5_of m ρ c main_v13 (by decide)).trans (W4_main_v13 m ρ c)

end Cert.KernelIdeal.Hand

end
-- ==== Proof.Spec.lean ====
/-
  The two array functions the program is made of, over extended reals.

  `mm A B` is the matrix product of an M×K array by a K×N array, entry by entry the sum over the contracted index.
  `dense X AGG Wa Wb` is one layer's transform of a row block: the product of the node features by one weight matrix
  plus the product of the aggregated features by another, clamped below at zero.
-/
import Idealize.ShloMosaic.Lib.ValueIdx
import Idealize.ShloMosaic.PureOps.Ideal.Laws

noncomputable section

open scoped BigOperators

namespace SageSpec

open Idealize.ShloMosaic Idealize.ShloMosaic.ValueIdx

/-- An a×b array of extended reals. -/
abbrev Arr (a b : Nat) : Type := (⟨2, ![a, b]⟩ : Shape).Idx → EReal

/-- The matrix product, entry by entry. -/
def mm {M K N : Nat} (A : Arr M K) (B : Arr K N) : Arr M N :=
  fun i => ∑ k : Fin K, A (ix2 (i 0) k) * B (ix2 k (i 1))

theorem mm_apply {M K N : Nat} (A : Arr M K) (B : Arr K N) (p : Fin M) (q : Fin N) :
    mm A B (ix2 p q) = ∑ k : Fin K, A (ix2 p k) * B (ix2 k q) := rfl

/-- The zero the clamp compares with: the float word of +0. -/
abbrev zero32 : EReal := FloatOps.ofBits (F := Ideal) .f32 0x00000000#32

/-- One layer's transform of a row block. -/
def dense {M D H : Nat} (X AGG : Arr M D) (Wa Wb : Arr D H) : Arr M H :=
  fun i => max (mm X Wa i + mm AGG Wb i) zero32

theorem dense_apply {M D H : Nat} (X AGG : Arr M D) (Wa Wb : Arr D H) (p : Fin M) (q : Fin H) :
    dense X AGG Wa Wb (ix2 p q) = max (mm X Wa (ix2 p q) + mm AGG Wb (ix2 p q)) zero32 := rfl

end SageSpec

end
-- ==== Proof.LibPlainDot.lean ====
/-
  A plain matrix product read at an entry.

  For dimension numbers that contract the left operand's second axis with the right operand's first axis, with no
  batch axes — an M×K array times a K×N array — the contraction's sum at the result entry (p, q) is the textbook
  `∑ i : Fin K, lhs (p, i) * rhs (i, q)`.  The statement is for ANY such record (its well-formedness proof is
  irrelevant), so it serves a kernel's `tpu.matmul` and a host `dot_general` at every size alike.
-/
import Idealize.ShloMosaic.Lib.ValueIdx
import Idealize.ShloMosaic.PureOps.Ideal.Laws

noncomputable section

open scoped BigOperators

namespace PlainDot

open Idealize.ShloMosaic Idealize.ShloMosaic.ValueIdx

variable {M K N : Nat}

/-- The dimension numbers of a plain product: contract axis 1 of the left operand with axis 0 of the right one;
    the left operand's axis 0 and the right operand's axis 1 are the result's axes; nothing is batched. -/
structure IsPlain (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![M, K]⟩ ⟨2, ![K, N]⟩ ⟨2, ![M, N]⟩}

/-- The left operand's row coordinate is the result's row. -/
theorem lhs_row (h : IsPlain d) (j : (⟨2, ![M, N]⟩ : Shape).Idx) (k : d.contr.Idx) :
    (d.lhsIdx j k 0 : ℕ) = j 0 := by
  obtain ⟨lc, rc, ln, rn, lb, rb, wf⟩ := d
  obtain ⟨h1, h2, h3, h4, h5, h6⟩ := h
  simp only at h1 h2 h3 h4 h5 h6
  subst h1 h2 h3 h4 h5 h6
  simp [DotDims.lhsIdx]; rfl

/-- The right operand's column coordinate is the result's column. -/
theorem rhs_col (h : IsPlain d) (j : (⟨2, ![M, N]⟩ : Shape).Idx) (k : d.contr.Idx) :
    (d.rhsIdx j k 1 : ℕ) = j 1 := by
  obtain ⟨lc, rc, ln, rn, lb, rb, wf⟩ := d
  obtain ⟨h1, h2, h3, h4, h5, h6⟩ := h
  simp only at h1 h2 h3 h4 h5 h6
  subst h1 h2 h3 h4 h5 h6
  simp [DotDims.rhsIdx]; rfl

theorem contr_rank (h : IsPlain d) : d.contr.rank = 1 := by
  rw [d.rank_contr, h.lc]; rfl

theorem contr_size (h : IsPlain d) : d.contr.size ⟨0, by rw [contr_rank h]; exact Nat.one_pos⟩ = K := by
  obtain ⟨lc, rc, ln, rn, lb, rb, wf⟩ := d
  obtain ⟨h1, h2, h3, h4, h5, h6⟩ := h
  simp only at h1 h2 h3 h4 h5 h6
  subst h1 h2 h3 h4 h5 h6
  rfl

/-- THE SUM: over the one contracted axis, entry by entry. -/
theorem sum_eq (h : IsPlain d) (lhs : (⟨2, ![M, K]⟩ : Shape).Idx → EReal) (rhs : (⟨2, ![K, N]⟩ : Shape).Idx → EReal)
    (p : Fin M) (q : Fin N) :
    ∑ k : d.contr.Idx, lhs (d.lhsIdx (ix2 p q) k) * rhs (d.rhsIdx (ix2 p q) k) = ∑ i : Fin K, lhs (ix2 p i) * rhs (ix2 i q) := by
  rw [← Equiv.sum_comp (contrEquiv1 d K (contr_rank h) (contr_size h)).symm]
  refine Finset.sum_congr rfl fun i _ => ?_
  have hk := contrEquiv1_symm_val d K (contr_rank h) (contr_size h) i
  have el : d.lhsIdx (ix2 p q) ((contrEquiv1 d K (contr_rank h) (contr_size h)).symm i) = ix2 p i := by
    funext a; refine Fin.ext ?_
    match a with
    | ⟨0, _⟩ => exact lhs_row h _ _
    | ⟨1, _⟩ => exact (d.lhsIdx_val_of_single h.lc _ _).trans hk
  have er : d.rhsIdx (ix2 p q) ((contrEquiv1 d K (contr_rank h) (contr_size h)).symm i) = ix2 i q := by
    funext a; refine Fin.ext ?_
    match a with
    | ⟨0, _⟩ => exact (d.rhsIdx_val_of_single h.rc _ _).trans hk
    | ⟨1, _⟩ => exact rhs_col h _ _
  rw [el, er]

/-- A kernel's matrix product into a zero accumulator, at the exact instance, read at an entry. -/
theorem matmul_zero_apply (h : IsPlain d) {φ₁ φ₂ : FTy} (prec : Option ContractPrecision)
    (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ i : Fin K, lhs (ix2 p i) * rhs (ix2 i q) :=
  (Ideal.matmul_constant_zero_apply d prec lhs rhs (ix2 p q)).trans (sum_eq h lhs rhs p q)

/-- The host's `dot_general`, at the exact instance, read at an entry: the same sum. -/
theorem dotGeneral_apply (h : IsPlain d) {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ i : Fin K, lhs (ix2 p i) * rhs (ix2 i q) :=
  (Ideal.dotGeneral_apply d prec sched lhs rhs (ix2 p q)).trans (sum_eq h lhs rhs p q)

end PlainDot

end
-- ==== Proof.Value0.lean ====
/-
  What region 0 leaves in its output array, at the exact instance: the matrix product of its two operand arrays (the accumulator sums the products of the blocks along the contracted axis, and a sum of block sums is the whole sum).
-/
import proofs.«161480_j6485400617280_1_alg».proof.Proof.Region0
import proofs.«161480_j6485400617280_1_alg».proof.Proof.Spec
import proofs.«161480_j6485400617280_1_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat Cfg Window)
open Idealize.ShloMosaic.ValueIdx
open scoped BigOperators

/-! ## One point's payload, entry by entry -/

/-- The zero block: every entry is the extended real 0. -/
theorem val0_pay1_apply (j : S1024x128.Idx) : (k0_pay1 (F := Ideal)) j = 0 := by
  unfold k0_pay1
  rw [shapeCast_self]
  exact Ideal.ofBits_zero_f32

/-- One point's update: the accumulator's entry plus the row of the left block times the column of the right block. -/
theorem val0_pay2_apply (x0 : Vec Ideal S1024x2048 .f32) (x1 : Vec Ideal S2048x128 .f32) (xs : Vec Ideal S1024x128 .f32)
    (p : Fin 1024) (q : Fin 128) :
    k0_pay2 x0 x1 xs (ix2 p q) = xs (ix2 p q) + ∑ kk : Fin 2048, x0 (ix2 p kk) * x1 (ix2 kk q) := by
  unfold k0_pay2
  rw [shapeCast_self]
  refine congrArg (fun z => xs (ix2 p q) + z) ?_
  exact PlainDot.matmul_zero_apply (d := dot_S1024x2048_S2048x128_S1024x128_1_0_0_1_n_n) ⟨rfl, rfl, rfl, rfl, rfl, rfl⟩ none _ _ p q

/-! ## A sum over a product range, block by block -/

/-- A sum over `m * n` consecutive indices is the sum over the `m` blocks of the sums over each block's `n` indices. -/
theorem val0_sum_by_blocks {β : Type} [AddCommMonoid β] (m n K : ℕ) (hK : m * n = K) (f : Fin K → β) :
    ∑ k : Fin K, f k
      = ∑ a : Fin m, ∑ b : Fin n, f ⟨n * a.val + b.val, by
          have ha := a.isLt; have hb := b.isLt
          have : n * a.val + n ≤ n * m := by rw [← Nat.mul_succ]; exact Nat.mul_le_mul_left n ha
          rw [← hK, Nat.mul_comm m n]; omega⟩ := by
  subst hK
  rw [← Equiv.sum_comp finProdFinEquiv f, Fintype.sum_prod_type]
  refine Finset.sum_congr rfl fun a _ => Finset.sum_congr rfl fun b _ => congrArg f (Fin.ext ?_)
  show b.val + n * a.val = n * a.val + b.val
  omega

/-! ## The accumulator along one row block -/

section
variable (V : (c : Dev nD) → (b : Ref sig .tc) → Buf (Elt Ideal) ((c : Thread nD τ).loc b))

/-- The left operand's block at a point, as a 1024×2048 array. -/
abbrev val0_blkA (c : Dev nD) (n : ℕ) (hn : n < cfg0.N) : Vec Ideal S1024x2048 .f32 := iblk0 V c 0 ⟨n, hn⟩
/-- The right operand's block at a point, as a 2048×128 array. -/
abbrev val0_blkB (c : Dev nD) (n : ℕ) (hn : n < cfg0.N) : Vec Ideal S2048x128 .f32 := iblk0 V c 1 ⟨n, hn⟩

/-- The product of a point's two blocks at an entry. -/
def val0_bprod (c : Dev nD) (n : ℕ) (hn : n < cfg0.N) (p : Fin 1024) (q : Fin 128) : EReal :=
  ∑ kk : Fin 2048, val0_blkA V c n hn (ix2 p kk) * val0_blkB V c n hn (ix2 kk q)

/-- At a first step along the contracted axis the accumulator's entry is the product of the point's blocks. -/
theorem val0_acc_first_apply (c : Dev nD) (n : ℕ) (hn : n < cfg0.N) (h0 : n % 16 = 0) (p : Fin 1024) (q : Fin 128) :
    acc0 V c n hn (ix2 p q) = val0_bprod V c n hn p q := by
  have e : acc0 V c n hn = k0_pay2 (val0_blkA V c n hn) (val0_blkB V c n hn) (k0_pay1 (F := Ideal)) := acc0_first V c ⟨n, hn⟩ h0
  rw [e, val0_pay2_apply, val0_pay1_apply, zero_add]
  rfl

/-- At a later step it is the entry the point before left plus the product of the point's blocks. -/
theorem val0_acc_succ_apply (c : Dev nD) (n : ℕ) (hn : n + 1 < cfg0.N) (hne : ¬ (n + 1) % 16 = 0) (p : Fin 1024) (q : Fin 128) :
    acc0 V c (n + 1) hn (ix2 p q) = acc0 V c n (Nat.lt_of_succ_lt hn) (ix2 p q) + val0_bprod V c (n + 1) hn p q := by
  have e : acc0 V c (n + 1) hn
      = k0_pay2 (val0_blkA V c (n + 1) hn) (val0_blkB V c (n + 1) hn) (acc0 V c n (Nat.lt_of_succ_lt hn)) := if_neg hne
  rw [e, val0_pay2_apply]
  rfl

/-- After the step `s` of a row block that starts at point `b`, the accumulator's entry is the sum of the products of
    the blocks of the points `b … b + s`. -/
theorem val0_acc_sum (c : Dev nD) (b : ℕ) (hb : b % 16 = 0) (p : Fin 1024) (q : Fin 128) :
    ∀ (s : ℕ) (hs : s < 16) (h : b + s < cfg0.N),
      acc0 V c (b + s) h (ix2 p q) = ∑ kb : Fin (s + 1), val0_bprod V c (b + kb.val) (by have := kb.isLt; omega) p q
  | 0, _, h => by
    rw [val0_acc_first_apply V c (b + 0) h (by omega) p q, Fin.sum_univ_castSucc, Fin.sum_univ_zero, zero_add]
    rfl
  | s + 1, hs, h => by
    refine (val0_acc_succ_apply V c (b + s) h (by omega) p q).trans ?_
    rw [val0_acc_sum c b hb p q s (by omega) (Nat.lt_of_succ_lt h), Fin.sum_univ_castSucc (n := s + 1)]
    rfl

end

/-! ## The blocks read off the arrays -/

/-- The windows' block indices at a point, decided over the grid: the left operand's block is (row block, step), the
    right operand's (step, 0), the output's (row block, 0). -/
theorem val0_idx_facts : ∀ t : Fin cfg0.N,
    win0_0.index t (0 : Fin 2) = t.val / 16 ∧ win0_0.index t (1 : Fin 2) = t.val % 16
    ∧ win0_1.index t (0 : Fin 2) = t.val % 16 ∧ win0_1.index t (1 : Fin 2) = 0
    ∧ win0_2.index t (0 : Fin 2) = t.val / 16 ∧ win0_2.index t (1 : Fin 2) = 0 :=
  (by decide +kernel : ∀ t : Fin grid0.N, _)

section
variable (V : (c : Dev nD) → (b : Ref sig .tc) → Buf (Elt Ideal) ((c : Thread nD τ).loc b))

/-- The left operand, a 4096×32768 array of extended reals. -/
abbrev val0_arrA (c : Dev nD) : SageSpec.Arr 4096 32768 := V c main_arg1
/-- The right operand, a 32768×128 array of extended reals. -/
abbrev val0_arrB (c : Dev nD) : SageSpec.Arr 32768 128 := V c main_arg0

/-- The left operand's block at a point is the array's rows of the point's row block and columns of its step. -/
theorem val0_blkA_apply (c : Dev nD) (n : ℕ) (hn : n < cfg0.N) (p : Fin 1024) (kk : Fin 2048) (r : Fin 4096) (k : Fin 32768)
    (hr : r.val = 1024 * (n / 16) + p.val) (hk : k.val = 2048 * (n % 16) + kk.val) :
    val0_blkA V c n hn (ix2 p kk) = val0_arrA V c (ix2 r k) := by
  obtain ⟨e0, e1, -, -, -, -⟩ := val0_idx_facts ⟨n, hn⟩
  have e0' : win0_0.index ⟨n, hn⟩ (0 : Fin 2) = n / 16 := e0
  have e1' : win0_0.index ⟨n, hn⟩ (1 : Fin 2) = n % 16 := e1
  show V c main_arg1 (((cfg0.win 0).blk ⟨n, hn⟩).view.emb (ix2 p kk)) = V c main_arg1 (ix2 r k)
  refine congrArg (V c main_arg1) (funext fun a => Fin.ext ?_)
  match a with
  | ⟨0, _⟩ => show win0_0.index ⟨n, hn⟩ (0 : Fin 2) * 1024 + 1 * p.val = r.val; rw [e0', hr]; omega
  | ⟨1, _⟩ => show win0_0.index ⟨n, hn⟩ (1 : Fin 2) * 2048 + 1 * kk.val = k.val; rw [e1', hk]; omega

/-- The right operand's block at a point is the array's rows of the point's step. -/
theorem val0_blkB_apply (c : Dev nD) (n : ℕ) (hn : n < cfg0.N) (kk : Fin 2048) (q : Fin 128) (k : Fin 32768)
    (hk : k.val = 2048 * (n % 16) + kk.val) :
    val0_blkB V c n hn (ix2 kk q) = val0_arrB V c (ix2 k q) := by
  obtain ⟨-, -, e2, e3, -, -⟩ := val0_idx_facts ⟨n, hn⟩
  have e2' : win0_1.index ⟨n, hn⟩ (0 : Fin 2) = n % 16 := e2
  show V c main_arg0 (((cfg0.win 1).blk ⟨n, hn⟩).view.emb (ix2 kk q)) = V c main_arg0 (ix2 k q)
  refine congrArg (V c main_arg0) (funext fun a => Fin.ext ?_)
  match a with
  | ⟨0, _⟩ => show win0_1.index ⟨n, hn⟩ (0 : Fin 2) * 2048 + 1 * kk.val = k.val; rw [e2', hk]; omega
  | ⟨1, _⟩ => show win0_1.index ⟨n, hn⟩ (1 : Fin 2) * 128 + 1 * q.val = q.val; rw [e3]; omega

/-- The product of the blocks of step `kb` of row block `i`, at an entry, is the part of the whole product's sum over
    the step's 2048 contracted indices. -/
theorem val0_bprod_eq (c : Dev nD) (i : ℕ) (kb : Fin 16) (hn : 16 * i + kb.val < cfg0.N) (p : Fin 1024) (q : Fin 128)
    (r : Fin 4096) (hr : r.val = 1024 * i + p.val) :
    val0_bprod V c (16 * i + kb.val) hn p q
      = ∑ kk : Fin 2048, val0_arrA V c (ix2 r ⟨2048 * kb.val + kk.val, by have := kb.isLt; have := kk.isLt; omega⟩)
          * val0_arrB V c (ix2 ⟨2048 * kb.val + kk.val, by have := kb.isLt; have := kk.isLt; omega⟩ q) := by
  have hkb := kb.isLt
  unfold val0_bprod
  refine Finset.sum_congr rfl fun kk _ => ?_
  rw [val0_blkA_apply V c _ hn p kk r ⟨2048 * kb.val + kk.val, by have := kk.isLt; omega⟩ (by rw [hr]; omega) (by show 2048 * kb.val + kk.val = _; omega),
    val0_blkB_apply V c _ hn kk q ⟨2048 * kb.val + kk.val, by have := kk.isLt; omega⟩ (by show 2048 * kb.val + kk.val = _; omega)]

end

/-! ## What a flushing point writes back, the cover, the array -/

section
variable (V : (c : Dev nD) → (b : Ref sig .tc) → Buf (Elt Ideal) ((c : Thread nD τ).loc b))

/-- At the last step of a row block the accumulator's entry is the whole product's entry: the sixteen steps' sums
    are the sum over the contracted axis, block by block. -/
theorem val0_acc_last_apply (c : Dev nD) (t : Fin cfg0.N) (h15 : t.val % 16 = 15) (p : Fin 1024) (q : Fin 128)
    (r : Fin 4096) (hr : r.val = 1024 * (t.val / 16) + p.val) :
    acc0 V c t.val t.isLt (ix2 p q) = SageSpec.mm (val0_arrA V c) (val0_arrB V c) (ix2 r q) := by
  have hb : 16 * (t.val / 16) + 15 = t.val := by omega
  have same : ∀ (u : ℕ) (hu : u < cfg0.N), u = t.val → acc0 V c u hu = acc0 V c t.val t.isLt :=
    fun u hu e => by subst e; rfl
  rw [← same (16 * (t.val / 16) + 15) (lt_of_eq_of_lt hb t.isLt) hb,
    val0_acc_sum V c (16 * (t.val / 16)) (by omega) p q 15 (by omega) (lt_of_eq_of_lt hb t.isLt),
    SageSpec.mm_apply, val0_sum_by_blocks 16 2048 32768 rfl]
  refine Finset.sum_congr rfl fun kb _ => ?_
  exact val0_bprod_eq V c (t.val / 16) kb _ p q r hr

/-- The write-back takes the whole accumulator: the output's blocks are not cut. -/
theorem val0_cut_out_apply (X : Vec Ideal S1024x128 .f32) (t : Fin cfg0.N) (p : Fin 1024) (q : Fin 128) :
    (cfg0.win 2).cut (grid0.coords t) X (ix2 p q) = X (ix2 p q) := rfl

/-- The output's block at a point, read off an array: the rows of the point's row block. -/
theorem val0_read_out_apply (G : SageSpec.Arr 4096 128) (t : Fin cfg0.N) (p : Fin 1024) (q : Fin 128) (r : Fin 4096)
    (hr : r.val = 1024 * (t.val / 16) + p.val) :
    ((cfg0.win 2).blk t).view.read (Elt Ideal) G (ix2 p q) = G (ix2 r q) := by
  obtain ⟨-, -, -, -, e4, e5⟩ := val0_idx_facts t
  show G (((cfg0.win 2).blk t).view.emb (ix2 p q)) = G (ix2 r q)
  refine congrArg G (funext fun a => Fin.ext ?_)
  match a with
  | ⟨0, _⟩ => show win0_2.index t (0 : Fin 2) * 1024 + 1 * p.val = r.val; rw [e4, hr]; omega
  | ⟨1, _⟩ => show win0_2.index t (1 : Fin 2) * 128 + 1 * q.val = q.val; rw [e5]; omega

/-- What a flushing point writes back is its block of the product of the two operand arrays. -/
theorem val0_flushed_eq (c : Dev nD) (t : Fin cfg0.N) (hf : (cfg0.win 2).flush t = true) :
    (dat0 (F := Ideal) V c).flushed 2 t
      = ((cfg0.win 2).blk t).view.read (Elt Ideal) (SageSpec.mm (val0_arrA V c) (val0_arrB V c)) := by
  have h15 : t.val % 16 = 15 := (flush0_2 t).mp hf
  have hN : t.val < 64 := t.isLt
  show (cfg0.win 2).cut (grid0.coords t) ((dat0 (F := Ideal) V c).after 2 t) = _
  rw [after0_2]
  funext j
  obtain ⟨p, q, rfl⟩ : ∃ (p : Fin 1024) (q : Fin 128), j = ix2 p q :=
    ⟨(j : S1024x128.Idx) 0, (j : S1024x128.Idx) 1, eq_ix2 (n0 := 1024) (n1 := 128) j⟩
  refine (val0_cut_out_apply (acc0 V c t.val t.isLt) t p q).trans ?_
  refine Eq.trans ?_ (val0_read_out_apply (SageSpec.mm (val0_arrA V c) (val0_arrB V c)) t p q
    ⟨1024 * (t.val / 16) + p.val, by have := p.isLt; omega⟩ rfl).symm
  exact val0_acc_last_apply V c t h15 p q _ rfl

/-- An index of the output array is in a point's block iff each coordinate is in the block's range on its axis. -/
theorem val0_mem_blk (t : Fin cfg0.N) (i : S4096x128.Idx) :
    i ∈ ((cfg0.win 2).blk t).view.set ↔ ∀ a : Fin 2, win0_2.index t a * S1024x128.size a ≤ (i a).val
      ∧ (i a).val < win0_2.index t a * S1024x128.size a + S1024x128.size a := by
  show i ∈ ((View.whole main_v0).slice (win0_2.rect t)).set ↔ _
  rw [View.set_slice_whole, Rect.mem_set_unit]
  exact Iff.rfl

/-- Every index of the output array is in the block of the last step of its row block. -/
theorem val0_cover (i : S4096x128.Idx) :
    ∃ t : Fin cfg0.N, (cfg0.win 2).flush t = true ∧ i ∈ ((cfg0.win 2).blk t).view.set := by
  have hi0 : (i 0).val < 4096 := idx2_lt0 i
  have hi1 : (i 1).val < 128 := idx2_lt1 i
  have ht : 16 * ((i 0).val / 1024) + 15 < cfg0.N := by show _ < 64; omega
  obtain ⟨-, -, -, -, e4, e5⟩ := val0_idx_facts ⟨16 * ((i 0).val / 1024) + 15, ht⟩
  have e4' : win0_2.index ⟨16 * ((i 0).val / 1024) + 15, ht⟩ (0 : Fin 2) = (16 * ((i 0).val / 1024) + 15) / 16 := e4
  refine ⟨⟨16 * ((i 0).val / 1024) + 15, ht⟩, (flush0_2 _).mpr (by show (16 * ((i 0).val / 1024) + 15) % 16 = 15; omega), ?_⟩
  rw [val0_mem_blk]
  intro a
  match a with
  | ⟨0, _⟩ =>
    show win0_2.index ⟨16 * ((i 0).val / 1024) + 15, ht⟩ (0 : Fin 2) * 1024 ≤ (i 0).val
      ∧ (i 0).val < win0_2.index ⟨16 * ((i 0).val / 1024) + 15, ht⟩ (0 : Fin 2) * 1024 + 1024
    rw [e4']; omega
  | ⟨1, _⟩ =>
    show win0_2.index ⟨16 * ((i 0).val / 1024) + 15, ht⟩ (1 : Fin 2) * 128 ≤ (i 1).val
      ∧ (i 1).val < win0_2.index ⟨16 * ((i 0).val / 1024) + 15, ht⟩ (1 : Fin 2) * 128 + 128
    rw [e5]; omega

/-- Region 0's output array after the region is the product of the 4096×32768 array by the 32768×128 array. -/
theorem value0 (c : Dev nD) :
    (dat0 (F := Ideal) V c).arrAt 2 cfg0.N = SageSpec.mm (M := 4096) (K := 32768) (N := 128) (V c main_arg1) (V c main_arg0) :=
  (dat0 (F := Ideal) V c).arrAt_eq_of_cover 2 (SageSpec.mm (val0_arrA V c) (val0_arrB V c)) (val0_flushed_eq V c) val0_cover

end

end Cert.KernelIdeal.Hand

end
-- ==== Proof.Value1.lean ====
/-
  What region 1 leaves in its output array, at the exact instance: one layer's transform of its operand arrays, row block by row block.
-/
import proofs.«161480_j6485400617280_1_alg».proof.Proof.Region1
import proofs.«161480_j6485400617280_1_alg».proof.Proof.Spec
import proofs.«161480_j6485400617280_1_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat Cfg Window)
open Idealize.ShloMosaic.ValueIdx

variable (V : (c : Dev nD) → (b : Ref sig .tc) → Buf (Elt Ideal) ((c : Thread nD τ).loc b))

/-- The body's value at an entry: the two products' sums added, clamped below at zero. -/
theorem pay1_apply (x0 x1 : Vec Ideal S1024x128 .f32) (w0 w1 : Vec Ideal S128x256 .f32) (p : Fin 1024) (q : Fin 256) :
    k1_pay1 (F := Ideal) x0 x1 w0 w1 (ix2 p q)
      = max ((∑ k : Fin 128, x0 (ix2 p k) * w0 (ix2 k q)) + ∑ k : Fin 128, x1 (ix2 p k) * w1 (ix2 k q)) SageSpec.zero32 := by
  unfold k1_pay1
  simp only [shapeCast_self]
  rw [maximumf_apply, addf_apply,
    PlainDot.matmul_zero_apply (d := dot_S1024x128_S128x256_S1024x256_1_0_0_1_n_n) ⟨rfl, rfl, rfl, rfl, rfl, rfl⟩,
    PlainDot.matmul_zero_apply (d := dot_S1024x128_S128x256_S1024x256_1_0_0_1_n_n) ⟨rfl, rfl, rfl, rfl, rfl, rfl⟩]
  rfl

/-- The index maps over the grid: the row-block windows sit at block (t, 0), the weight windows at block (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Window 0's block at point t, read at (p, k), is the node-feature array at row t·1024 + p. -/
theorem iblk1_0_apply (c : Dev nD) (t : Fin cfg1.N) (p : Fin 1024) (k : Fin 128) (r : Fin 4096) (hr : r.val = t.val * 1024 + p.val) :
    iblk1 V c 0 t (ix2 p k) = V c main_v7 (ix2 r k) := by
  obtain ⟨e0, e1, -⟩ := idx_facts1 t
  unfold iblk1
  rw [View.read_apply]
  show V c main_v7 _ = V c main_v7 _
  congr 1
  funext a; apply Fin.ext
  match a with
  | ⟨0, _⟩ => show win1_0.index t (0 : Fin 2) * 1024 + 1 * p.val = r.val; rw [e0, hr]; omega
  | ⟨1, _⟩ => show win1_0.index t (1 : Fin 2) * 128 + 1 * k.val = k.val; rw [e1]; omega

/-- Window 1's block at point t, read at (p, k), is the aggregated-feature array at row t·1024 + p. -/
theorem iblk1_1_apply (c : Dev nD) (t : Fin cfg1.N) (p : Fin 1024) (k : Fin 128) (r : Fin 4096) (hr : r.val = t.val * 1024 + p.val) :
    iblk1 V c 1 t (ix2 p k) = V c main_v0 (ix2 r k) := by
  obtain ⟨-, -, e0, e1, -⟩ := idx_facts1 t
  unfold iblk1
  rw [View.read_apply]
  show V c main_v0 _ = V c main_v0 _
  congr 1
  funext a; apply Fin.ext
  match a with
  | ⟨0, _⟩ => show win1_1.index t (0 : Fin 2) * 1024 + 1 * p.val = r.val; rw [e0, hr]; omega
  | ⟨1, _⟩ => show win1_1.index t (1 : Fin 2) * 128 + 1 * k.val = k.val; rw [e1]; omega

/-- Window 2's block at every point is the whole first weight matrix. -/
theorem iblk1_2_apply (c : Dev nD) (t : Fin cfg1.N) (k : Fin 128) (q : Fin 256) :
    iblk1 V c 2 t (ix2 k q) = V c main_v9 (ix2 k q) := by
  obtain ⟨-, -, -, -, e0, e1, -⟩ := idx_facts1 t
  unfold iblk1
  rw [View.read_apply]
  show V c main_v9 _ = V c main_v9 _
  congr 1
  funext a; apply Fin.ext
  match a with
  | ⟨0, _⟩ => show win1_2.index t (0 : Fin 2) * 128 + 1 * k.val = k.val; rw [e0]; omega
  | ⟨1, _⟩ => show win1_2.index t (1 : Fin 2) * 256 + 1 * q.val = q.val; rw [e1]; omega

/-- Window 3's block at every point is the whole second weight matrix. -/
theorem iblk1_3_apply (c : Dev nD) (t : Fin cfg1.N) (k : Fin 128) (q : Fin 256) :
    iblk1 V c 3 t (ix2 k q) = V c main_v11 (ix2 k q) := by
  obtain ⟨-, -, -, -, -, -, e0, e1, -⟩ := idx_facts1 t
  unfold iblk1
  rw [View.read_apply]
  show V c main_v11 _ = V c main_v11 _
  congr 1
  funext a; apply Fin.ext
  match a with
  | ⟨0, _⟩ => show win1_3.index t (0 : Fin 2) * 128 + 1 * k.val = k.val; rw [e0]; omega
  | ⟨1, _⟩ => show win1_3.index t (1 : Fin 2) * 256 + 1 * q.val = q.val; rw [e1]; omega

/-- What point t writes back is row block t of the layer's transform of the four operand arrays. -/
theorem flushed1_eq (c : Dev nD) (t : Fin cfg1.N) :
    (dat1 (F := Ideal) V c).flushed 4 t = ((cfg1.win 4).blk t).view.read (Elt Ideal)
      (SageSpec.dense (M := 4096) (D := 128) (H := 256) (V c main_v7) (V c main_v0) (V c main_v9) (V c main_v11)) := by
  show (cfg1.win 4).cut (grid1.coords t) ((dat1 V c).after 4 t) = _
  rw [after1_4]
  funext j
  have hN : t.val < 4 := lt_of_lt_of_eq t.isLt N_1
  have hp : (j 0).val < 1024 := (j 0).isLt
  have hq : (j 1).val < 256 := (j 1).isLt
  obtain ⟨-, -, -, -, -, -, -, -, e0, e1⟩ := idx_facts1 t
  have hx : win1_4.xinj (grid1.coords t) j = ix2 (⟨(j 0).val, hp⟩ : Fin 1024) (⟨(j 1).val, hq⟩ : Fin 256) := by
    funext a
    match a with
    | ⟨0, _⟩ => rfl
    | ⟨1, _⟩ => rfl
  have he : ((cfg1.win 4).blk t).view.emb j
      = ix2 (⟨t.val * 1024 + (j 0).val, by omega⟩ : Fin 4096) (⟨(j 1).val, hq⟩ : Fin 256) := by
    funext a; apply Fin.ext
    match a with
    | ⟨0, _⟩ => show win1_4.index t (0 : Fin 2) * 1024 + 1 * (j 0).val = t.val * 1024 + (j 0).val; rw [e0]; omega
    | ⟨1, _⟩ => show win1_4.index t (1 : Fin 2) * 256 + 1 * (j 1).val = (j 1).val; rw [e1]; omega
  rw [View.read_apply, he]
  show k1_pay1 (F := Ideal) _ _ _ _ (win1_4.xinj (grid1.coords t) j) = SageSpec.dense _ _ _ _ _
  rw [hx, pay1_apply, SageSpec.dense_apply, SageSpec.mm_apply, SageSpec.mm_apply]
  congr 2
  · exact Finset.sum_congr rfl fun k _ => by rw [iblk1_0_apply V c t ⟨(j 0).val, hp⟩ k ⟨t.val * 1024 + (j 0).val, by omega⟩ rfl, iblk1_2_apply V c t k _]
  · exact Finset.sum_congr rfl fun k _ => by rw [iblk1_1_apply V c t ⟨(j 0).val, hp⟩ k ⟨t.val * 1024 + (j 0).val, by omega⟩ rfl, iblk1_3_apply V c t k _]

/-- An index of the output array is in point t's block iff each coordinate is in the block's range on its axis. -/
theorem mem_blk1 (t : Fin cfg1.N) (i : S4096x256.Idx) :
    i ∈ ((cfg1.win 4).blk t).view.set ↔ ∀ a : Fin 2, win1_4.index t a * S1024x256.size a ≤ (i a).val ∧ (i a).val < win1_4.index t a * S1024x256.size a + S1024x256.size a := by
  show i ∈ ((View.whole main_v12).slice (win1_4.rect t)).set ↔ _
  rw [View.set_slice_whole, Rect.mem_set_unit]
  exact Iff.rfl

/-- Every index of the output array is in the block of the point its row falls in. -/
theorem cover1 (i : S4096x256.Idx) : ∃ t : Fin cfg1.N, (cfg1.win 4).flush t = true ∧ i ∈ ((cfg1.win 4).blk t).view.set := by
  have hi0 : (i 0).val < 4096 := (i 0).isLt
  have hi1 : (i 1).val < 256 := (i 1).isLt
  have hN : cfg1.N = 4 := N_1
  let t : Fin cfg1.N := ⟨(i 0).val / 1024, by rw [hN]; omega⟩
  have ht : t.val = (i 0).val / 1024 := rfl
  obtain ⟨-, -, -, -, -, -, -, -, e0, e1⟩ := idx_facts1 t
  refine ⟨t, flush1_4 t, ?_⟩
  rw [mem_blk1]
  intro a
  match a with
  | ⟨0, _⟩ => show win1_4.index t (0 : Fin 2) * 1024 ≤ (i 0).val ∧ (i 0).val < win1_4.index t (0 : Fin 2) * 1024 + 1024; rw [e0, ht]; omega
  | ⟨1, _⟩ => show win1_4.index t (1 : Fin 2) * 256 ≤ (i 1).val ∧ (i 1).val < win1_4.index t (1 : Fin 2) * 256 + 256; rw [e1]; omega

/-- Region 1's output array after the region is the layer's transform of its four operand arrays. -/
theorem value1 (c : Dev nD) :
    (dat1 (F := Ideal) V c).arrAt 4 cfg1.N = SageSpec.dense (M := 4096) (D := 128) (H := 256) (V c main_v7) (V c main_v0) (V c main_v9) (V c main_v11) :=
  (dat1 (F := Ideal) V c).arrAt_eq_of_cover 4 _ (fun t _ => flushed1_eq V c t) cover1

end Cert.KernelIdeal.Hand

end
-- ==== Proof.Value2.lean ====
/-
  What region 2 leaves in its output array, at the exact instance: the matrix product of its two operand arrays (the accumulator sums the products of the blocks along the contracted axis, and a sum of block sums is the whole sum).
-/
import proofs.«161480_j6485400617280_1_alg».proof.Proof.Region2
import proofs.«161480_j6485400617280_1_alg».proof.Proof.Spec
import proofs.«161480_j6485400617280_1_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat Cfg Window)
open Idealize.ShloMosaic.ValueIdx
open scoped BigOperators

/-! ## One point's payload, entry by entry -/

/-- The zero block: every entry is the extended real 0. -/
theorem val2_pay1_apply (j : S1024x256.Idx) : (k2_pay1 (F := Ideal)) j = 0 := by
  unfold k2_pay1
  rw [shapeCast_self]
  exact Ideal.ofBits_zero_f32

/-- One point's update: the accumulator's entry plus the row of the left block times the column of the right block. -/
theorem val2_pay2_apply (x0 : Vec Ideal S1024x1024 .f32) (x1 : Vec Ideal S1024x256 .f32) (xs : Vec Ideal S1024x256 .f32)
    (p : Fin 1024) (q : Fin 256) :
    k2_pay2 x0 x1 xs (ix2 p q) = xs (ix2 p q) + ∑ kk : Fin 1024, x0 (ix2 p kk) * x1 (ix2 kk q) := by
  unfold k2_pay2
  simp only [shapeCast_self]
  refine congrArg (fun z => xs (ix2 p q) + z) ?_
  exact PlainDot.matmul_zero_apply (d := dot_S1024x1024_S1024x256_S1024x256_1_0_0_1_n_n) ⟨rfl, rfl, rfl, rfl, rfl, rfl⟩ none _ _ p q

/-! ## A sum over a product range, block by block -/

/-- A sum over `m * n` consecutive indices is the sum over the `m` blocks of the sums over each block's `n` indices. -/
theorem val2_sum_by_blocks {β : Type} [AddCommMonoid β] (m n K : ℕ) (hK : m * n = K) (f : Fin K → β) :
    ∑ k : Fin K, f k
      = ∑ a : Fin m, ∑ b : Fin n, f ⟨n * a.val + b.val, by
          have ha := a.isLt; have hb := b.isLt
          have : n * a.val + n ≤ n * m := by rw [← Nat.mul_succ]; exact Nat.mul_le_mul_left n ha
          rw [← hK, Nat.mul_comm m n]; omega⟩ := by
  subst hK
  rw [← Equiv.sum_comp finProdFinEquiv f, Fintype.sum_prod_type]
  refine Finset.sum_congr rfl fun a _ => Finset.sum_congr rfl fun b _ => congrArg f (Fin.ext ?_)
  show b.val + n * a.val = n * a.val + b.val
  omega

/-! ## The accumulator along one row block -/

section
variable (V : (c : Dev nD) → (b : Ref sig .tc) → Buf (Elt Ideal) ((c : Thread nD τ).loc b))

/-- The left operand's block at a point, as a 1024×1024 array. -/
abbrev val2_blkA (c : Dev nD) (n : ℕ) (hn : n < cfg2.N) : Vec Ideal S1024x1024 .f32 := iblk2 V c 0 ⟨n, hn⟩
/-- The right operand's block at a point, as a 1024×256 array. -/
abbrev val2_blkB (c : Dev nD) (n : ℕ) (hn : n < cfg2.N) : Vec Ideal S1024x256 .f32 := iblk2 V c 1 ⟨n, hn⟩

/-- The product of a point's two blocks at an entry. -/
def val2_bprod (c : Dev nD) (n : ℕ) (hn : n < cfg2.N) (p : Fin 1024) (q : Fin 256) : EReal :=
  ∑ kk : Fin 1024, val2_blkA V c n hn (ix2 p kk) * val2_blkB V c n hn (ix2 kk q)

/-- At a first step along the contracted axis the accumulator's entry is the product of the point's blocks. -/
theorem val2_acc_first_apply (c : Dev nD) (n : ℕ) (hn : n < cfg2.N) (h0 : n % 4 = 0) (p : Fin 1024) (q : Fin 256) :
    acc2 V c n hn (ix2 p q) = val2_bprod V c n hn p q := by
  have e : acc2 V c n hn = k2_pay2 (val2_blkA V c n hn) (val2_blkB V c n hn) (k2_pay1 (F := Ideal)) := acc2_first V c ⟨n, hn⟩ h0
  rw [e, val2_pay2_apply, val2_pay1_apply, zero_add]
  rfl

/-- At a later step it is the entry the point before left plus the product of the point's blocks. -/
theorem val2_acc_succ_apply (c : Dev nD) (n : ℕ) (hn : n + 1 < cfg2.N) (hne : ¬ (n + 1) % 4 = 0) (p : Fin 1024) (q : Fin 256) :
    acc2 V c (n + 1) hn (ix2 p q) = acc2 V c n (Nat.lt_of_succ_lt hn) (ix2 p q) + val2_bprod V c (n + 1) hn p q := by
  have e : acc2 V c (n + 1) hn
      = k2_pay2 (val2_blkA V c (n + 1) hn) (val2_blkB V c (n + 1) hn) (acc2 V c n (Nat.lt_of_succ_lt hn)) := if_neg hne
  rw [e, val2_pay2_apply]
  rfl

/-- After the step `s` of a row block that starts at point `b`, the accumulator's entry is the sum of the products of
    the blocks of the points `b … b + s`. -/
theorem val2_acc_sum (c : Dev nD) (b : ℕ) (hb : b % 4 = 0) (p : Fin 1024) (q : Fin 256) :
    ∀ (s : ℕ) (hs : s < 4) (h : b + s < cfg2.N),
      acc2 V c (b + s) h (ix2 p q) = ∑ kb : Fin (s + 1), val2_bprod V c (b + kb.val) (by have := kb.isLt; omega) p q
  | 0, _, h => by
    rw [val2_acc_first_apply V c (b + 0) h (by omega) p q, Fin.sum_univ_castSucc, Fin.sum_univ_zero, zero_add]
    rfl
  | s + 1, hs, h => by
    refine (val2_acc_succ_apply V c (b + s) h (by omega) p q).trans ?_
    rw [val2_acc_sum c b hb p q s (by omega) (Nat.lt_of_succ_lt h), Fin.sum_univ_castSucc (n := s + 1)]
    rfl

end

/-! ## The blocks read off the arrays -/

/-- The windows' block indices at a point, decided over the grid: the left operand's block is (row block, step), the
    right operand's (step, 0), the output's (row block, 0). -/
theorem val2_idx_facts : ∀ t : Fin cfg2.N,
    win2_0.index t (0 : Fin 2) = t.val / 4 ∧ win2_0.index t (1 : Fin 2) = t.val % 4
    ∧ win2_1.index t (0 : Fin 2) = t.val % 4 ∧ win2_1.index t (1 : Fin 2) = 0
    ∧ win2_2.index t (0 : Fin 2) = t.val / 4 ∧ win2_2.index t (1 : Fin 2) = 0 :=
  (by decide +kernel : ∀ t : Fin grid2.N, _)

section
variable (V : (c : Dev nD) → (b : Ref sig .tc) → Buf (Elt Ideal) ((c : Thread nD τ).loc b))

/-- The left operand, a 1024×4096 array of extended reals. -/
abbrev val2_arrA (c : Dev nD) : SageSpec.Arr 1024 4096 := V c main_arg2
/-- The right operand, a 4096×256 array of extended reals. -/
abbrev val2_arrB (c : Dev nD) : SageSpec.Arr 4096 256 := V c main_v12

/-- The left operand's block at a point is the array's rows of the point's row block and columns of its step. -/
theorem val2_blkA_apply (c : Dev nD) (n : ℕ) (hn : n < cfg2.N) (p : Fin 1024) (kk : Fin 1024) (r : Fin 1024) (k : Fin 4096)
    (hr : r.val = 1024 * (n / 4) + p.val) (hk : k.val = 1024 * (n % 4) + kk.val) :
    val2_blkA V c n hn (ix2 p kk) = val2_arrA V c (ix2 r k) := by
  obtain ⟨e0, e1, -, -, -, -⟩ := val2_idx_facts ⟨n, hn⟩
  have e0' : win2_0.index ⟨n, hn⟩ (0 : Fin 2) = n / 4 := e0
  have e1' : win2_0.index ⟨n, hn⟩ (1 : Fin 2) = n % 4 := e1
  show V c main_arg2 (((cfg2.win 0).blk ⟨n, hn⟩).view.emb (ix2 p kk)) = V c main_arg2 (ix2 r k)
  refine congrArg (V c main_arg2) (funext fun a => Fin.ext ?_)
  match a with
  | ⟨0, _⟩ => show win2_0.index ⟨n, hn⟩ (0 : Fin 2) * 1024 + 1 * p.val = r.val; rw [e0', hr]; omega
  | ⟨1, _⟩ => show win2_0.index ⟨n, hn⟩ (1 : Fin 2) * 1024 + 1 * kk.val = k.val; rw [e1', hk]; omega

/-- The right operand's block at a point is the array's rows of the point's step. -/
theorem val2_blkB_apply (c : Dev nD) (n : ℕ) (hn : n < cfg2.N) (kk : Fin 1024) (q : Fin 256) (k : Fin 4096)
    (hk : k.val = 1024 * (n % 4) + kk.val) :
    val2_blkB V c n hn (ix2 kk q) = val2_arrB V c (ix2 k q) := by
  obtain ⟨-, -, e2, e3, -, -⟩ := val2_idx_facts ⟨n, hn⟩
  have e2' : win2_1.index ⟨n, hn⟩ (0 : Fin 2) = n % 4 := e2
  show V c main_v12 (((cfg2.win 1).blk ⟨n, hn⟩).view.emb (ix2 kk q)) = V c main_v12 (ix2 k q)
  refine congrArg (V c main_v12) (funext fun a => Fin.ext ?_)
  match a with
  | ⟨0, _⟩ => show win2_1.index ⟨n, hn⟩ (0 : Fin 2) * 1024 + 1 * kk.val = k.val; rw [e2', hk]; omega
  | ⟨1, _⟩ => show win2_1.index ⟨n, hn⟩ (1 : Fin 2) * 256 + 1 * q.val = q.val; rw [e3]; omega

/-- The product of the blocks of step `kb` of row block `i`, at an entry, is the part of the whole product's sum over
    the step's 1024 contracted indices. -/
theorem val2_bprod_eq (c : Dev nD) (i : ℕ) (kb : Fin 4) (hn : 4 * i + kb.val < cfg2.N) (p : Fin 1024) (q : Fin 256)
    (r : Fin 1024) (hr : r.val = 1024 * i + p.val) :
    val2_bprod V c (4 * i + kb.val) hn p q
      = ∑ kk : Fin 1024, val2_arrA V c (ix2 r ⟨1024 * kb.val + kk.val, by have := kb.isLt; have := kk.isLt; omega⟩)
          * val2_arrB V c (ix2 ⟨1024 * kb.val + kk.val, by have := kb.isLt; have := kk.isLt; omega⟩ q) := by
  have hkb := kb.isLt
  unfold val2_bprod
  refine Finset.sum_congr rfl fun kk _ => ?_
  rw [val2_blkA_apply V c _ hn p kk r ⟨1024 * kb.val + kk.val, by have := kk.isLt; omega⟩ (by rw [hr]; omega) (by show 1024 * kb.val + kk.val = _; omega),
    val2_blkB_apply V c _ hn kk q ⟨1024 * kb.val + kk.val, by have := kk.isLt; omega⟩ (by show 1024 * kb.val + kk.val = _; omega)]

end

/-! ## What a flushing point writes back, the cover, the array -/

section
variable (V : (c : Dev nD) → (b : Ref sig .tc) → Buf (Elt Ideal) ((c : Thread nD τ).loc b))

/-- At the last step of a row block the accumulator's entry is the whole product's entry: the four steps' sums
    are the sum over the contracted axis, block by block. -/
theorem val2_acc_last_apply (c : Dev nD) (t : Fin cfg2.N) (h3 : t.val % 4 = 3) (p : Fin 1024) (q : Fin 256)
    (r : Fin 1024) (hr : r.val = 1024 * (t.val / 4) + p.val) :
    acc2 V c t.val t.isLt (ix2 p q) = SageSpec.mm (val2_arrA V c) (val2_arrB V c) (ix2 r q) := by
  have hb : 4 * (t.val / 4) + 3 = t.val := by omega
  have same : ∀ (u : ℕ) (hu : u < cfg2.N), u = t.val → acc2 V c u hu = acc2 V c t.val t.isLt :=
    fun u hu e => by subst e; rfl
  rw [← same (4 * (t.val / 4) + 3) (lt_of_eq_of_lt hb t.isLt) hb,
    val2_acc_sum V c (4 * (t.val / 4)) (by omega) p q 3 (by omega) (lt_of_eq_of_lt hb t.isLt),
    SageSpec.mm_apply, val2_sum_by_blocks 4 1024 4096 rfl]
  refine Finset.sum_congr rfl fun kb _ => ?_
  exact val2_bprod_eq V c (t.val / 4) kb _ p q r hr

/-- The write-back takes the whole accumulator: the output's blocks are not cut. -/
theorem val2_cut_out_apply (X : Vec Ideal S1024x256 .f32) (t : Fin cfg2.N) (p : Fin 1024) (q : Fin 256) :
    (cfg2.win 2).cut (grid2.coords t) X (ix2 p q) = X (ix2 p q) := rfl

/-- The output's block at a point, read off an array: the rows of the point's row block. -/
theorem val2_read_out_apply (G : SageSpec.Arr 1024 256) (t : Fin cfg2.N) (p : Fin 1024) (q : Fin 256) (r : Fin 1024)
    (hr : r.val = 1024 * (t.val / 4) + p.val) :
    ((cfg2.win 2).blk t).view.read (Elt Ideal) G (ix2 p q) = G (ix2 r q) := by
  obtain ⟨-, -, -, -, e4, e5⟩ := val2_idx_facts t
  show G (((cfg2.win 2).blk t).view.emb (ix2 p q)) = G (ix2 r q)
  refine congrArg G (funext fun a => Fin.ext ?_)
  match a with
  | ⟨0, _⟩ => show win2_2.index t (0 : Fin 2) * 1024 + 1 * p.val = r.val; rw [e4, hr]; omega
  | ⟨1, _⟩ => show win2_2.index t (1 : Fin 2) * 256 + 1 * q.val = q.val; rw [e5]; omega

/-- What a flushing point writes back is its block of the product of the two operand arrays. -/
theorem val2_flushed_eq (c : Dev nD) (t : Fin cfg2.N) (hf : (cfg2.win 2).flush t = true) :
    (dat2 (F := Ideal) V c).flushed 2 t
      = ((cfg2.win 2).blk t).view.read (Elt Ideal) (SageSpec.mm (val2_arrA V c) (val2_arrB V c)) := by
  have h3 : t.val % 4 = 3 := (flush2_2 t).mp hf
  have hN : t.val < 4 := t.isLt
  show (cfg2.win 2).cut (grid2.coords t) ((dat2 (F := Ideal) V c).after 2 t) = _
  rw [after2_2]
  funext j
  obtain ⟨p, q, rfl⟩ : ∃ (p : Fin 1024) (q : Fin 256), j = ix2 p q :=
    ⟨(j : S1024x256.Idx) 0, (j : S1024x256.Idx) 1, eq_ix2 (n0 := 1024) (n1 := 256) j⟩
  refine (val2_cut_out_apply (acc2 V c t.val t.isLt) t p q).trans ?_
  refine Eq.trans ?_ (val2_read_out_apply (SageSpec.mm (val2_arrA V c) (val2_arrB V c)) t p q
    ⟨1024 * (t.val / 4) + p.val, by have := p.isLt; omega⟩ rfl).symm
  exact val2_acc_last_apply V c t h3 p q _ rfl

/-- An index of the output array is in a point's block iff each coordinate is in the block's range on its axis. -/
theorem val2_mem_blk (t : Fin cfg2.N) (i : S1024x256.Idx) :
    i ∈ ((cfg2.win 2).blk t).view.set ↔ ∀ a : Fin 2, win2_2.index t a * S1024x256.size a ≤ (i a).val
      ∧ (i a).val < win2_2.index t a * S1024x256.size a + S1024x256.size a := by
  show i ∈ ((View.whole main_v13).slice (win2_2.rect t)).set ↔ _
  rw [View.set_slice_whole, Rect.mem_set_unit]
  exact Iff.rfl

/-- Every index of the output array is in the block of the last step of its row block. -/
theorem val2_cover (i : S1024x256.Idx) :
    ∃ t : Fin cfg2.N, (cfg2.win 2).flush t = true ∧ i ∈ ((cfg2.win 2).blk t).view.set := by
  have hi0 : (i 0).val < 1024 := idx2_lt0 i
  have hi1 : (i 1).val < 256 := idx2_lt1 i
  have ht : 4 * ((i 0).val / 1024) + 3 < cfg2.N := by show _ < 4; omega
  obtain ⟨-, -, -, -, e4, e5⟩ := val2_idx_facts ⟨4 * ((i 0).val / 1024) + 3, ht⟩
  have e4' : win2_2.index ⟨4 * ((i 0).val / 1024) + 3, ht⟩ (0 : Fin 2) = (4 * ((i 0).val / 1024) + 3) / 4 := e4
  refine ⟨⟨4 * ((i 0).val / 1024) + 3, ht⟩, (flush2_2 _).mpr (by show (4 * ((i 0).val / 1024) + 3) % 4 = 3; omega), ?_⟩
  rw [val2_mem_blk]
  intro a
  match a with
  | ⟨0, _⟩ =>
    show win2_2.index ⟨4 * ((i 0).val / 1024) + 3, ht⟩ (0 : Fin 2) * 1024 ≤ (i 0).val
      ∧ (i 0).val < win2_2.index ⟨4 * ((i 0).val / 1024) + 3, ht⟩ (0 : Fin 2) * 1024 + 1024
    rw [e4']; omega
  | ⟨1, _⟩ =>
    show win2_2.index ⟨4 * ((i 0).val / 1024) + 3, ht⟩ (1 : Fin 2) * 256 ≤ (i 1).val
      ∧ (i 1).val < win2_2.index ⟨4 * ((i 0).val / 1024) + 3, ht⟩ (1 : Fin 2) * 256 + 256
    rw [e5]; omega

/-- Region 2's output array after the region is the product of the 1024×4096 array by the 4096×256 array. -/
theorem value2 (c : Dev nD) :
    (dat2 (F := Ideal) V c).arrAt 2 cfg2.N = SageSpec.mm (M := 1024) (K := 4096) (N := 256) (V c main_arg2) (V c main_v12) :=
  (dat2 (F := Ideal) V c).arrAt_eq_of_cover 2 (SageSpec.mm (val2_arrA V c) (val2_arrB V c)) (val2_flushed_eq V c) val2_cover

end

end Cert.KernelIdeal.Hand

end
-- ==== Proof.Value3.lean ====
/-
  What region 3 leaves in its output array, at the exact instance: one layer's transform of its operand arrays, row block by row block.
-/
import proofs.«161480_j6485400617280_1_alg».proof.Proof.Region3
import proofs.«161480_j6485400617280_1_alg».proof.Proof.Spec
import proofs.«161480_j6485400617280_1_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat Cfg Window)
open Idealize.ShloMosaic.ValueIdx

variable (V : (c : Dev nD) → (b : Ref sig .tc) → Buf (Elt Ideal) ((c : Thread nD τ).loc b))

/-- The body's value at an entry: the two products' sums added, clamped below at zero. -/
theorem pay3_apply (x0 x1 : Vec Ideal S512x256 .f32) (w0 w1 : Vec Ideal S256x256 .f32) (p : Fin 512) (q : Fin 256) :
    k3_pay1 (F := Ideal) x0 x1 w0 w1 (ix2 p q)
      = max ((∑ k : Fin 256, x0 (ix2 p k) * w0 (ix2 k q)) + ∑ k : Fin 256, x1 (ix2 p k) * w1 (ix2 k q)) SageSpec.zero32 := by
  unfold k3_pay1
  simp only [shapeCast_self]
  rw [maximumf_apply, addf_apply,
    PlainDot.matmul_zero_apply (d := dot_S512x256_S256x256_S512x256_1_0_0_1_n_n) ⟨rfl, rfl, rfl, rfl, rfl, rfl⟩,
    PlainDot.matmul_zero_apply (d := dot_S512x256_S256x256_S512x256_1_0_0_1_n_n) ⟨rfl, rfl, rfl, rfl, rfl, rfl⟩]
  rfl

/-- The index maps over the grid: the row-block windows sit at block (t, 0), the weight windows at block (0, 0). -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Window 0's block at point t, read at (p, k), is the node-feature array at row t·512 + p. -/
theorem iblk3_0_apply (c : Dev nD) (t : Fin cfg3.N) (p : Fin 512) (k : Fin 256) (r : Fin 1024) (hr : r.val = t.val * 512 + p.val) :
    iblk3 V c 0 t (ix2 p k) = V c main_v20 (ix2 r k) := by
  obtain ⟨e0, e1, -⟩ := idx_facts3 t
  unfold iblk3
  rw [View.read_apply]
  show V c main_v20 _ = V c main_v20 _
  congr 1
  funext a; apply Fin.ext
  match a with
  | ⟨0, _⟩ => show win3_0.index t (0 : Fin 2) * 512 + 1 * p.val = r.val; rw [e0, hr]; omega
  | ⟨1, _⟩ => show win3_0.index t (1 : Fin 2) * 256 + 1 * k.val = k.val; rw [e1]; omega

/-- Window 1's block at point t, read at (p, k), is the aggregated-feature array at row t·512 + p. -/
theorem iblk3_1_apply (c : Dev nD) (t : Fin cfg3.N) (p : Fin 512) (k : Fin 256) (r : Fin 1024) (hr : r.val = t.val * 512 + p.val) :
    iblk3 V c 1 t (ix2 p k) = V c main_v13 (ix2 r k) := by
  obtain ⟨-, -, e0, e1, -⟩ := idx_facts3 t
  unfold iblk3
  rw [View.read_apply]
  show V c main_v13 _ = V c main_v13 _
  congr 1
  funext a; apply Fin.ext
  match a with
  | ⟨0, _⟩ => show win3_1.index t (0 : Fin 2) * 512 + 1 * p.val = r.val; rw [e0, hr]; omega
  | ⟨1, _⟩ => show win3_1.index t (1 : Fin 2) * 256 + 1 * k.val = k.val; rw [e1]; omega

/-- Window 2's block at every point is the whole first weight matrix. -/
theorem iblk3_2_apply (c : Dev nD) (t : Fin cfg3.N) (k : Fin 256) (q : Fin 256) :
    iblk3 V c 2 t (ix2 k q) = V c main_v22 (ix2 k q) := by
  obtain ⟨-, -, -, -, e0, e1, -⟩ := idx_facts3 t
  unfold iblk3
  rw [View.read_apply]
  show V c main_v22 _ = V c main_v22 _
  congr 1
  funext a; apply Fin.ext
  match a with
  | ⟨0, _⟩ => show win3_2.index t (0 : Fin 2) * 256 + 1 * k.val = k.val; rw [e0]; omega
  | ⟨1, _⟩ => show win3_2.index t (1 : Fin 2) * 256 + 1 * q.val = q.val; rw [e1]; omega

/-- Window 3's block at every point is the whole second weight matrix. -/
theorem iblk3_3_apply (c : Dev nD) (t : Fin cfg3.N) (k : Fin 256) (q : Fin 256) :
    iblk3 V c 3 t (ix2 k q) = V c main_v24 (ix2 k q) := by
  obtain ⟨-, -, -, -, -, -, e0, e1, -⟩ := idx_facts3 t
  unfold iblk3
  rw [View.read_apply]
  show V c main_v24 _ = V c main_v24 _
  congr 1
  funext a; apply Fin.ext
  match a with
  | ⟨0, _⟩ => show win3_3.index t (0 : Fin 2) * 256 + 1 * k.val = k.val; rw [e0]; omega
  | ⟨1, _⟩ => show win3_3.index t (1 : Fin 2) * 256 + 1 * q.val = q.val; rw [e1]; omega

/-- What point t writes back is row block t of the layer's transform of the four operand arrays. -/
theorem flushed3_eq (c : Dev nD) (t : Fin cfg3.N) :
    (dat3 (F := Ideal) V c).flushed 4 t = ((cfg3.win 4).blk t).view.read (Elt Ideal)
      (SageSpec.dense (M := 1024) (D := 256) (H := 256) (V c main_v20) (V c main_v13) (V c main_v22) (V c main_v24)) := by
  show (cfg3.win 4).cut (grid3.coords t) ((dat3 V c).after 4 t) = _
  rw [after3_4]
  funext j
  have hN : t.val < 2 := lt_of_lt_of_eq t.isLt N_3
  have hp : (j 0).val < 512 := (j 0).isLt
  have hq : (j 1).val < 256 := (j 1).isLt
  obtain ⟨-, -, -, -, -, -, -, -, e0, e1⟩ := idx_facts3 t
  have hx : win3_4.xinj (grid3.coords t) j = ix2 (⟨(j 0).val, hp⟩ : Fin 512) (⟨(j 1).val, hq⟩ : Fin 256) := by
    funext a
    match a with
    | ⟨0, _⟩ => rfl
    | ⟨1, _⟩ => rfl
  have he : ((cfg3.win 4).blk t).view.emb j
      = ix2 (⟨t.val * 512 + (j 0).val, by omega⟩ : Fin 1024) (⟨(j 1).val, hq⟩ : Fin 256) := by
    funext a; apply Fin.ext
    match a with
    | ⟨0, _⟩ => show win3_4.index t (0 : Fin 2) * 512 + 1 * (j 0).val = t.val * 512 + (j 0).val; rw [e0]; omega
    | ⟨1, _⟩ => show win3_4.index t (1 : Fin 2) * 256 + 1 * (j 1).val = (j 1).val; rw [e1]; omega
  rw [View.read_apply, he]
  show k3_pay1 (F := Ideal) _ _ _ _ (win3_4.xinj (grid3.coords t) j) = SageSpec.dense _ _ _ _ _
  rw [hx, pay3_apply, SageSpec.dense_apply, SageSpec.mm_apply, SageSpec.mm_apply]
  congr 2
  · exact Finset.sum_congr rfl fun k _ => by rw [iblk3_0_apply V c t ⟨(j 0).val, hp⟩ k ⟨t.val * 512 + (j 0).val, by omega⟩ rfl, iblk3_2_apply V c t k _]
  · exact Finset.sum_congr rfl fun k _ => by rw [iblk3_1_apply V c t ⟨(j 0).val, hp⟩ k ⟨t.val * 512 + (j 0).val, by omega⟩ rfl, iblk3_3_apply V c t k _]

/-- An index of the output array is in point t's block iff each coordinate is in the block's range on its axis. -/
theorem mem_blk3 (t : Fin cfg3.N) (i : S1024x256.Idx) :
    i ∈ ((cfg3.win 4).blk t).view.set ↔ ∀ a : Fin 2, win3_4.index t a * S512x256.size a ≤ (i a).val ∧ (i a).val < win3_4.index t a * S512x256.size a + S512x256.size a := by
  show i ∈ ((View.whole main_v25).slice (win3_4.rect t)).set ↔ _
  rw [View.set_slice_whole, Rect.mem_set_unit]
  exact Iff.rfl

/-- Every index of the output array is in the block of the point its row falls in. -/
theorem cover3 (i : S1024x256.Idx) : ∃ t : Fin cfg3.N, (cfg3.win 4).flush t = true ∧ i ∈ ((cfg3.win 4).blk t).view.set := by
  have hi0 : (i 0).val < 1024 := (i 0).isLt
  have hi1 : (i 1).val < 256 := (i 1).isLt
  have hN : cfg3.N = 2 := N_3
  let t : Fin cfg3.N := ⟨(i 0).val / 512, by rw [hN]; omega⟩
  have ht : t.val = (i 0).val / 512 := rfl
  obtain ⟨-, -, -, -, -, -, -, -, e0, e1⟩ := idx_facts3 t
  refine ⟨t, flush3_4 t, ?_⟩
  rw [mem_blk3]
  intro a
  match a with
  | ⟨0, _⟩ => show win3_4.index t (0 : Fin 2) * 512 ≤ (i 0).val ∧ (i 0).val < win3_4.index t (0 : Fin 2) * 512 + 512; rw [e0, ht]; omega
  | ⟨1, _⟩ => show win3_4.index t (1 : Fin 2) * 256 ≤ (i 1).val ∧ (i 1).val < win3_4.index t (1 : Fin 2) * 256 + 256; rw [e1]; omega

/-- Region 3's output array after the region is the layer's transform of its four operand arrays. -/
theorem value3 (c : Dev nD) :
    (dat3 (F := Ideal) V c).arrAt 4 cfg3.N = SageSpec.dense (M := 1024) (D := 256) (H := 256) (V c main_v20) (V c main_v13) (V c main_v22) (V c main_v24) :=
  (dat3 (F := Ideal) V c).arrAt_eq_of_cover 4 _ (fun t _ => flushed3_eq V c t) cover3

end Cert.KernelIdeal.Hand

end
-- ==== Proof.RefBridge.lean ====
/-
  The reference's operations as the two array functions of the specification.

  A host matrix product is `mm`. One layer of the reference — the node features and the aggregated features joined
  along the feature axis, multiplied by the transposed weight matrix, clamped below at zero — is `dense` over the two
  halves of the weight matrix, each cut out and transposed: the sum over the joined axis splits into the sum over the
  first half and the sum over the second.
-/
import proofs.«161480_j6485400617280_1_alg».proof.Proof.Gen.ReferenceIdeal.Read
import proofs.«161480_j6485400617280_1_alg».proof.Proof.Gen.KernelIdeal
import proofs.«161480_j6485400617280_1_alg».proof.Proof.Spec
import proofs.«161480_j6485400617280_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin

noncomputable section

namespace Cert.Bridge

open Idealize.ShloMosaic Idealize.ShloMosaic.ValueIdx
open scoped BigOperators

/-- A plain host product is the matrix product, at any sizes. -/
theorem dot_eq_mm {M K N : Nat} (d : DotDims ⟨2, ![M, K]⟩ ⟨2, ![K, N]⟩ ⟨2, ![M, N]⟩) (hd : PlainDot.IsPlain d)
    (A : FVec Ideal ⟨2, ![M, K]⟩ .f32) (B : FVec Ideal ⟨2, ![K, N]⟩ .f32) :
    Host.dotGeneral d none A B = SageSpec.mm (M := M) (K := K) (N := N) A B := by
  funext i
  obtain ⟨p, q, rfl⟩ : ∃ p q, i = ix2 p q := ⟨i 0, i 1, eq_ix2 i⟩
  show FloatOps.dotGeneral d none .single A B (ix2 p q) = _
  rw [PlainDot.dotGeneral_apply hd, SageSpec.mm_apply]

/-- The reference's first aggregation is the matrix product. -/
theorem ref_dot1 (A : FVec Ideal Cert.ReferenceIdeal.S4096x32768 .f32) (B : FVec Ideal Cert.ReferenceIdeal.S32768x128 .f32) :
    Host.dotGeneral Cert.ReferenceIdeal.dot_S4096x32768_S32768x128_S4096x128_1_0_0_1_n_n none A B
      = SageSpec.mm (M := 4096) (K := 32768) (N := 128) A B :=
  dot_eq_mm _ ⟨rfl, rfl, rfl, rfl, rfl, rfl⟩ A B

/-- The reference's second aggregation is the matrix product. -/
theorem ref_dot0 (A : FVec Ideal Cert.ReferenceIdeal.S1024x4096 .f32) (B : FVec Ideal Cert.ReferenceIdeal.S4096x256 .f32) :
    Host.dotGeneral Cert.ReferenceIdeal.dot_S1024x4096_S4096x256_S1024x256_1_0_0_1_n_n none A B
      = SageSpec.mm (M := 1024) (K := 4096) (N := 256) A B :=
  dot_eq_mm _ ⟨rfl, rfl, rfl, rfl, rfl, rfl⟩ A B

section Layer

variable {M D H : Nat}

/-- The joined features at a column of the first half are the node features. -/
theorem cat_left (X AGG : FVec Ideal ⟨2, ![M, D]⟩ .f32)
    (hc : Shape.Concatenates [(⟨2, ![M, D]⟩ : Shape), ⟨2, ![M, D]⟩] ⟨2, ![M, D + D]⟩ 1) (p : Fin M) (k : Fin D) :
    concatenate (⟨2, ![M, D + D]⟩ : Shape) 1 [⟨⟨2, ![M, D]⟩, X⟩, ⟨⟨2, ![M, D]⟩, AGG⟩] hc (ix2 p (Fin.castAdd D k)) = X (ix2 p k) :=
  concatenate_pair_apply_left (1 : Fin 2) X AGG hc (ix2 p (Fin.castAdd D k)) rfl (ix2 p k) (fun b => match b with
    | ⟨0, _⟩ => rfl
    | ⟨1, _⟩ => rfl)

/-- The joined features at a column of the second half are the aggregated features. -/
theorem cat_right (X AGG : FVec Ideal ⟨2, ![M, D]⟩ .f32)
    (hc : Shape.Concatenates [(⟨2, ![M, D]⟩ : Shape), ⟨2, ![M, D]⟩] ⟨2, ![M, D + D]⟩ 1) (p : Fin M) (k : Fin D) :
    concatenate (⟨2, ![M, D + D]⟩ : Shape) 1 [⟨⟨2, ![M, D]⟩, X⟩, ⟨⟨2, ![M, D]⟩, AGG⟩] hc (ix2 p (Fin.natAdd D k)) = AGG (ix2 p k) :=
  concatenate_pair_apply_right (1 : Fin 2) X AGG hc (ix2 p (Fin.natAdd D k)) rfl rfl (ix2 p k) (fun b => match b with
    | ⟨0, _⟩ => fun _ => rfl
    | ⟨1, _⟩ => fun hne => absurd rfl hne)
    (Nat.add_comm _ _)

end Layer

section Weights

variable {D H : Nat}

/-- The transposed weight matrix at a row of the first half is the transposed first half. -/
theorem wt_left (W : FVec Ideal ⟨2, ![H, D + D]⟩ .f32)
    (ht : (⟨2, ![H, D + D]⟩ : Shape).Transposes [1, 0] ⟨2, ![D + D, H]⟩)
    (hs : (⟨2, ![H, D + D]⟩ : Shape).Slices ![0, 0] ⟨2, ![H, D]⟩)
    (ht' : (⟨2, ![H, D]⟩ : Shape).Transposes [1, 0] ⟨2, ![D, H]⟩) (k : Fin D) (q : Fin H) :
    transpose (⟨2, ![D + D, H]⟩ : Shape) [1, 0] W ht (ix2 (Fin.castAdd D k) q)
      = transpose (⟨2, ![D, H]⟩ : Shape) [1, 0] (extractStridedSlice (⟨2, ![H, D]⟩ : Shape) ![0, 0] W hs) ht' (ix2 k q) := by
  rw [transpose_apply [1, 0] W ht (ix2 (Fin.castAdd D k) q) (ix2 q (Fin.castAdd D k)) (fun b => match b with
    | ⟨0, _⟩ => rfl
    | ⟨1, _⟩ => rfl)]
  rw [transpose_apply [1, 0] _ ht' (ix2 k q) (ix2 q k) (fun b => match b with
    | ⟨0, _⟩ => rfl
    | ⟨1, _⟩ => rfl)]
  exact (extractStridedSlice_apply ![0, 0] W hs (ix2 q k) (ix2 q (Fin.castAdd D k)) (fun a => match a with
    | ⟨0, _⟩ => (Nat.zero_add _).symm
    | ⟨1, _⟩ => (Nat.zero_add _).symm)).symm

/-- The transposed weight matrix at a row of the second half is the transposed second half. -/
theorem wt_right (W : FVec Ideal ⟨2, ![H, D + D]⟩ .f32)
    (ht : (⟨2, ![H, D + D]⟩ : Shape).Transposes [1, 0] ⟨2, ![D + D, H]⟩)
    (hs : (⟨2, ![H, D + D]⟩ : Shape).Slices ![0, D] ⟨2, ![H, D]⟩)
    (ht' : (⟨2, ![H, D]⟩ : Shape).Transposes [1, 0] ⟨2, ![D, H]⟩) (k : Fin D) (q : Fin H) :
    transpose (⟨2, ![D + D, H]⟩ : Shape) [1, 0] W ht (ix2 (Fin.natAdd D k) q)
      = transpose (⟨2, ![D, H]⟩ : Shape) [1, 0] (extractStridedSlice (⟨2, ![H, D]⟩ : Shape) ![0, D] W hs) ht' (ix2 k q) := by
  rw [transpose_apply [1, 0] W ht (ix2 (Fin.natAdd D k) q) (ix2 q (Fin.natAdd D k)) (fun b => match b with
    | ⟨0, _⟩ => rfl
    | ⟨1, _⟩ => rfl)]
  rw [transpose_apply [1, 0] _ ht' (ix2 k q) (ix2 q k) (fun b => match b with
    | ⟨0, _⟩ => rfl
    | ⟨1, _⟩ => rfl)]
  exact (extractStridedSlice_apply ![0, D] W hs (ix2 q k) (ix2 q (Fin.natAdd D k)) (fun a => match a with
    | ⟨0, _⟩ => (Nat.zero_add _).symm
    | ⟨1, _⟩ => rfl)).symm

end Weights

/-- One layer over joined features, at any sizes: the sum over the joined axis splits into the sum over the node
    features' columns and the sum over the aggregated features' columns; on each half the joined array is its piece
    and the transposed weight matrix is the transposed half. -/
theorem layer_eq_dense {M D H : Nat}
    (d : DotDims ⟨2, ![M, D + D]⟩ ⟨2, ![D + D, H]⟩ ⟨2, ![M, H]⟩) (hd : PlainDot.IsPlain d)
    (X AGG : FVec Ideal ⟨2, ![M, D]⟩ .f32) (W : FVec Ideal ⟨2, ![H, D + D]⟩ .f32)
    (hc : Shape.Concatenates [(⟨2, ![M, D]⟩ : Shape), ⟨2, ![M, D]⟩] ⟨2, ![M, D + D]⟩ 1)
    (ht : (⟨2, ![H, D + D]⟩ : Shape).Transposes [1, 0] ⟨2, ![D + D, H]⟩)
    (hb : (⟨0, ![]⟩ : Shape).BroadcastsInDim ⟨2, ![M, H]⟩ ![])
    (hs0 : (⟨2, ![H, D + D]⟩ : Shape).Slices ![0, 0] ⟨2, ![H, D]⟩)
    (hs1 : (⟨2, ![H, D + D]⟩ : Shape).Slices ![0, D] ⟨2, ![H, D]⟩)
    (ht' : (⟨2, ![H, D]⟩ : Shape).Transposes [1, 0] ⟨2, ![D, H]⟩) :
    maximumf (Host.dotGeneral d none
        (concatenate (⟨2, ![M, D + D]⟩ : Shape) 1 [⟨⟨2, ![M, D]⟩, X⟩, ⟨⟨2, ![M, D]⟩, AGG⟩] hc)
        (transpose (⟨2, ![D + D, H]⟩ : Shape) [1, 0] W ht))
      (broadcastInDim (⟨2, ![M, H]⟩ : Shape) ![] hb (constant (⟨0, ![]⟩ : Shape) .f32 0x00000000#32))
    = SageSpec.dense (M := M) (D := D) (H := H) X AGG
        (transpose (⟨2, ![D, H]⟩ : Shape) [1, 0] (extractStridedSlice (⟨2, ![H, D]⟩ : Shape) ![0, 0] W hs0) ht')
        (transpose (⟨2, ![D, H]⟩ : Shape) [1, 0] (extractStridedSlice (⟨2, ![H, D]⟩ : Shape) ![0, D] W hs1) ht') := by
  funext i
  obtain ⟨p, q, rfl⟩ : ∃ p q, i = ix2 p q := ⟨i 0, i 1, eq_ix2 i⟩
  rw [SageSpec.dense_apply, SageSpec.mm_apply, SageSpec.mm_apply]
  -- the clamp's zero: the broadcast scalar constant at any entry
  have hz : broadcastInDim (⟨2, ![M, H]⟩ : Shape) ![] hb (constant (F := Ideal) (⟨0, ![]⟩ : Shape) .f32 0x00000000#32) (ix2 p q)
      = SageSpec.zero32 :=
    (broadcastInDim_apply _ hb (constant (F := Ideal) (⟨0, ![]⟩ : Shape) .f32 0x00000000#32) (ix2 p q)
      (fun a => a.elim0) (fun a => a.elim0)).trans rfl
  -- the product over the joined axis, split in its two halves
  have hsum : FloatOps.dotGeneral d none .single
        (concatenate (⟨2, ![M, D + D]⟩ : Shape) 1 [⟨⟨2, ![M, D]⟩, X⟩, ⟨⟨2, ![M, D]⟩, AGG⟩] hc)
        (transpose (⟨2, ![D + D, H]⟩ : Shape) [1, 0] W ht) (ix2 p q)
      = (∑ k : Fin D, X (ix2 p k)
            * transpose (⟨2, ![D, H]⟩ : Shape) [1, 0] (extractStridedSlice (⟨2, ![H, D]⟩ : Shape) ![0, 0] W hs0) ht' (ix2 k q))
        + ∑ k : Fin D, AGG (ix2 p k)
            * transpose (⟨2, ![D, H]⟩ : Shape) [1, 0] (extractStridedSlice (⟨2, ![H, D]⟩ : Shape) ![0, D] W hs1) ht' (ix2 k q) := by
    rw [PlainDot.dotGeneral_apply hd, Fin.sum_univ_add]
    congr 1
    · refine Finset.sum_congr rfl fun k _ => ?_
      rw [cat_left X AGG hc p k, wt_left W ht hs0 ht' k q]
    · refine Finset.sum_congr rfl fun k _ => ?_
      rw [cat_right X AGG hc p k, wt_right W ht hs1 ht' k q]
  show max (FloatOps.dotGeneral d none .single _ _ (ix2 p q)) (broadcastInDim _ _ hb _ (ix2 p q)) = _
  rw [hsum, hz]

/-- The reference's first layer over joined features is `dense` over the two halves of the weight matrix. -/
theorem ref_layer1 (X AGG : FVec Ideal Cert.ReferenceIdeal.S4096x128 .f32) (W : FVec Ideal Cert.ReferenceIdeal.S256x256 .f32) :
    maximumf (Host.dotGeneral Cert.ReferenceIdeal.dot_S4096x256_S256x256_S4096x256_1_0_0_1_n_n none
        (concatenate Cert.ReferenceIdeal.S4096x256 1 [⟨Cert.ReferenceIdeal.S4096x128, X⟩, ⟨Cert.ReferenceIdeal.S4096x128, AGG⟩]
          Cert.ReferenceIdeal.Gen.concatenates_S4096x128_S4096x128_S4096x256_d1)
        (transpose Cert.ReferenceIdeal.S256x256 [1, 0] W Cert.ReferenceIdeal.Gen.transposes_S256x256_S256x256_1_0))
      (broadcastInDim Cert.ReferenceIdeal.S4096x256 ![] Cert.ReferenceIdeal.Gen.bcast_S_S4096x256 (constant Cert.ReferenceIdeal.S_ .f32 0x00000000#32))
    = SageSpec.dense (M := 4096) (D := 128) (H := 256) X AGG
        (transpose Cert.KernelIdeal.S128x256 [1, 0] (extractStridedSlice Cert.KernelIdeal.S256x128 ![0, 0] W Cert.KernelIdeal.Gen.slices_S256x256_S256x128_0_0) Cert.KernelIdeal.Gen.transposes_S256x128_S128x256_1_0)
        (transpose Cert.KernelIdeal.S128x256 [1, 0] (extractStridedSlice Cert.KernelIdeal.S256x128 ![0, 128] W Cert.KernelIdeal.Gen.slices_S256x256_S256x128_0_128) Cert.KernelIdeal.Gen.transposes_S256x128_S128x256_1_0) :=
  layer_eq_dense (M := 4096) (D := 128) (H := 256) _ ⟨rfl, rfl, rfl, rfl, rfl, rfl⟩ X AGG W _ _ _ _ _ _

/-- The reference's second layer over joined features is `dense` over the two halves of the weight matrix. -/
theorem ref_layer0 (X AGG : FVec Ideal Cert.ReferenceIdeal.S1024x256 .f32) (W : FVec Ideal Cert.ReferenceIdeal.S256x512 .f32) :
    maximumf (Host.dotGeneral Cert.ReferenceIdeal.dot_S1024x512_S512x256_S1024x256_1_0_0_1_n_n none
        (concatenate Cert.ReferenceIdeal.S1024x512 1 [⟨Cert.ReferenceIdeal.S1024x256, X⟩, ⟨Cert.ReferenceIdeal.S1024x256, AGG⟩]
          Cert.ReferenceIdeal.Gen.concatenates_S1024x256_S1024x256_S1024x512_d1)
        (transpose Cert.ReferenceIdeal.S512x256 [1, 0] W Cert.ReferenceIdeal.Gen.transposes_S256x512_S512x256_1_0))
      (broadcastInDim Cert.ReferenceIdeal.S1024x256 ![] Cert.ReferenceIdeal.Gen.bcast_S_S1024x256 (constant Cert.ReferenceIdeal.S_ .f32 0x00000000#32))
    = SageSpec.dense (M := 1024) (D := 256) (H := 256) X AGG
        (transpose Cert.KernelIdeal.S256x256 [1, 0] (extractStridedSlice Cert.KernelIdeal.S256x256 ![0, 0] W Cert.KernelIdeal.Gen.slices_S256x512_S256x256_0_0) Cert.KernelIdeal.Gen.transposes_S256x256_S256x256_1_0)
        (transpose Cert.KernelIdeal.S256x256 [1, 0] (extractStridedSlice Cert.KernelIdeal.S256x256 ![0, 256] W Cert.KernelIdeal.Gen.slices_S256x512_S256x256_0_256) Cert.KernelIdeal.Gen.transposes_S256x256_S256x256_1_0) :=
  layer_eq_dense (M := 1024) (D := 256) (H := 256) _ ⟨rfl, rfl, rfl, rfl, rfl, rfl⟩ X AGG W _ _ _ _ _ _

end Cert.Bridge

end
-- ==== Proof.Final.lean ====
/-
  The kernel program's result is the reference's result, as extended reals.

  Region by region the kernel's output arrays are the specification's functions of their operands; the host stretches
  between them gather rows and cut and transpose the weight matrices. The reference computes the same two layers over
  joined features, and a sum over the joined axis is the sum of the sums over its two halves.
-/
import proofs.«161480_j6485400617280_1_alg».proof.Proof.HostVals
import proofs.«161480_j6485400617280_1_alg».proof.Proof.Value0
import proofs.«161480_j6485400617280_1_alg».proof.Proof.Value1
import proofs.«161480_j6485400617280_1_alg».proof.Proof.Value2
import proofs.«161480_j6485400617280_1_alg».proof.Proof.Value3
import proofs.«161480_j6485400617280_1_alg».proof.Proof.RefBridge

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The first layer's result, on the kernel's side: region 1's output array over region 0's. -/
theorem kernel_layer1 (c : Dev nD) :
    (dat1 (F := Ideal) (V2 m ρ) c).arrAt 4 cfg1.N
      = Cert.ReferenceIdeal.Read.val_main_v11 (F := Ideal) (m ((c : Thread nD τ).loc main_arg0)) (m ((c : Thread nD τ).loc main_arg1))
          (m ((c : Thread nD τ).loc main_arg3)) (m ((c : Thread nD τ).loc main_arg5)) := by
  rw [value1, V2_main_v7, V2_main_v0, V2_main_v9, V2_main_v11, value0]
  unfold Cert.ReferenceIdeal.Read.val_main_v11 Cert.ReferenceIdeal.Read.val_main_v10 Cert.ReferenceIdeal.Read.val_main_v9
    Cert.ReferenceIdeal.Read.val_main_v8 Cert.ReferenceIdeal.Read.val_main_v7 Cert.ReferenceIdeal.Read.val_main_v6
    Cert.ReferenceIdeal.Read.val_main_v5 Cert.ReferenceIdeal.Read.val_main_v4 Cert.ReferenceIdeal.Read.val_main_v3
    Cert.ReferenceIdeal.Read.val_main_v2 Cert.ReferenceIdeal.Read.val_main_v1 Cert.ReferenceIdeal.Read.val_main_v0
    Cert.ReferenceIdeal.Read.val_main_c Cert.ReferenceIdeal.Read.val_main_c_0
    Cert.ReferenceIdeal.Read.val_main_call0_v0 Cert.ReferenceIdeal.Read.val_main_call0_cst
  rw [Cert.Bridge.ref_dot1]
  exact (Cert.Bridge.ref_layer1 _ _ _).symm

/-- The whole result, on the kernel's side: region 3's output array is the reference's result term. -/
theorem kernel_result (c : Dev nD) :
    (dat3 (F := Ideal) (V5 m ρ) c).arrAt 4 cfg3.N
      = Cert.ReferenceIdeal.Read.val_main_v23 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) := by
  rw [value3, V5_main_v20, V5_main_v13, V5_main_v22, V5_main_v24, value2, V3_main_arg2, V3_main_v12, kernel_layer1]
  unfold Cert.ReferenceIdeal.Read.val_main_v23 Cert.ReferenceIdeal.Read.val_main_v22 Cert.ReferenceIdeal.Read.val_main_v21
    Cert.ReferenceIdeal.Read.val_main_v20 Cert.ReferenceIdeal.Read.val_main_v19 Cert.ReferenceIdeal.Read.val_main_v18
    Cert.ReferenceIdeal.Read.val_main_v17 Cert.ReferenceIdeal.Read.val_main_v16 Cert.ReferenceIdeal.Read.val_main_v15
    Cert.ReferenceIdeal.Read.val_main_v14 Cert.ReferenceIdeal.Read.val_main_v13 Cert.ReferenceIdeal.Read.val_main_v12
    Cert.ReferenceIdeal.Read.val_main_c_1 Cert.ReferenceIdeal.Read.val_main_c_2
    Cert.ReferenceIdeal.Read.val_main_call1_v0 Cert.ReferenceIdeal.Read.val_main_call1_cst
  rw [Cert.Bridge.ref_dot0]
  exact (Cert.Bridge.ref_layer0 _ _ _).symm

end Cert.KernelIdeal.Hand

end
-- ==== Proof.BitsRegion0.lean ====
/-
  Region 0 of @main: the K-blocked matrix product. Each grid point multiplies one block of the left operand by
  one block of the right operand and adds the product to an accumulator kept in scratch memory; the accumulator is
  reset at the first step along the contracted axis and copied to the output block at the last.
-/
import proofs.«161480_j6485400617280_1_alg».proof.Proof.Gen.Kernel.Launch
import proofs.«161480_j6485400617280_1_alg».proof.Proof.Gen.Kernel.Skeleton
import proofs.«161480_j6485400617280_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The kernel body on any whole staging memrefs, case by case -/

/-- The branch that resets the accumulator is taken where the contracted coordinate is zero. -/
abbrev fr0_cond0 (i : grid0.Coords) : Prop := (Scalar.cmpi .ne (Scalar.extui (Scalar.cmpi .eq (BitVec.ofNat 32 (i 1).val) 0#32)) 0#32) = 1#1
/-- The branch that copies the accumulator out is taken where the contracted coordinate is the last. -/
abbrev fr0_cond1 (i : grid0.Coords) : Prop := k0_cond2 i = 1#1

theorem fr0_hzA : (![0, 0] : Fin S1024x128.rank → Nat) = fun _ => 0 := funext fun a => by fin_cases a <;> rfl
theorem fr0_hzL : (![0, 0] : Fin S1024x2048.rank → Nat) = fun _ => 0 := funext fun a => by fin_cases a <;> rfl
theorem fr0_hzR : (![0, 0] : Fin S2048x128.rank → Nat) = fun _ => 0 := funext fun a => by fin_cases a <;> rfl

/-- A store through the whole-shape rectangle at zero offsets, made last, leaves its payload, whatever was stored
    before it and whatever the buffer held. -/
theorem fr0_read_writes_last {S : Shape} {e : EltTy} {sp : Space} (v : View sig .tc sp S e) (f : v.ty.Contents (Elt F))
    {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h]

set_option maxHeartbeats 1000000 in
/-- A first step along the contracted axis: the accumulator, at anything, is zeroed and then holds the product of the
    two blocks added to zero; the output block is handed back untouched. -/
theorem fr0_runA (c : Dev nD) (i : grid0.Coords)
    (arg2 : Memref sig .tc .vmem S1024x2048 .f32) (harg2 : arg2.IsWhole)
    (arg3 : Memref sig .tc .vmem S2048x128 .f32) (harg3 : arg3.IsWhole)
    (arg4 : Memref sig .tc .vmem S1024x128 .f32) (harg4 : arg4.IsWhole)
    (arg5 : Memref sig .tc .vmem S1024x128 .f32) (harg5 : arg5.IsWhole)
    (hc0 : fr0_cond0 i) (hc1 : ¬fr0_cond1 i)
    (x0 : Vec F S1024x2048 .f32) (x1 : Vec F S2048x128 .f32) (xi : Vec F S1024x128 .f32)
    (E : Set ℕ) (K : PUnit → sProp 𝕄) :
    iprop(owns (c : Thread nD τ) arg2 fullShare x0 ∗ owns (c : Thread nD τ) arg3 fullShare x1 ∗ owns (c : Thread nD τ) arg4 fullShare xi
        ∗ (∃ d, owns (c : Thread nD τ) arg5 fullShare d)
        ∗ (iprop(owns (c : Thread nD τ) arg2 fullShare x0 ∗ owns (c : Thread nD τ) arg3 fullShare x1 ∗ owns (c : Thread nD τ) arg4 fullShare xi
            ∗ owns (c : Thread nD τ) arg5 fullShare (k0_pay2 x0 x1 (k0_pay1 (F := F)))) -∗ K ⟨⟩))
      ⊢ wp frame (wpE (defs₀ (F := F)) Variants.none c none) E (cc0__matmul_kernel i arg2 harg2 arg3 harg3 arg4 harg4 arg5 harg5) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%ds0, %fs0, -, HS0⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS0
  ipureintro
  refine (fr0_read_writes_last (S := S1024x128) _ _ fr0_hzA inb_S1024x128_S1024x128_0_0 _ _).trans ?_
  sl_unfold_words
  simp only [View.readAt_eq_ld, harg2.read_unread, harg3.read_unread, View.ld_unit_zero (S := S1024x2048) fr0_hzL,
    View.ld_unit_zero (S := S2048x128) fr0_hzR, View.readCov_unit_zero (S := S1024x128) _ fr0_hzA]

set_option maxHeartbeats 1000000 in
/-- A middle step along the contracted axis: the accumulator, at what the step before left, gains the product of the
    two blocks; the output block is handed back untouched. -/
theorem fr0_runB (c : Dev nD) (i : grid0.Coords)
    (arg2 : Memref sig .tc .vmem S1024x2048 .f32) (harg2 : arg2.IsWhole)
    (arg3 : Memref sig .tc .vmem S2048x128 .f32) (harg3 : arg3.IsWhole)
    (arg4 : Memref sig .tc .vmem S1024x128 .f32) (harg4 : arg4.IsWhole)
    (arg5 : Memref sig .tc .vmem S1024x128 .f32) (harg5 : arg5.IsWhole)
    (hc0 : ¬fr0_cond0 i) (hc1 : ¬fr0_cond1 i)
    (x0 : Vec F S1024x2048 .f32) (x1 : Vec F S2048x128 .f32) (xi : Vec F S1024x128 .f32) (xs : Vec F S1024x128 .f32)
    (E : Set ℕ) (K : PUnit → sProp 𝕄) :
    iprop(owns (c : Thread nD τ) arg2 fullShare x0 ∗ owns (c : Thread nD τ) arg3 fullShare x1 ∗ owns (c : Thread nD τ) arg4 fullShare xi
        ∗ owns (c : Thread nD τ) arg5 fullShare xs
        ∗ (iprop(owns (c : Thread nD τ) arg2 fullShare x0 ∗ owns (c : Thread nD τ) arg3 fullShare x1 ∗ owns (c : Thread nD τ) arg4 fullShare xi
            ∗ owns (c : Thread nD τ) arg5 fullShare (k0_pay2 x0 x1 xs)) -∗ K ⟨⟩))
      ⊢ wp frame (wpE (defs₀ (F := F)) Variants.none c none) E (cc0__matmul_kernel i arg2 harg2 arg3 harg3 arg4 harg4 arg5 harg5) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%fs0, %hfs0, HS0⟩, Hk⟩
  obtain rfl := harg2.eq_unread hf0; obtain rfl := harg3.eq_unread hf1; obtain rfl := harg4.eq_unread hf2
  obtain rfl := harg5.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS0
  ipureintro
  refine (fr0_read_writes_last (S := S1024x128) _ _ fr0_hzA inb_S1024x128_S1024x128_0_0 _ _).trans ?_
  try sl_unfold_words
  simp only [View.readAt_eq_ld, harg2.read_unread, harg3.read_unread, harg5.read_unread, View.ld_unit_zero (S := S1024x2048) fr0_hzL,
    View.ld_unit_zero (S := S2048x128) fr0_hzR, View.ld_unit_zero (S := S1024x128) fr0_hzA, View.readCov_unit_zero (S := S1024x128) _ fr0_hzA]

set_option maxHeartbeats 1000000 in
/-- The last step along the contracted axis: the accumulator gains the product of the two blocks and is copied whole
    into the output block, which held anything. -/
theorem fr0_runC (c : Dev nD) (i : grid0.Coords)
    (arg2 : Memref sig .tc .vmem S1024x2048 .f32) (harg2 : arg2.IsWhole)
    (arg3 : Memref sig .tc .vmem S2048x128 .f32) (harg3 : arg3.IsWhole)
    (arg4 : Memref sig .tc .vmem S1024x128 .f32) (harg4 : arg4.IsWhole)
    (arg5 : Memref sig .tc .vmem S1024x128 .f32) (harg5 : arg5.IsWhole)
    (hc0 : ¬fr0_cond0 i) (hc1 : fr0_cond1 i)
    (x0 : Vec F S1024x2048 .f32) (x1 : Vec F S2048x128 .f32) (xs : Vec F S1024x128 .f32)
    (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xs
        ∗ (iprop(owns (c : Thread nD τ) arg2 fullShare x0 ∗ owns (c : Thread nD τ) arg3 fullShare x1
            ∗ owns (c : Thread nD τ) arg4 fullShare (k0_pay2 x0 x1 xs)
            ∗ owns (c : Thread nD τ) arg5 fullShare (k0_pay2 x0 x1 xs)) -∗ K ⟨⟩))
      ⊢ wp frame (wpE (defs₀ (F := F)) Variants.none c none) E (cc0__matmul_kernel i arg2 harg2 arg3 harg3 arg4 harg4 arg5 harg5) K := by
  simp only [cc0__matmul_kernel_eq_skeleton]; unfold cc0__matmul_kernel_skel
  unfold owns
  iintro ⟨⟨%f0, %hf0, H0⟩, ⟨%f1, %hf1, H1⟩, ⟨%d2, %f2, -, H2⟩, ⟨%fs0, %hfs0, HS0⟩, Hk⟩
  obtain rfl := harg2.eq_unread hf0; obtain rfl := harg3.eq_unread hf1
  obtain rfl := harg5.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    refine (fr0_read_writes_last (S := S1024x128) _ _ fr0_hzA inb_S1024x128_S1024x128_0_0 _ _).trans ?_
    try sl_unfold_words
    simp only [View.readAt_eq_ld, harg2.read_unread, harg3.read_unread, harg5.read_unread, View.ld_unit_zero (S := S1024x2048) fr0_hzL,
      View.ld_unit_zero (S := S2048x128) fr0_hzR, View.ld_unit_zero (S := S1024x128) fr0_hzA, View.readCov_unit_zero (S := S1024x128) _ fr0_hzA]
  iexists _; isplitr
  swap; · iexact HS0
  ipureintro
  refine (fr0_read_writes_last (S := S1024x128) _ _ fr0_hzA inb_S1024x128_S1024x128_0_0 _ _).trans ?_
  try sl_unfold_words
  simp only [View.readAt_eq_ld, harg2.read_unread, harg3.read_unread, harg5.read_unread, View.ld_unit_zero (S := S1024x2048) fr0_hzL,
    View.ld_unit_zero (S := S2048x128) fr0_hzR, View.ld_unit_zero (S := S1024x128) fr0_hzA, View.readCov_unit_zero (S := S1024x128) _ fr0_hzA]

section
variable (V : (c : Dev nD) → (b : Ref sig .tc) → Buf (Elt F) ((c : Thread nD τ).loc b))

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator after the body at position `n`: at a first step along the contracted axis the product of the
    point's blocks added to zero, otherwise added to what the point before left. -/
def acc0 (c : Dev nD) : (n : ℕ) → n < cfg0.N → Vec F S1024x128 .f32
  | 0, hn => k0_pay2 (iblk0 V c 0 ⟨0, hn⟩) (iblk0 V c 1 ⟨0, hn⟩) (k0_pay1 (F := F))
  | n + 1, hn =>
    if (n + 1) % 16 = 0 then k0_pay2 (iblk0 V c 0 ⟨n + 1, hn⟩) (iblk0 V c 1 ⟨n + 1, hn⟩) (k0_pay1 (F := F))
    else k0_pay2 (iblk0 V c 0 ⟨n + 1, hn⟩) (iblk0 V c 1 ⟨n + 1, hn⟩) (acc0 c n (Nat.lt_of_succ_lt hn))

theorem acc0_first (c : Dev nD) (t : Fin cfg0.N) (h : t.val % 16 = 0) :
    acc0 V c t.val t.isLt = k0_pay2 (iblk0 V c 0 t) (iblk0 V c 1 t) (k0_pay1 (F := F)) := by
  obtain ⟨n, hn⟩ := t
  cases n with
  | zero => rfl
  | succ n => exact if_pos h

theorem acc0_next (c : Dev nD) (t : Fin cfg0.N) (h : ¬ t.val % 16 = 0) :
    acc0 V c t.val t.isLt = k0_pay2 (iblk0 V c 0 t) (iblk0 V c 1 t)
      (acc0 V c (t.val - 1) (Nat.lt_of_le_of_lt (Nat.sub_le _ _) t.isLt)) := by
  obtain ⟨n, hn⟩ := t
  cases n with
  | zero => exact absurd (Nat.zero_mod _) h
  | succ n => exact if_neg h

/-- The scratch accumulator, whole. -/
abbrev scM0 : Memref sig .tc .vmem S1024x128 .f32 := Memref.whole cc0_scratch0

/-- The core's scoped buffers other than region 0's staging buffers and its accumulator, each at some contents. -/
def restS0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg4_1), ((c : Thread nD τ).loc cc1_stg4_1) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg1_1), ((c : Thread nD τ).loc cc2_stg1_1) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_scratch0), ((c : Thread nD τ).loc cc2_scratch0) ↦{fullShare} f)
    ∗ (∃ f : Buf (Elt F) ((c : Thread nD τ).loc cc3_stg0_0), ((c : Thread nD τ).loc cc3_stg0_0) ↦{fullShare} f)
    ∗ (∃ f : Buf (Elt F) ((c : Thread nD τ).loc cc3_stg0_1), ((c : Thread nD τ).loc cc3_stg0_1) ↦{fullShare} f)
    ∗ (∃ f : Buf (Elt F) ((c : Thread nD τ).loc cc3_stg1_0), ((c : Thread nD τ).loc cc3_stg1_0) ↦{fullShare} f)
    ∗ (∃ f : Buf (Elt F) ((c : Thread nD τ).loc cc3_stg1_1), ((c : Thread nD τ).loc cc3_stg1_1) ↦{fullShare} f)
    ∗ (∃ f : Buf (Elt F) ((c : Thread nD τ).loc cc3_stg2_0), ((c : Thread nD τ).loc cc3_stg2_0) ↦{fullShare} f)
    ∗ (∃ f : Buf (Elt F) ((c : Thread nD τ).loc cc3_stg3_0), ((c : Thread nD τ).loc cc3_stg3_0) ↦{fullShare} f)
    ∗ (∃ f : Buf (Elt F) ((c : Thread nD τ).loc cc3_stg4_0), ((c : Thread nD τ).loc cc3_stg4_0) ↦{fullShare} f)
    ∗ (∃ f : Buf (Elt F) ((c : Thread nD τ).loc cc3_stg4_1), ((c : Thread nD τ).loc cc3_stg4_1) ↦{fullShare} f))

/-- The class invariant with the accumulator split off. -/
theorem PhiA0_eq (c : Dev nD) :
    (Pipeline.ΦA spec0 c : sProp 𝕄)
      ⊣⊢ iprop((∃ d, owns (c : Thread nD τ) (scM0) fullShare d) ∗ restS0 (F := F) c ∗ (∃ r, prngReg c r)) := by
  unfold Pipeline.ΦA restS0; rw [scopedRest0_eq]; simp only [scM0, owns_whole]
  exact sep_assoc

theorem fr0_PhiA0_eq (c : Dev nD) :
    (Pipeline.ΦA spec0 c : sProp 𝕄)
      = iprop((∃ d, owns (c : Thread nD τ) (scM0) fullShare d) ∗ restS0 (F := F) c ∗ (∃ r, prngReg c r)) :=
  BI.equiv_iff.mp ⟨(PhiA0_eq c).mp, (PhiA0_eq c).mpr⟩

/-- The region's invariant before position `n`: before the first point every scoped buffer at some contents; afterwards
    the accumulator at what the point before left. -/
def PhiS0 (c : Dev nD) : (n : ℕ) → n ≤ cfg0.N → sProp 𝕄
  | 0, _ => Pipeline.ΦA spec0 c
  | n + 1, hn => iprop(owns (c : Thread nD τ) (scM0) fullShare (acc0 V c n hn) ∗ restS0 (F := F) c ∗ (∃ r, prngReg c r))

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = acc0 V c t.val t.isLt := by dsimp only [dat0]

/-! ## The branch conditions and the output window's idle points, decided over the grid -/

/-- The reset branch is taken at the points ≡ 0 (mod 16). -/
theorem fr0_hcond0 : ∀ t : Fin cfg0.N, fr0_cond0 (grid0.coords t) ↔ t.val % 16 = 0 :=
  (by decide +kernel : ∀ t : Fin grid0.N, fr0_cond0 (grid0.coords t) ↔ t.val % 16 = 0)
/-- The copy-out branch is taken at the points ≡ 15 (mod 16). -/
theorem fr0_hcond1 : ∀ t : Fin cfg0.N, fr0_cond1 (grid0.coords t) ↔ t.val % 16 = 15 :=
  (by decide +kernel : ∀ t : Fin grid0.N, fr0_cond1 (grid0.coords t) ↔ t.val % 16 = 15)

/-- The input windows are never idle. -/
theorem fr0_live0 : ∀ t : Fin cfg0.N, cfg0.idle 0 (grid0.coords t) = false := by decide +kernel
theorem fr0_live1 : ∀ t : Fin cfg0.N, cfg0.idle 1 (grid0.coords t) = false := by decide +kernel
/-- The output window is idle at every point but a last step along the contracted axis, -/
theorem fr0_idle2 : ∀ t : Fin cfg0.N, ¬ t.val % 16 = 15 → cfg0.idle 2 (grid0.coords t) = true :=
  (by decide +kernel : ∀ t : Fin grid0.N, ¬ t.val % 16 = 15 → cfg0.idle 2 (grid0.coords t) = true)
/-- where it is not written back, -/
theorem fr0_noFlush2 (t : Fin cfg0.N) (h : ¬ t.val % 16 = 15) : (cfg0.win 2).flush t = false :=
  Bool.eq_false_iff.mpr fun hf => h ((flush0_2 t).mp hf)
/-- and live at a last step. -/
theorem fr0_live2 : ∀ t : Fin cfg0.N, t.val % 16 = 15 → cfg0.idle 2 (grid0.coords t) = false :=
  (by decide +kernel : ∀ t : Fin grid0.N, t.val % 16 = 15 → cfg0.idle 2 (grid0.coords t) = false)

/-- Each window's current staging memref at point `t`, and its wholeness. -/
abbrev fr0_ms0 (t : Fin cfg0.N) : Memref sig .tc .vmem S1024x2048 .f32 := win0_0.stage (cfg0.slots t 0)
abbrev fr0_hs0 (t : Fin cfg0.N) : (fr0_ms0 t).IsWhole := hstage0_0 ((cfg0.slots t 0).cast nbuf0_0)
abbrev fr0_ms1 (t : Fin cfg0.N) : Memref sig .tc .vmem S2048x128 .f32 := win0_1.stage (cfg0.slots t 1)
abbrev fr0_hs1 (t : Fin cfg0.N) : (fr0_ms1 t).IsWhole := hstage0_1 ((cfg0.slots t 1).cast nbuf0_1)
abbrev fr0_ms2 (t : Fin cfg0.N) : Memref sig .tc .vmem S1024x128 .f32 := win0_2.stage (cfg0.slots t 2)
abbrev fr0_hs2 (t : Fin cfg0.N) : (fr0_ms2 t).IsWhole := hstage0_2 ((cfg0.slots t 2).cast nbuf0_2)

/-! ## The invariant, point by point -/

theorem fr0_PhiS0_zero (c : Dev nD) (n : ℕ) (h : n ≤ cfg0.N) (hz : n = 0) : PhiS0 V c n h = Pipeline.ΦA spec0 c := by
  subst hz; rfl

/-- After point `n`: the accumulator at that point's contents. -/
theorem fr0_PhiS0_succ (c : Dev nD) (n : ℕ) (hn : n < cfg0.N) :
    PhiS0 V c (n + 1) hn = iprop(owns (c : Thread nD τ) (scM0) fullShare (acc0 V c n hn) ∗ restS0 (F := F) c ∗ (∃ r, prngReg c r)) := rfl

/-- Before a point that is not the first: the accumulator at what the point before left. -/
theorem fr0_PhiS0_pos (c : Dev nD) (n : ℕ) (h : n ≤ cfg0.N) (hz : n ≠ 0) :
    PhiS0 V c n h = iprop(owns (c : Thread nD τ) (scM0) fullShare (acc0 V c (n - 1) (by omega)) ∗ restS0 (F := F) c ∗ (∃ r, prngReg c r)) := by
  cases n with
  | zero => exact absurd rfl hz
  | succ n => rfl

/-- The invariant at a point's start, restated at `t.val`. -/
theorem fr0_PhiS0_castSucc (c : Dev nD) (t : Fin cfg0.N) :
    (dat0 V c).Φ t.castSucc = PhiS0 V c t.val (Nat.le_of_lt t.isLt) := by
  dsimp only [dat0]; simp only [Fin.coe_castSucc]

/-- Each input's current staging buffer holds its block at every point, fetched there or not. -/
theorem fr0_before0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem fr0_before1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-! ## The body obligation, at a generic point -/

/-- What the body is called with at point `t`, the windows one by one, -/
def fr0_bodyPre (c : Dev nD) (t : Fin cfg0.N) : sProp 𝕄 :=
  iprop((dat0 V c).Φ t.castSucc ∗ (dat0 V c).owesAt () t.castSucc
    ∗ (∃ d, owns (c : Thread nD τ) (fr0_ms0 t) fullShare ((dat0 V c).before 0 t d))
    ∗ (∃ d, owns (c : Thread nD τ) (fr0_ms1 t) fullShare ((dat0 V c).before 1 t d))
    ∗ (∃ d, owns (c : Thread nD τ) (fr0_ms2 t) fullShare ((dat0 V c).before 2 t d)))

/-- and what it returns. -/
def fr0_bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The inputs' buffers hold their blocks; the point's position along the contracted axis says
    which branches run. At a first step the accumulator (at anything before the first point, at what the point before
    left otherwise) is reset and accumulates; at a later step it accumulates onto what the point before left; at a last
    step it is also copied to the output's buffer, which is live there. Elsewhere the output's buffer is idle and handed
    back as found. The other scoped buffers and the generator register pass through. -/
theorem fr0_sound_body (c : Dev nD) (t : Fin cfg0.N) :
    fr0_bodyPre V c t ⊢ wp frame (wpE (defs₀ (F := F)) Variants.none c none) Set.univ (bodyAt0 t) (fun _ => fr0_bodyPost V c t) := by
  unfold fr0_bodyPre fr0_bodyPost bodyAt0
  simp only [fr0_before0, fr0_before1]
  rw [show (dat0 V c).owesAt () t.succ = (dat0 V c).owesAt () t.castSucc from rfl]
  rw [show (dat0 V c).Φ t.succ = PhiS0 V c (t.val + 1) t.isLt from rfl, fr0_PhiS0_succ]
  rw [show (dat0 V c).leavesExact 0 t = owns (c : Thread nD τ) (fr0_ms0 t) fullShare ((dat0 V c).after 0 t) from by
    unfold Dat.leavesExact; rw [fr0_live0 t], after0_0]
  rw [show (dat0 V c).leavesExact 1 t = owns (c : Thread nD τ) (fr0_ms1 t) fullShare ((dat0 V c).after 1 t) from by
    unfold Dat.leavesExact; rw [fr0_live1 t], after0_1]
  have hN : t.val < 64 := lt_of_lt_of_eq t.isLt (show cfg0.N = 64 from N_0)
  by_cases h0 : t.val % 16 = 0
  · have h1 : ¬ t.val % 16 = 15 := by omega
    rw [Dat.leavesExact_idle (dat0 V c) 2 t (fr0_idle2 t h1) (fr0_noFlush2 t h1)]
    rw [acc0_first V c t h0]
    by_cases hz : t.val = 0
    · rw [fr0_PhiS0_castSucc V c t, fr0_PhiS0_zero V c _ _ hz, fr0_PhiA0_eq]
      iintro ⟨⟨⟨%ds, HS⟩, HR, Hg⟩, Ho, ⟨%d0, H0⟩, ⟨%d1, H1⟩, ⟨%d2, H2⟩⟩
      iapply (fr0_runA c (grid0.coords t) (fr0_ms0 t) (fr0_hs0 t) (fr0_ms1 t) (fr0_hs1 t) (fr0_ms2 t) (fr0_hs2 t) scM0 (Memref.isWhole_whole _)
        ((fr0_hcond0 t).mpr h0) (fun h => h1 ((fr0_hcond1 t).mp h)) (iblk0 V c 0 t) (iblk0 V c 1 t) ((dat0 V c).before 2 t d2) Set.univ _)
      isplitl [H0]; · iexact H0
      isplitl [H1]; · iexact H1
      isplitl [H2]; · iexact H2
      isplitl [HS]; · iexists _; iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2
    · rw [fr0_PhiS0_castSucc V c t, fr0_PhiS0_pos V c _ _ hz]
      iintro ⟨⟨HS, HR, Hg⟩, Ho, ⟨%d0, H0⟩, ⟨%d1, H1⟩, ⟨%d2, H2⟩⟩
      iapply (fr0_runA c (grid0.coords t) (fr0_ms0 t) (fr0_hs0 t) (fr0_ms1 t) (fr0_hs1 t) (fr0_ms2 t) (fr0_hs2 t) scM0 (Memref.isWhole_whole _)
        ((fr0_hcond0 t).mpr h0) (fun h => h1 ((fr0_hcond1 t).mp h)) (iblk0 V c 0 t) (iblk0 V c 1 t) ((dat0 V c).before 2 t d2) Set.univ _)
      isplitl [H0]; · iexact H0
      isplitl [H1]; · iexact H1
      isplitl [H2]; · iexact H2
      isplitl [HS]; · iexists _; iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2
  · have hz : t.val ≠ 0 := fun e => h0 (by rw [e])
    rw [acc0_next V c t h0]
    rw [fr0_PhiS0_castSucc V c t, fr0_PhiS0_pos V c _ _ hz]
    by_cases h1 : t.val % 16 = 15
    · rw [show (dat0 V c).leavesExact 2 t = owns (c : Thread nD τ) (fr0_ms2 t) fullShare ((dat0 V c).after 2 t) from by
        unfold Dat.leavesExact; rw [fr0_live2 t h1], after0_2, acc0_next V c t h0]
      iintro ⟨⟨HS, HR, Hg⟩, Ho, ⟨%d0, H0⟩, ⟨%d1, H1⟩, ⟨%d2, H2⟩⟩
      iapply (fr0_runC c (grid0.coords t) (fr0_ms0 t) (fr0_hs0 t) (fr0_ms1 t) (fr0_hs1 t) (fr0_ms2 t) (fr0_hs2 t) scM0 (Memref.isWhole_whole _)
        (fun h => h0 ((fr0_hcond0 t).mp h)) ((fr0_hcond1 t).mpr h1) (iblk0 V c 0 t) (iblk0 V c 1 t)
        (acc0 V c (t.val - 1) (Nat.lt_of_le_of_lt (Nat.sub_le _ _) t.isLt)) Set.univ _)
      isplitl [H0]; · iexact H0
      isplitl [H1]; · iexact H1
      isplitl [H2]; · iexists _; iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexact H2
    · rw [Dat.leavesExact_idle (dat0 V c) 2 t (fr0_idle2 t h1) (fr0_noFlush2 t h1)]
      iintro ⟨⟨HS, HR, Hg⟩, Ho, ⟨%d0, H0⟩, ⟨%d1, H1⟩, ⟨%d2, H2⟩⟩
      iapply (fr0_runB c (grid0.coords t) (fr0_ms0 t) (fr0_hs0 t) (fr0_ms1 t) (fr0_hs1 t) (fr0_ms2 t) (fr0_hs2 t) scM0 (Memref.isWhole_whole _)
        (fun h => h0 ((fr0_hcond0 t).mp h)) (fun h => h1 ((fr0_hcond1 t).mp h)) (iblk0 V c 0 t) (iblk0 V c 1 t) ((dat0 V c).before 2 t d2)
        (acc0 V c (t.val - 1) (Nat.lt_of_le_of_lt (Nat.sub_le _ _) t.isLt)) Set.univ _)
      isplitl [H0]; · iexact H0
      isplitl [H1]; · iexact H1
      isplitl [H2]; · iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact fr0_sound_body V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, fr0_PhiS0_zero V c 0 _ rfl]
  try exact Idealize.SL.BI.Entails.refl _

/-- After the last point the invariant gives the class invariant back: the accumulator's contents are forgotten. -/
theorem hout0 (c : Dev nD) : (dat0 V c).Φ (Fin.last cfg0.N) ⊢ Pipeline.ΦA spec0 c := by
  have hne : (Fin.last cfg0.N).val ≠ 0 := by rw [Fin.val_last]; have : cfg0.N = 64 := N_0; omega
  rw [show (dat0 V c).Φ (Fin.last cfg0.N) = PhiS0 V c (Fin.last cfg0.N).val (Nat.le_of_lt_succ (Fin.last cfg0.N).isLt) from rfl,
    fr0_PhiS0_pos V c _ _ hne, fr0_PhiA0_eq]
  iintro ⟨HS, HR, Hg⟩
  isplitl [HS]
  · iexists _; iexact HS
  isplitl [HR]; · iexact HR
  iexact Hg

end

end Cert.Kernel.Hand

end
-- ==== Proof.BitsRegion1.lean ====
/-
  Region 1 of @main: the dense transform of one row block. The body multiplies the block of node features by one
  weight matrix, the block of aggregated features by another, adds the two products and clamps the sum below at zero.
-/
import proofs.«161480_j6485400617280_1_alg».proof.Proof.Gen.Kernel.Launch
import proofs.«161480_j6485400617280_1_alg».proof.Proof.Gen.Kernel.Skeleton
import proofs.«161480_j6485400617280_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: every one goes through the whole-shape rectangle -/

/-- The offsets of every access of the body are zero. -/
theorem fr1_hz : (![0, 0] : Fin 2 → ℕ) = fun _ => 0 := by
  funext a; fin_cases a <;> rfl

/-- The output buffer's one store covers it: every index is in the whole-shape rectangle. -/
theorem fr1_cover (inb : ∀ a, (![0, 0] : Fin 2 → ℕ) a + S1024x256.size a ≤ S1024x256.size a) (w : Vec F S1024x256 .f32) (y : S1024x256.Idx) :
    ∃ pc ∈ ([⟨Rect.unit (s := S1024x256) ![0, 0] S1024x256.size inb, w⟩] : List (View.Piece (Elt F) S1024x256 .f32)), y ∈ pc.1.set :=
  ⟨⟨Rect.unit (s := S1024x256) ![0, 0] S1024x256.size inb, w⟩, List.mem_singleton_self _, View.mem_set_unit_zero (S := S1024x256) fr1_hz inb y⟩

/-- So ONE store through it leaves its payload, whatever the buffer held. -/
theorem fr1_read_store {κ : Kind} {sp : Space} (v : View sig κ sp S1024x256 .f32) (f : v.ty.Contents (Elt F))
    (inb : ∀ a, (![0, 0] : Fin 2 → ℕ) a + S1024x256.size a ≤ S1024x256.size a) (w : Vec F S1024x256 .f32) :
    v.read (Elt F) (v.writes (Elt F) f [⟨Rect.unit (s := S1024x256) ![0, 0] S1024x256.size inb, w⟩]) = w :=
  (View.read_writes_eq_canon v f _ (fr1_cover inb w)).trans (View.canon_unit_zero (S := S1024x256) fr1_hz inb w)

/-- A load through the whole-shape rectangle reads the contents: the row blocks' shape, -/
theorem fr1_readAt_rows {κ : Kind} {sp : Space} (v : View sig κ sp S1024x128 .f32) (f : v.ty.Contents (Elt F))
    (inb : ∀ a, (![0, 0] : Fin 2 → ℕ) a + S1024x128.size a ≤ S1024x128.size a) :
    v.readAt (Elt F) (Rect.unit (s := S1024x128) ![0, 0] S1024x128.size inb).toLoadRect f = v.read (Elt F) f :=
  (View.readAt_eq_ld v f _).trans (View.ld_unit_zero (S := S1024x128) fr1_hz inb _)

/-- and the weight matrices'. -/
theorem fr1_readAt_weights {κ : Kind} {sp : Space} (v : View sig κ sp S128x256 .f32) (f : v.ty.Contents (Elt F))
    (inb : ∀ a, (![0, 0] : Fin 2 → ℕ) a + S128x256.size a ≤ S128x256.size a) :
    v.readAt (Elt F) (Rect.unit (s := S128x256) ![0, 0] S128x256.size inb).toLoadRect f = v.read (Elt F) f :=
  (View.readAt_eq_ld v f _).trans (View.ld_unit_zero (S := S128x256) fr1_hz inb _)

section
variable (V : (c : Dev nD) → (b : Ref sig .tc) → Buf (Elt F) ((c : Thread nD τ).loc b))

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data of pipeline 1 on core `c`: each input's buffer keeps its block, the output's holds the body's
    value of the four input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay1 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t
    = k1_pay1 (iblk1 V c 0 t) (iblk1 V c 1 t) (iblk1 V c 2 t) (iblk1 V c 3 t) := by dsimp only [dat1]

/-- Input window 0's current staging buffer holds its block at every point, fetched there or not, for any proof data whose
    array is `V`'s and whose body leaves the block in place: unfetched, the block index has not moved. -/
theorem fr1_before_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data whose
    array is `V`'s and whose body leaves the block in place: unfetched, the block index has not moved. -/
theorem fr1_before_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data whose
    array is `V`'s and whose body leaves the block in place: unfetched, the block index has not moved. -/
theorem fr1_before_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof data whose
    array is `V`'s and whose body leaves the block in place: unfetched, the block index has not moved. -/
theorem fr1_before_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's triple -/

set_option maxHeartbeats 1000000 in
/-- The kernel body on whole staging memrefs, the four inputs' at read contents `x0 … x3` and the output's at anything,
    runs to the continuation holding the inputs' as they were and the output's at the payload of the four inputs: the
    four loads read the contents, the load of the output buffer reads a value nothing uses, and the one store, through
    the whole-shape rectangle, leaves its payload whatever the buffer held. -/
theorem fr1_sound_kernel (c : Dev nD) (E : Set ℕ) (i : grid1.Coords)
    (arg1 : Memref sig .tc .vmem S1024x128 .f32) (harg1 : arg1.IsWhole) (arg2 : Memref sig .tc .vmem S1024x128 .f32) (harg2 : arg2.IsWhole)
    (arg3 : Memref sig .tc .vmem S128x256 .f32) (harg3 : arg3.IsWhole) (arg4 : Memref sig .tc .vmem S128x256 .f32) (harg4 : arg4.IsWhole)
    (arg5 : Memref sig .tc .vmem S1024x256 .f32) (harg5 : arg5.IsWhole)
    (x0 : Vec F S1024x128 .f32) (x1 : Vec F S1024x128 .f32) (x2 : Vec F S128x256 .f32) (x3 : Vec F S128x256 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (k1_pay1 x0 x1 x2 x3)) -∗ K ⟨⟩))
      ⊢ wp frame (wpE (defs₀ (F := F)) Variants.none c none) E (cc1__sage_kernel i arg1 harg1 arg2 harg2 arg3 harg3 arg4 harg4 arg5 harg5) K := by
  simp only [cc1__sage_kernel_eq_skeleton]; unfold cc1__sage_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  -- the one store leaves its payload, and each load through the whole-shape rectangle reads the contents
  rw [fr1_read_store, fr1_readAt_rows, fr1_readAt_rows, fr1_readAt_weights, fr1_readAt_weights]

/-! ## The proof data's contents before the body -/

/-- Each input's current staging buffer holds its block at every point, fetched there or not. -/
theorem fr1_before_0 (c : Dev nD) (t : Fin cfg1.N) (d) : (dat1 V c).before 0 t d = iblk1 V c 0 t :=
  fr1_before_0_of V (dat1 V c) (A_eq1 V c 0) (after1_0 V c) t d
theorem fr1_before_1 (c : Dev nD) (t : Fin cfg1.N) (d) : (dat1 V c).before 1 t d = iblk1 V c 1 t :=
  fr1_before_1_of V (dat1 V c) (A_eq1 V c 1) (after1_1 V c) t d
theorem fr1_before_2 (c : Dev nD) (t : Fin cfg1.N) (d) : (dat1 V c).before 2 t d = iblk1 V c 2 t :=
  fr1_before_2_of V (dat1 V c) (A_eq1 V c 2) (after1_2 V c) t d
theorem fr1_before_3 (c : Dev nD) (t : Fin cfg1.N) (d) : (dat1 V c).before 3 t d = iblk1 V c 3 t :=
  fr1_before_3_of V (dat1 V c) (A_eq1 V c 3) (after1_3 V c) t d

/-! ## The body obligation, at a generic point -/

/-- What the body is called with at point `t`: the invariant, the core's `owes`, and the five windows' current staging
    buffers one by one, -/
def fr1_bodyPre (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def fr1_bodyPost (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the body's triple applies; the invariant and the
    core's `owes` pass through unread. -/
theorem fr1_sound_body (c : Dev nD) (t : Fin cfg1.N) :
    fr1_bodyPre V c t ⊢ wp frame (wpE (defs₀ (F := F)) Variants.none c none) Set.univ (bodyAt1 t) (fun _ => fr1_bodyPost V c t) := by
  unfold fr1_bodyPre fr1_bodyPost bodyAt1
  simp only [fr1_before_0, fr1_before_1, fr1_before_2, fr1_before_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (fr1_sound_kernel c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact fr1_sound_body V c t

end

end Cert.Kernel.Hand

end
-- ==== Proof.BitsRegion2.lean ====
/-
  Region 2 of @main: the K-blocked matrix product. Each grid point multiplies one block of the left operand by
  one block of the right operand and adds the product to an accumulator kept in scratch memory; the accumulator is
  reset at the first step along the contracted axis and copied to the output block at the last.
-/
import proofs.«161480_j6485400617280_1_alg».proof.Proof.Gen.Kernel.Launch
import proofs.«161480_j6485400617280_1_alg».proof.Proof.Gen.Kernel.Skeleton
import proofs.«161480_j6485400617280_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, and where the windows are idle, decided over the grid -/

theorem fr2_hz2 : (![0, 0] : Fin 2 → Nat) = fun _ => 0 := funext fun a => by fin_cases a <;> rfl

/-- The first conditional's condition: the coordinate along the contracted axis is zero. -/
abbrev fr2_cond2_0 (i : grid2.Coords) : Prop := (Scalar.cmpi .ne (Scalar.extui (Scalar.cmpi .eq (BitVec.ofNat 32 (i 1).val) 0#32)) 0#32) = 1#1
/-- It holds at the points ≡ 0 (mod 4). -/
theorem fr2_hcond2_0 : ∀ t : Fin cfg2.N, fr2_cond2_0 (grid2.coords t) ↔ t.val % 4 = 0 :=
  (by decide +kernel : ∀ t : Fin grid2.N, fr2_cond2_0 (grid2.coords t) ↔ t.val % 4 = 0)

/-- The second conditional's condition: the coordinate along the contracted axis is the last. -/
abbrev fr2_cond2_1 (i : grid2.Coords) : Prop := k2_cond2 i = 1#1
/-- It holds at the points ≡ 3 (mod 4). -/
theorem fr2_hcond2_1 : ∀ t : Fin cfg2.N, fr2_cond2_1 (grid2.coords t) ↔ t.val % 4 = 3 :=
  (by decide +kernel : ∀ t : Fin grid2.N, fr2_cond2_1 (grid2.coords t) ↔ t.val % 4 = 3)

/-- The two input windows are never idle. -/
theorem fr2_liveAt2_0 : ∀ t : Fin cfg2.N, cfg2.idle 0 (grid2.coords t) = false := by decide +kernel
theorem fr2_liveAt2_1 : ∀ t : Fin cfg2.N, cfg2.idle 1 (grid2.coords t) = false := by decide +kernel
/-- The output window is idle, and not written back, at every point but the last step's; -/
theorem fr2_idleAt2_2 : ∀ t : Fin cfg2.N, ¬t.val % 4 = 3 → cfg2.idle 2 (grid2.coords t) = true := by decide +kernel
theorem fr2_noFlush2_2 : ∀ t : Fin cfg2.N, ¬t.val % 4 = 3 → (cfg2.win 2).flush t = false := by decide +kernel
/-- there it is live. -/
theorem fr2_liveAt2_2 : ∀ t : Fin cfg2.N, t.val % 4 = 3 → cfg2.idle 2 (grid2.coords t) = false := by decide +kernel

/-- Each window's current staging memref at point `t`, as the body is called with it, and its wholeness. -/
abbrev fr2_ms2_0 (t : Fin cfg2.N) : Memref sig .tc .vmem S1024x1024 .f32 := win2_0.stage (cfg2.slots t 0)
abbrev fr2_hs2_0 (t : Fin cfg2.N) : (fr2_ms2_0 t).IsWhole := hstage2_0 ((cfg2.slots t 0).cast nbuf2_0)
abbrev fr2_ms2_1 (t : Fin cfg2.N) : Memref sig .tc .vmem S1024x256 .f32 := win2_1.stage (cfg2.slots t 1)
abbrev fr2_hs2_1 (t : Fin cfg2.N) : (fr2_ms2_1 t).IsWhole := hstage2_1 ((cfg2.slots t 1).cast nbuf2_1)
abbrev fr2_ms2_2 (t : Fin cfg2.N) : Memref sig .tc .vmem S1024x256 .f32 := win2_2.stage (cfg2.slots t 2)
abbrev fr2_hs2_2 (t : Fin cfg2.N) : (fr2_ms2_2 t).IsWhole := hstage2_2 ((cfg2.slots t 2).cast nbuf2_2)

/-! ## The body on any whole memrefs, in each of its three cases

The printed body is its skeleton of loads and stores; each conditional is decided by the case's hypotheses. Every
load and store goes through the whole-shape rectangle at zero offsets, through which a load reads the contents and
a store leaves its payload; so each buffer ends at a named value of the payloads. -/
set_option maxHeartbeats 1000000 in
/-- The body at a first step along the contracted axis, not the last: the accumulator, found at anything, is zeroed and
    the product of the two blocks added to it; the output's buffer is untouched. -/
theorem fr2_kernelRun2_A (c : Dev nD) (i : grid2.Coords) (arg2 : Memref sig .tc .vmem S1024x1024 .f32) (harg2 : arg2.IsWhole)
    (arg3 : Memref sig .tc .vmem S1024x256 .f32) (harg3 : arg3.IsWhole) (arg4 : Memref sig .tc .vmem S1024x256 .f32) (harg4 : arg4.IsWhole)
    (arg5 : Memref sig .tc .vmem S1024x256 .f32) (harg5 : arg5.IsWhole) (hc0 : fr2_cond2_0 i) (hc1 : ¬fr2_cond2_1 i)
    (x0 : Vec F S1024x1024 .f32) (x1 : Vec F S1024x256 .f32) (xi : Vec F S1024x256 .f32)
    (E : Set ℕ) (K : PUnit → sProp 𝕄) :
    iprop(owns (c : Thread nD τ) arg2 fullShare x0 ∗ owns (c : Thread nD τ) arg3 fullShare x1 ∗ owns (c : Thread nD τ) arg4 fullShare xi
        ∗ (∃ d, owns (c : Thread nD τ) arg5 fullShare d)
        ∗ (iprop(owns (c : Thread nD τ) arg2 fullShare x0 ∗ owns (c : Thread nD τ) arg3 fullShare x1 ∗ owns (c : Thread nD τ) arg4 fullShare xi
            ∗ owns (c : Thread nD τ) arg5 fullShare (k2_pay2 x0 x1 (k2_pay1 (F := F)))) -∗ K ⟨⟩))
      ⊢ wp frame (wpE (defs₀ (F := F)) Variants.none c none) E (cc2__matmul_kernel i arg2 harg2 arg3 harg3 arg4 harg4 arg5 harg5) K := by
  simp only [cc2__matmul_kernel_eq_skeleton]; unfold cc2__matmul_kernel_skel
  unfold owns
  iintro ⟨⟨%f0, %hf0, H0⟩, ⟨%f1, %hf1, H1⟩, ⟨%f2, %hf2, H2⟩, ⟨%ds, %fs, -, HS⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact hf2
    iexact H2
  iexists _; isplitr
  swap; · iexact HS
  ipureintro
  sl_unfold_words
  rw [View.read_writes_eq_canon _ _ _ (fun y => ⟨_, List.mem_cons.mpr (Or.inl rfl), View.mem_set_unit_zero fr2_hz2 inb_S1024x256_S1024x256_0_0 y⟩),
    View.canon_cons_unit_zero fr2_hz2]
  simp only [View.readAt_eq_ld, harg2.read_unread, harg3.read_unread, View.ld_unit_zero (S := S1024x1024) fr2_hz2,
    View.ld_unit_zero (S := S1024x256) fr2_hz2, View.readCov_unit_zero (S := S1024x256) _ fr2_hz2]

set_option maxHeartbeats 1000000 in
/-- The body at a step along the contracted axis that is neither the first nor the last: the product of the two blocks
    is added to the accumulator; the output's buffer is untouched. -/
theorem fr2_kernelRun2_B (c : Dev nD) (i : grid2.Coords) (arg2 : Memref sig .tc .vmem S1024x1024 .f32) (harg2 : arg2.IsWhole)
    (arg3 : Memref sig .tc .vmem S1024x256 .f32) (harg3 : arg3.IsWhole) (arg4 : Memref sig .tc .vmem S1024x256 .f32) (harg4 : arg4.IsWhole)
    (arg5 : Memref sig .tc .vmem S1024x256 .f32) (harg5 : arg5.IsWhole) (hc0 : ¬fr2_cond2_0 i) (hc1 : ¬fr2_cond2_1 i)
    (x0 : Vec F S1024x1024 .f32) (x1 : Vec F S1024x256 .f32) (xi : Vec F S1024x256 .f32) (xs : Vec F S1024x256 .f32)
    (E : Set ℕ) (K : PUnit → sProp 𝕄) :
    iprop(owns (c : Thread nD τ) arg2 fullShare x0 ∗ owns (c : Thread nD τ) arg3 fullShare x1 ∗ owns (c : Thread nD τ) arg4 fullShare xi
        ∗ owns (c : Thread nD τ) arg5 fullShare xs
        ∗ (iprop(owns (c : Thread nD τ) arg2 fullShare x0 ∗ owns (c : Thread nD τ) arg3 fullShare x1 ∗ owns (c : Thread nD τ) arg4 fullShare xi
            ∗ owns (c : Thread nD τ) arg5 fullShare (k2_pay2 x0 x1 xs)) -∗ K ⟨⟩))
      ⊢ wp frame (wpE (defs₀ (F := F)) Variants.none c none) E (cc2__matmul_kernel i arg2 harg2 arg3 harg3 arg4 harg4 arg5 harg5) K := by
  simp only [cc2__matmul_kernel_eq_skeleton]; unfold cc2__matmul_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact hf2
    iexact H2
  iexists _; isplitr
  swap; · iexact HS
  ipureintro
  rw [View.read_writes_eq_canon _ _ _ (fun y => ⟨_, List.mem_singleton_self _, View.mem_set_unit_zero fr2_hz2 inb_S1024x256_S1024x256_0_0 y⟩), View.canon_unit_zero fr2_hz2]
  simp only [View.readAt_eq_ld, harg2.read_unread, harg3.read_unread, harg5.read_unread, View.ld_unit_zero (S := S1024x1024) fr2_hz2, View.ld_unit_zero (S := S1024x256) fr2_hz2]

set_option maxHeartbeats 1000000 in
/-- The body at the last step along the contracted axis, not the first: the product of the two blocks is added to the
    accumulator, and the accumulator copied whole to the output's buffer, found at anything. -/
theorem fr2_kernelRun2_C (c : Dev nD) (i : grid2.Coords) (arg2 : Memref sig .tc .vmem S1024x1024 .f32) (harg2 : arg2.IsWhole)
    (arg3 : Memref sig .tc .vmem S1024x256 .f32) (harg3 : arg3.IsWhole) (arg4 : Memref sig .tc .vmem S1024x256 .f32) (harg4 : arg4.IsWhole)
    (arg5 : Memref sig .tc .vmem S1024x256 .f32) (harg5 : arg5.IsWhole) (hc0 : ¬fr2_cond2_0 i) (hc1 : fr2_cond2_1 i)
    (x0 : Vec F S1024x1024 .f32) (x1 : Vec F S1024x256 .f32) (xs : Vec F S1024x256 .f32)
    (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xs
        ∗ (iprop(owns (c : Thread nD τ) arg2 fullShare x0 ∗ owns (c : Thread nD τ) arg3 fullShare x1 ∗ owns (c : Thread nD τ) arg4 fullShare (k2_pay2 x0 x1 xs)
            ∗ owns (c : Thread nD τ) arg5 fullShare (k2_pay2 x0 x1 xs)) -∗ K ⟨⟩))
      ⊢ wp frame (wpE (defs₀ (F := F)) Variants.none c none) E (cc2__matmul_kernel i arg2 harg2 arg3 harg3 arg4 harg4 arg5 harg5) K := by
  simp only [cc2__matmul_kernel_eq_skeleton]; unfold cc2__matmul_kernel_skel
  unfold owns
  iintro ⟨⟨%f0, %hf0, H0⟩, ⟨%f1, %hf1, H1⟩, ⟨%d2, %f2, -, H2⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_words
    rw [View.read_writes_eq_canon _ _ _ (fun y => ⟨_, List.mem_singleton_self _, View.mem_set_unit_zero fr2_hz2 inb_S1024x256_S1024x256_0_0 y⟩),
      View.canon_unit_zero fr2_hz2]
    simp only [View.readAt_eq_ld, harg2.read_unread, harg3.read_unread, harg5.read_unread, View.ld_unit_zero (S := S1024x1024) fr2_hz2,
    View.ld_unit_zero (S := S1024x256) fr2_hz2, View.readCov_unit_zero (S := S1024x256) _ fr2_hz2]
  iexists _; isplitr
  swap; · iexact HS
  ipureintro
  sl_unfold_words
  rw [View.read_writes_eq_canon _ _ _ (fun y => ⟨_, List.mem_singleton_self _, View.mem_set_unit_zero fr2_hz2 inb_S1024x256_S1024x256_0_0 y⟩),
    View.canon_unit_zero fr2_hz2]
  simp only [View.readAt_eq_ld, harg2.read_unread, harg3.read_unread, harg5.read_unread, View.ld_unit_zero (S := S1024x1024) fr2_hz2,
    View.ld_unit_zero (S := S1024x256) fr2_hz2, View.readCov_unit_zero (S := S1024x256) _ fr2_hz2]

section
variable (V : (c : Dev nD) → (b : Ref sig .tc) → Buf (Elt F) ((c : Thread nD τ).loc b))

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The accumulator after the body at position `n`: at a first step along the contracted axis the product of the
    point's blocks added to zero, otherwise added to what the point before left. -/
def acc2 (c : Dev nD) : (n : ℕ) → n < cfg2.N → Vec F S1024x256 .f32
  | 0, hn => k2_pay2 (iblk2 V c 0 ⟨0, hn⟩) (iblk2 V c 1 ⟨0, hn⟩) (k2_pay1 (F := F))
  | n + 1, hn =>
    if (n + 1) % 4 = 0 then k2_pay2 (iblk2 V c 0 ⟨n + 1, hn⟩) (iblk2 V c 1 ⟨n + 1, hn⟩) (k2_pay1 (F := F))
    else k2_pay2 (iblk2 V c 0 ⟨n + 1, hn⟩) (iblk2 V c 1 ⟨n + 1, hn⟩) (acc2 c n (Nat.lt_of_succ_lt hn))

theorem acc2_first (c : Dev nD) (t : Fin cfg2.N) (h : t.val % 4 = 0) :
    acc2 V c t.val t.isLt = k2_pay2 (iblk2 V c 0 t) (iblk2 V c 1 t) (k2_pay1 (F := F)) := by
  obtain ⟨n, hn⟩ := t
  cases n with
  | zero => rfl
  | succ n => exact if_pos h

theorem acc2_next (c : Dev nD) (t : Fin cfg2.N) (h : ¬ t.val % 4 = 0) :
    acc2 V c t.val t.isLt = k2_pay2 (iblk2 V c 0 t) (iblk2 V c 1 t)
      (acc2 V c (t.val - 1) (Nat.lt_of_le_of_lt (Nat.sub_le _ _) t.isLt)) := by
  obtain ⟨n, hn⟩ := t
  cases n with
  | zero => exact absurd (Nat.zero_mod _) h
  | succ n => exact if_neg h

/-- The scratch accumulator, whole. -/
abbrev scM2 : Memref sig .tc .vmem S1024x256 .f32 := Memref.whole cc2_scratch0

/-- The core's scoped buffers other than region 2's staging buffers and its accumulator, each at some contents. -/
def restS2 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_scratch0), ((c : Thread nD τ).loc cc0_scratch0) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg4_1), ((c : Thread nD τ).loc cc1_stg4_1) ↦{fullShare} f)
    ∗ (∃ f : Buf (Elt F) ((c : Thread nD τ).loc cc3_stg0_0), ((c : Thread nD τ).loc cc3_stg0_0) ↦{fullShare} f)
    ∗ (∃ f : Buf (Elt F) ((c : Thread nD τ).loc cc3_stg0_1), ((c : Thread nD τ).loc cc3_stg0_1) ↦{fullShare} f)
    ∗ (∃ f : Buf (Elt F) ((c : Thread nD τ).loc cc3_stg1_0), ((c : Thread nD τ).loc cc3_stg1_0) ↦{fullShare} f)
    ∗ (∃ f : Buf (Elt F) ((c : Thread nD τ).loc cc3_stg1_1), ((c : Thread nD τ).loc cc3_stg1_1) ↦{fullShare} f)
    ∗ (∃ f : Buf (Elt F) ((c : Thread nD τ).loc cc3_stg2_0), ((c : Thread nD τ).loc cc3_stg2_0) ↦{fullShare} f)
    ∗ (∃ f : Buf (Elt F) ((c : Thread nD τ).loc cc3_stg3_0), ((c : Thread nD τ).loc cc3_stg3_0) ↦{fullShare} f)
    ∗ (∃ f : Buf (Elt F) ((c : Thread nD τ).loc cc3_stg4_0), ((c : Thread nD τ).loc cc3_stg4_0) ↦{fullShare} f)
    ∗ (∃ f : Buf (Elt F) ((c : Thread nD τ).loc cc3_stg4_1), ((c : Thread nD τ).loc cc3_stg4_1) ↦{fullShare} f))

/-- The class invariant with the accumulator split off. -/
theorem PhiA2_eq (c : Dev nD) :
    (Pipeline.ΦA spec2 c : sProp 𝕄)
      ⊣⊢ iprop((∃ d, owns (c : Thread nD τ) (scM2) fullShare d) ∗ restS2 (F := F) c ∗ (∃ r, prngReg c r)) := by
  unfold Pipeline.ΦA; rw [scopedRest2_eq]; unfold restS2; simp only [scM2, owns_whole]
  constructor
  · -- the accumulator's conjunct is taken out of the chain
    iintro ⟨⟨H0, H1, H2, H3, H4, H5, H6, H7, H8, H9, H10, H11, H12, H13, H14, H15, H16, H17, H18, H19, H20, H21, H22, H23⟩, Hg⟩
    isplitl [H15]; · iexact H15
    isplitr [Hg]; swap; · iexact Hg
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H16]; · iexact H16
    isplitl [H17]; · iexact H17
    isplitl [H18]; · iexact H18
    isplitl [H19]; · iexact H19
    isplitl [H20]; · iexact H20
    isplitl [H21]; · iexact H21
    isplitl [H22]; · iexact H22
    iexact H23
  · -- and put back in its place
    iintro ⟨H15, ⟨H0, H1, H2, H3, H4, H5, H6, H7, H8, H9, H10, H11, H12, H13, H14, H16, H17, H18, H19, H20, H21, H22, H23⟩, Hg⟩
    isplitr [Hg]; swap; · iexact Hg
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    iexact H23

/-- The region's invariant before position `n`: before the first point every scoped buffer at some contents; afterwards
    the accumulator at what the point before left. -/
def PhiS2 (c : Dev nD) : (n : ℕ) → n ≤ cfg2.N → sProp 𝕄
  | 0, _ => Pipeline.ΦA spec2 c
  | n + 1, hn => iprop(owns (c : Thread nD τ) (scM2) fullShare (acc2 V c n hn) ∗ restS2 (F := F) c ∗ (∃ r, prngReg c r))

theorem fr2_PhiS2_zero (c : Dev nD) (n : ℕ) (h : n ≤ cfg2.N) (hz : n = 0) : PhiS2 V c n h = Pipeline.ΦA spec2 c := by
  subst hz; rfl

/-- After point `n`: the accumulator at that point's contents. -/
theorem fr2_PhiS2_succ (c : Dev nD) (n : ℕ) (hn : n < cfg2.N) :
    PhiS2 V c (n + 1) hn = iprop(owns (c : Thread nD τ) (scM2) fullShare (acc2 V c n hn) ∗ restS2 (F := F) c ∗ (∃ r, prngReg c r)) := rfl

/-- Before a point that is not the first: the accumulator at what the point before left. -/
theorem fr2_PhiS2_pos (c : Dev nD) (n : ℕ) (h : n ≤ cfg2.N) (hz : n ≠ 0) :
    PhiS2 V c n h = iprop(owns (c : Thread nD τ) (scM2) fullShare (acc2 V c (n - 1) (by omega)) ∗ restS2 (F := F) c ∗ (∃ r, prngReg c r)) := by
  cases n with
  | zero => exact absurd rfl hz
  | succ n => rfl

/-- The proof data of pipeline 2 on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => acc2 V c t.val t.isLt
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = acc2 V c t.val t.isLt := by dsimp only [dat2]

/-- The invariant at a point's start, restated at `t.val`. -/
theorem fr2_PhiS2_castSucc (c : Dev nD) (t : Fin cfg2.N) :
    (dat2 V c).Φ t.castSucc = PhiS2 V c t.val (Nat.le_of_lt t.isLt) := by
  dsimp only [dat2]; simp only [Fin.coe_castSucc]

/-- Each input's current staging buffer holds its block at every point, fetched there or not: unfetched, the
    window's index has not moved. -/
theorem fr2_before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0 V c]; unfold Dat.blockOf iblk2; rw [A_eq2 V c]; try rfl) t d).trans
    (by unfold Dat.fetched Dat.blockOf iblk2; rw [A_eq2 V c]; try rfl)
theorem fr2_before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1 V c]; unfold Dat.blockOf iblk2; rw [A_eq2 V c]; try rfl) t d).trans
    (by unfold Dat.fetched Dat.blockOf iblk2; rw [A_eq2 V c]; try rfl)

/-- What the body is called with at point `t`, the windows one by one, -/
def fr2_bodyPre2 (c : Dev nD) (t : Fin cfg2.N) : sProp 𝕄 :=
  iprop((dat2 V c).Φ t.castSucc ∗ (dat2 V c).owesAt () t.castSucc
    ∗ (∃ d, owns (c : Thread nD τ) (fr2_ms2_0 t) fullShare ((dat2 V c).before 0 t d))
    ∗ (∃ d, owns (c : Thread nD τ) (fr2_ms2_1 t) fullShare ((dat2 V c).before 1 t d))
    ∗ (∃ d, owns (c : Thread nD τ) (fr2_ms2_2 t) fullShare ((dat2 V c).before 2 t d)))

/-- and what it returns. -/
def fr2_bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point. The inputs' buffers hold their blocks; the point's position along the contracted axis says
    which of the three runs applies; the invariant hands the body the accumulator (at anything before the first point,
    at what the point before left afterwards) and takes it back at this point's sum; the output's buffer is handed
    back untouched where the window is idle, and at the accumulator's contents at the last step. -/
theorem fr2_sound_body2 (c : Dev nD) (t : Fin cfg2.N) :
    fr2_bodyPre2 V c t ⊢ wp frame (wpE (defs₀ (F := F)) Variants.none c none) Set.univ (bodyAt2 t) (fun _ => fr2_bodyPost2 V c t) := by
  unfold fr2_bodyPre2 fr2_bodyPost2 bodyAt2
  simp only [fr2_before2_0, fr2_before2_1]
  rw [show (dat2 V c).owesAt () t.succ = (dat2 V c).owesAt () t.castSucc from rfl]
  rw [show (dat2 V c).Φ t.succ = PhiS2 V c (t.val + 1) t.isLt from rfl, fr2_PhiS2_succ]
  have hN : t.val < 4 := lt_of_lt_of_eq t.isLt (show cfg2.N = 4 from N_2)
  rw [show (dat2 V c).leavesExact 0 t = owns (c : Thread nD τ) (fr2_ms2_0 t) fullShare ((dat2 V c).after 0 t) from by
    unfold Dat.leavesExact; rw [fr2_liveAt2_0 t], after2_0]
  rw [show (dat2 V c).leavesExact 1 t = owns (c : Thread nD τ) (fr2_ms2_1 t) fullShare ((dat2 V c).after 1 t) from by
    unfold Dat.leavesExact; rw [fr2_liveAt2_1 t], after2_1]
  by_cases h3 : t.val % 4 = 3
  · -- the last step: the output window is live, and gets the accumulator
    have h0 : ¬t.val % 4 = 0 := by omega
    have hz : t.val ≠ 0 := by omega
    rw [show (dat2 V c).leavesExact 2 t = owns (c : Thread nD τ) (fr2_ms2_2 t) fullShare ((dat2 V c).after 2 t) from by
      unfold Dat.leavesExact; rw [fr2_liveAt2_2 t h3], after2_2]
    rw [acc2_next V c t h0]
    rw [fr2_PhiS2_castSucc V c t, fr2_PhiS2_pos V c _ _ hz]
    iintro ⟨⟨HS, Hr, Hg⟩, Ho, ⟨%d0, H0⟩, ⟨%d1, H1⟩, ⟨%d2, H2⟩⟩
    iapply (fr2_kernelRun2_C c (grid2.coords t) _ _ _ _ _ _ _ _ (fun h => h0 ((fr2_hcond2_0 t).mp h)) ((fr2_hcond2_1 t).mpr h3)
      (iblk2 V c 0 t) (iblk2 V c 1 t) _ Set.univ _)
    isplitl [H0]; · iexact H0
    isplitl [H1]; · iexact H1
    isplitl [H2]; · iexists _; iexact H2
    isplitl [HS]; · iexact HS
    iintro ⟨H0, H1, H2, HS⟩
    isplitl [HS Hr Hg]
    · isplitl [HS]; · iexact HS
      isplitl [Hr]; · iexact Hr
      iexact Hg
    isplitl [Ho]; · iexact Ho
    isplitl [H0]; · iexact H0
    isplitl [H1]; · iexact H1
    iexact H2
  · -- any other step: the output window is idle and its buffer handed back as it was found
    rw [Dat.leavesExact_idle (dat2 V c) 2 t (fr2_idleAt2_2 t h3) (fr2_noFlush2_2 t h3)]
    by_cases h0 : t.val % 4 = 0
    · -- the first step: the accumulator, at anything, is reset
      have hz : t.val = 0 := by omega
      rw [acc2_first V c t h0]
      rw [fr2_PhiS2_castSucc V c t, fr2_PhiS2_zero V c _ _ hz]
      iintro ⟨HΦ, Ho, ⟨%d0, H0⟩, ⟨%d1, H1⟩, ⟨%d2, H2⟩⟩
      ihave ⟨HS, Hr, Hg⟩ := (PhiA2_eq (F := F) c).1 $$ HΦ
      iapply (fr2_kernelRun2_A c (grid2.coords t) _ _ _ _ _ _ _ _ ((fr2_hcond2_0 t).mpr h0) (fun h => h3 ((fr2_hcond2_1 t).mp h))
        (iblk2 V c 0 t) (iblk2 V c 1 t) _ Set.univ _)
      isplitl [H0]; · iexact H0
      isplitl [H1]; · iexact H1
      isplitl [H2]; · iexact H2
      isplitl [HS]; · iexact HS
      iintro ⟨H0, H1, H2, HS⟩
      isplitl [HS Hr Hg]
      · isplitl [HS]; · iexact HS
        isplitl [Hr]; · iexact Hr
        iexact Hg
      isplitl [Ho]; · iexact Ho
      isplitl [H0]; · iexact H0
      isplitl [H1]; · iexact H1
      iexists _; iexact H2
    · -- a middle step: the accumulator is what the point before left
      have hz : t.val ≠ 0 := by omega
      rw [acc2_next V c t h0]
      rw [fr2_PhiS2_castSucc V c t, fr2_PhiS2_pos V c _ _ hz]
      iintro ⟨⟨HS, Hr, Hg⟩, Ho, ⟨%d0, H0⟩, ⟨%d1, H1⟩, ⟨%d2, H2⟩⟩
      iapply (fr2_kernelRun2_B c (grid2.coords t) _ _ _ _ _ _ _ _ (fun h => h0 ((fr2_hcond2_0 t).mp h)) (fun h => h3 ((fr2_hcond2_1 t).mp h))
        (iblk2 V c 0 t) (iblk2 V c 1 t) _ _ Set.univ _)
      isplitl [H0]; · iexact H0
      isplitl [H1]; · iexact H1
      isplitl [H2]; · iexact H2
      isplitl [HS]; · iexact HS
      iintro ⟨H0, H1, H2, HS⟩
      isplitl [HS Hr Hg]
      · isplitl [HS]; · iexact HS
        isplitl [Hr]; · iexact Hr
        iexact Hg
      isplitl [Ho]; · iexact Ho
      isplitl [H0]; · iexact H0
      isplitl [H1]; · iexact H1
      iexists _; iexact H2

/-- The library's body obligation, at every point. -/
theorem body_obligation2 (c : Dev nD) : BodyObligation (dat2 (F := F) V c) (defs₀ (F := F)) Variants.none () Set.univ := fun t => by
  rw [bigSep_W2, bigSep_W2]
  exact fr2_sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, fr2_PhiS2_zero V c 0 _ rfl]

/-- After the last point the invariant gives the class invariant back: the accumulator's contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    fr2_PhiS2_pos V c _ _ (by rw [Fin.val_last]; have : cfg2.N = 4 := N_2; omega)]
  iintro ⟨HS, Hr, Hg⟩
  iapply (PhiA2_eq (F := F) c).2
  isplitl [HS]
  · iexists _; iexact HS
  isplitl [Hr]; · iexact Hr
  iexact Hg

end

end Cert.Kernel.Hand

end
-- ==== Proof.BitsRegion3.lean ====
/-
  Region 3 of @main: the dense transform of one row block. The body multiplies the block of node features by one
  weight matrix, the block of aggregated features by another, adds the two products and clamps the sum below at zero.
-/
import proofs.«161480_j6485400617280_1_alg».proof.Proof.Gen.Kernel.Launch
import proofs.«161480_j6485400617280_1_alg».proof.Proof.Gen.Kernel.Skeleton
import proofs.«161480_j6485400617280_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: every one goes through the whole-shape rectangle -/

/-- The offsets of every access of the body are zero. -/
theorem fr3_hz : (![0, 0] : Fin 2 → ℕ) = fun _ => 0 := by
  funext a; fin_cases a <;> rfl

/-- The output buffer's one store covers it: every index is in the whole-shape rectangle. -/
theorem fr3_cover (inb : ∀ a, (![0, 0] : Fin 2 → ℕ) a + S512x256.size a ≤ S512x256.size a) (w : Vec F S512x256 .f32) (y : S512x256.Idx) :
    ∃ pc ∈ ([⟨Rect.unit (s := S512x256) ![0, 0] S512x256.size inb, w⟩] : List (View.Piece (Elt F) S512x256 .f32)), y ∈ pc.1.set :=
  ⟨⟨Rect.unit (s := S512x256) ![0, 0] S512x256.size inb, w⟩, List.mem_singleton_self _, View.mem_set_unit_zero (S := S512x256) fr3_hz inb y⟩

/-- So ONE store through it leaves its payload, whatever the buffer held. -/
theorem fr3_read_store {κ : Kind} {sp : Space} (v : View sig κ sp S512x256 .f32) (f : v.ty.Contents (Elt F))
    (inb : ∀ a, (![0, 0] : Fin 2 → ℕ) a + S512x256.size a ≤ S512x256.size a) (w : Vec F S512x256 .f32) :
    v.read (Elt F) (v.writes (Elt F) f [⟨Rect.unit (s := S512x256) ![0, 0] S512x256.size inb, w⟩]) = w :=
  (View.read_writes_eq_canon v f _ (fr3_cover inb w)).trans (View.canon_unit_zero (S := S512x256) fr3_hz inb w)

/-- A load through the whole-shape rectangle reads the contents: the row blocks' shape, -/
theorem fr3_readAt_rows {κ : Kind} {sp : Space} (v : View sig κ sp S512x256 .f32) (f : v.ty.Contents (Elt F))
    (inb : ∀ a, (![0, 0] : Fin 2 → ℕ) a + S512x256.size a ≤ S512x256.size a) :
    v.readAt (Elt F) (Rect.unit (s := S512x256) ![0, 0] S512x256.size inb).toLoadRect f = v.read (Elt F) f :=
  (View.readAt_eq_ld v f _).trans (View.ld_unit_zero (S := S512x256) fr3_hz inb _)

/-- and the weight matrices'. -/
theorem fr3_readAt_weights {κ : Kind} {sp : Space} (v : View sig κ sp S256x256 .f32) (f : v.ty.Contents (Elt F))
    (inb : ∀ a, (![0, 0] : Fin 2 → ℕ) a + S256x256.size a ≤ S256x256.size a) :
    v.readAt (Elt F) (Rect.unit (s := S256x256) ![0, 0] S256x256.size inb).toLoadRect f = v.read (Elt F) f :=
  (View.readAt_eq_ld v f _).trans (View.ld_unit_zero (S := S256x256) fr3_hz inb _)

section
variable (V : (c : Dev nD) → (b : Ref sig .tc) → Buf (Elt F) ((c : Thread nD τ).loc b))

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The proof data of pipeline 3 on core `c`: each input's buffer keeps its block, the output's holds the body's
    value of the four input blocks. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => k3_pay1 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t
    = k3_pay1 (iblk3 V c 0 t) (iblk3 V c 1 t) (iblk3 V c 2 t) (iblk3 V c 3 t) := by dsimp only [dat3]

/-- Input window 0's current staging buffer holds its block at every point, fetched there or not, for any proof data whose
    array is `V`'s and whose body leaves the block in place: unfetched, the block index has not moved. -/
theorem fr3_before_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof data whose
    array is `V`'s and whose body leaves the block in place: unfetched, the block index has not moved. -/
theorem fr3_before_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof data whose
    array is `V`'s and whose body leaves the block in place: unfetched, the block index has not moved. -/
theorem fr3_before_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for any proof data whose
    array is `V`'s and whose body leaves the block in place: unfetched, the block index has not moved. -/
theorem fr3_before_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's triple -/

set_option maxHeartbeats 1000000 in
/-- The kernel body on whole staging memrefs, the four inputs' at read contents `x0 … x3` and the output's at anything,
    runs to the continuation holding the inputs' as they were and the output's at the payload of the four inputs: the
    four loads read the contents, the load of the output buffer reads a value nothing uses, and the one store, through
    the whole-shape rectangle, leaves its payload whatever the buffer held. -/
theorem fr3_sound_kernel (c : Dev nD) (E : Set ℕ) (i : grid3.Coords)
    (arg1 : Memref sig .tc .vmem S512x256 .f32) (harg1 : arg1.IsWhole) (arg2 : Memref sig .tc .vmem S512x256 .f32) (harg2 : arg2.IsWhole)
    (arg3 : Memref sig .tc .vmem S256x256 .f32) (harg3 : arg3.IsWhole) (arg4 : Memref sig .tc .vmem S256x256 .f32) (harg4 : arg4.IsWhole)
    (arg5 : Memref sig .tc .vmem S512x256 .f32) (harg5 : arg5.IsWhole)
    (x0 : Vec F S512x256 .f32) (x1 : Vec F S512x256 .f32) (x2 : Vec F S256x256 .f32) (x3 : Vec F S256x256 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (k3_pay1 x0 x1 x2 x3)) -∗ K ⟨⟩))
      ⊢ wp frame (wpE (defs₀ (F := F)) Variants.none c none) E (cc3__sage_kernel i arg1 harg1 arg2 harg2 arg3 harg3 arg4 harg4 arg5 harg5) K := by
  simp only [cc3__sage_kernel_eq_skeleton]; unfold cc3__sage_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  -- the one store leaves its payload, and each load through the whole-shape rectangle reads the contents
  rw [fr3_read_store, fr3_readAt_rows, fr3_readAt_rows, fr3_readAt_weights, fr3_readAt_weights]

/-! ## The proof data's contents before the body -/

/-- Each input's current staging buffer holds its block at every point, fetched there or not. -/
theorem fr3_before_0 (c : Dev nD) (t : Fin cfg3.N) (d) : (dat3 V c).before 0 t d = iblk3 V c 0 t :=
  fr3_before_0_of V (dat3 V c) (A_eq3 V c 0) (after3_0 V c) t d
theorem fr3_before_1 (c : Dev nD) (t : Fin cfg3.N) (d) : (dat3 V c).before 1 t d = iblk3 V c 1 t :=
  fr3_before_1_of V (dat3 V c) (A_eq3 V c 1) (after3_1 V c) t d
theorem fr3_before_2 (c : Dev nD) (t : Fin cfg3.N) (d) : (dat3 V c).before 2 t d = iblk3 V c 2 t :=
  fr3_before_2_of V (dat3 V c) (A_eq3 V c 2) (after3_2 V c) t d
theorem fr3_before_3 (c : Dev nD) (t : Fin cfg3.N) (d) : (dat3 V c).before 3 t d = iblk3 V c 3 t :=
  fr3_before_3_of V (dat3 V c) (A_eq3 V c 3) (after3_3 V c) t d

/-! ## The body obligation, at a generic point -/

/-- What the body is called with at point `t`: the invariant, the core's `owes`, and the five windows' current staging
    buffers one by one, -/
def fr3_bodyPre (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def fr3_bodyPost (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the inputs' memrefs hold their blocks, so the body's triple applies; the invariant and the
    core's `owes` pass through unread. -/
theorem fr3_sound_body (c : Dev nD) (t : Fin cfg3.N) :
    fr3_bodyPre V c t ⊢ wp frame (wpE (defs₀ (F := F)) Variants.none c none) Set.univ (bodyAt3 t) (fun _ => fr3_bodyPost V c t) := by
  unfold fr3_bodyPre fr3_bodyPost bodyAt3
  simp only [fr3_before_0, fr3_before_1, fr3_before_2, fr3_before_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (fr3_sound_kernel c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation3 (c : Dev nD) : BodyObligation (dat3 (F := F) V c) (defs₀ (F := F)) Variants.none () Set.univ := fun t => by
  rw [bigSep_W3, bigSep_W3]
  exact fr3_sound_body V c t

end

end Cert.Kernel.Hand

end
-- ==== Proof.BitsRun.lean ====
/-
  The run of @main: four kernel regions among two stretches of host operations. The contents of every unscoped buffer
  at each boundary between two items are named by a fold from the launch memory: a host stretch applies its operations,
  a region leaves its arrays at what its write-backs leave and every other buffer as it was.
-/
import proofs.«161480_j6485400617280_1_alg».proof.Proof.BitsRegion0
import proofs.«161480_j6485400617280_1_alg».proof.Proof.BitsRegion1
import proofs.«161480_j6485400617280_1_alg».proof.Proof.BitsRegion2
import proofs.«161480_j6485400617280_1_alg».proof.Proof.BitsRegion3
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (region 0's entry: no host operation comes before it). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- At region 0's exit. -/
def W1 (c : Dev nD) : Valuation τ sig (Elt F) :=
  Pipeline.withArrays spec0 c (W0 m ρ c) fun w => (dat0 (V0 m ρ) c).arrAt w cfg0.N
abbrev V1 : (c : Dev nD) → (b : Ref sig .tc) → Buf (Elt F) ((c : Thread nD τ).loc b) := fun c b => W1 m ρ c b
/-- After the first host stretch (region 1's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- At region 1's exit (region 2's entry). -/
def W3 (c : Dev nD) : Valuation τ sig (Elt F) :=
  Pipeline.withArrays spec1 c (W2 m ρ c) fun w => (dat1 (V2 m ρ) c).arrAt w cfg1.N
abbrev V3 : (c : Dev nD) → (b : Ref sig .tc) → Buf (Elt F) ((c : Thread nD τ).loc b) := fun c b => W3 m ρ c b
/-- At region 2's exit. -/
def W4 (c : Dev nD) : Valuation τ sig (Elt F) :=
  Pipeline.withArrays spec2 c (W3 m ρ c) fun w => (dat2 (V3 m ρ) c).arrAt w cfg2.N
abbrev V4 : (c : Dev nD) → (b : Ref sig .tc) → Buf (Elt F) ((c : Thread nD τ).loc b) := fun c b => W4 m ρ c b
/-- After the second host stretch (region 3's entry). -/
abbrev W5 : Dev nD → Valuation τ sig (Elt F) := fun c => StableHlo.after hostOps3 (W4 m ρ c)
abbrev V5 : (c : Dev nD) → (b : Ref sig .tc) → Buf (Elt F) ((c : Thread nD τ).loc b) := fun c b => W5 m ρ c b
/-- At region 3's exit: the end of @main. -/
def W6 (c : Dev nD) : Valuation τ sig (Elt F) :=
  Pipeline.withArrays spec3 c (W5 m ρ c) fun w => (dat3 (V5 m ρ) c).arrAt w cfg3.N

theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
theorem W6_arr (c : Dev nD) (w : Fin cfg3.W) :
    W6 m ρ c (Proc.devRef .tc (Pipeline.arrRef spec3 w)) = (dat3 (V5 m ρ) c).arrAt w cfg3.N := by
  unfold W6; exact Pipeline.withArrays_arr spec3 launch3.win.arr_inj c _ _ w
theorem W6_of_ne (c : Dev nD) (b : Ref sig .tc) (hb : ∀ w, Pipeline.arrRef spec3 w ≠ b) :
    W6 m ρ c (Proc.devRef .tc b) = W5 m ρ c (Proc.devRef .tc b) := by
  unfold W6; exact Pipeline.withArrays_of_ne spec3 c _ _ b hb

/-! ## The proof data family -/

/-- The prefetched tables' admissible contents: no pipeline has a table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
  | ⟨2, _⟩ => fun c => dat2 (V3 m ρ) c
  | ⟨3, _⟩ => fun c => dat3 (V5 m ρ) c

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## What the host stretches write -/

/-- The references the first host stretch writes. -/
abbrev run_W1list : List (Ref sig .tc) := [main_c, main_v1, main_v2, main_c_0, main_v3, main_v4, main_v5, main_v6, main_v7, main_v8, main_v9, main_v10, main_v11]
/-- The references the second host stretch writes. -/
abbrev run_W3list : List (Ref sig .tc) := [main_c_1, main_v14, main_v15, main_c_2, main_v16, main_v17, main_v18, main_v19, main_v20, main_v21, main_v22, main_v23, main_v24]

/-- Every operation of the first host stretch writes a reference of the list. -/
theorem run_writes1 : (hostOps1 : List (HloOp τ sig (Elt F))).Forall fun op => op.writes ⊆ (run_W1list.map (Proc.devRef (τ := τ) .tc)).toFinset := by
  simp only [List.Forall, StableHlo.nullary_writes, StableHlo.unary_writes, StableHlo.binary_writes, StableHlo.ternary_writes,
    Finset.singleton_subset_iff, List.mem_toFinset]
  repeat' apply And.intro
  all_goals exact List.mem_map_of_mem (by decide)
/-- Every operation of the second host stretch writes a reference of the list. -/
theorem run_writes3 : (hostOps3 : List (HloOp τ sig (Elt F))).Forall fun op => op.writes ⊆ (run_W3list.map (Proc.devRef (τ := τ) .tc)).toFinset := by
  simp only [List.Forall, StableHlo.nullary_writes, StableHlo.unary_writes, StableHlo.binary_writes, StableHlo.ternary_writes,
    Finset.singleton_subset_iff, List.mem_toFinset]
  repeat' apply And.intro
  all_goals exact List.mem_map_of_mem (by decide)

/-- A reference the first host stretch does not write keeps its contents through it. -/
theorem run_keeps1 (V : Valuation τ sig (Elt F)) (r : Ref sig .tc) (h : r ∉ run_W1list) :
    StableHlo.after hostOps1 V (Proc.devRef .tc r) = V (Proc.devRef .tc r) :=
  StableHlo.after_of_writes_sub hostOps1 V run_writes1 h
/-- A reference the second host stretch does not write keeps its contents through it. -/
theorem run_keeps3 (V : Valuation τ sig (Elt F)) (r : Ref sig .tc) (h : r ∉ run_W3list) :
    StableHlo.after hostOps3 V (Proc.devRef .tc r) = V (Proc.devRef .tc r) :=
  StableHlo.after_of_writes_sub hostOps3 V run_writes3 h

/-- No operation of either host stretch allocates a buffer. -/
theorem run_fresh1 : (hostOps1 : List (HloOp τ sig (Elt F))).Forall fun op => op.fresh = ∅ := by
  simp only [List.Forall]; repeat' constructor
theorem run_fresh3 : (hostOps3 : List (HloOp τ sig (Elt F))).Forall fun op => op.fresh = ∅ := by
  simp only [List.Forall]; repeat' constructor

/-! ## The arguments end as launched

No host operation writes an argument and no region has one as an output window: a region reads it through an input
window, whose array the write-backs leave as entered, or does not touch it. So the fold at an argument's buffer
walks back to the launch memory. -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := run_keeps3 _ main_arg0 (by decide)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := run_keeps1 _ main_arg0 (by decide)
    _ = W0 m ρ c (Proc.devRef .tc main_arg0) := (W1_arr m ρ c 1).trans (((dat0 (V0 m ρ) c).arrAt_in 1 rfl _).trans (A_eq0 (V0 m ρ) c 1))
    _ = m ((c : Thread nD τ).loc main_arg0) := rfl
theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := run_keeps3 _ main_arg1 (by decide)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := run_keeps1 _ main_arg1 (by decide)
    _ = W0 m ρ c (Proc.devRef .tc main_arg1) := (W1_arr m ρ c 0).trans (((dat0 (V0 m ρ) c).arrAt_in 0 rfl _).trans (A_eq0 (V0 m ρ) c 0))
    _ = m ((c : Thread nD τ).loc main_arg1) := rfl
theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := run_keeps3 _ main_arg2 (by decide)
    _ = W3 m ρ c (Proc.devRef .tc main_arg2) := (W4_arr m ρ c 0).trans (((dat2 (V3 m ρ) c).arrAt_in 0 rfl _).trans (A_eq2 (V3 m ρ) c 0))
    _ = W2 m ρ c (Proc.devRef .tc main_arg2) := W3_of_ne m ρ c main_arg2 (by decide)
    _ = W1 m ρ c (Proc.devRef .tc main_arg2) := run_keeps1 _ main_arg2 (by decide)
    _ = W0 m ρ c (Proc.devRef .tc main_arg2) := W1_of_ne m ρ c main_arg2 (by decide)
    _ = m ((c : Thread nD τ).loc main_arg2) := rfl
theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := run_keeps3 _ main_arg3 (by decide)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := run_keeps1 _ main_arg3 (by decide)
    _ = W0 m ρ c (Proc.devRef .tc main_arg3) := W1_of_ne m ρ c main_arg3 (by decide)
    _ = m ((c : Thread nD τ).loc main_arg3) := rfl
theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := run_keeps3 _ main_arg4 (by decide)
    _ = W3 m ρ c (Proc.devRef .tc main_arg4) := W4_of_ne m ρ c main_arg4 (by decide)
    _ = W2 m ρ c (Proc.devRef .tc main_arg4) := W3_of_ne m ρ c main_arg4 (by decide)
    _ = W1 m ρ c (Proc.devRef .tc main_arg4) := run_keeps1 _ main_arg4 (by decide)
    _ = W0 m ρ c (Proc.devRef .tc main_arg4) := W1_of_ne m ρ c main_arg4 (by decide)
    _ = m ((c : Thread nD τ).loc main_arg4) := rfl
theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := run_keeps3 _ main_arg5 (by decide)
    _ = W3 m ρ c (Proc.devRef .tc main_arg5) := W4_of_ne m ρ c main_arg5 (by decide)
    _ = W2 m ρ c (Proc.devRef .tc main_arg5) := W3_of_ne m ρ c main_arg5 (by decide)
    _ = W1 m ρ c (Proc.devRef .tc main_arg5) := run_keeps1 _ main_arg5 (by decide)
    _ = W0 m ρ c (Proc.devRef .tc main_arg5) := W1_of_ne m ρ c main_arg5 (by decide)
    _ = m ((c : Thread nD τ).loc main_arg5) := rfl
theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := run_keeps3 _ main_arg6 (by decide)
    _ = W3 m ρ c (Proc.devRef .tc main_arg6) := W4_of_ne m ρ c main_arg6 (by decide)
    _ = W2 m ρ c (Proc.devRef .tc main_arg6) := W3_of_ne m ρ c main_arg6 (by decide)
    _ = W1 m ρ c (Proc.devRef .tc main_arg6) := run_keeps1 _ main_arg6 (by decide)
    _ = W0 m ρ c (Proc.devRef .tc main_arg6) := W1_of_ne m ρ c main_arg6 (by decide)
    _ = m ((c : Thread nD τ).loc main_arg6) := rfl

/-! ## The thread state -/

/-- The contents at the end, read at the TensorCore's references. -/
abbrev runV6 : (c : Dev nD) → (b : Ref sig .tc) → Buf (Elt F) ((c : Thread nD τ).loc b) := fun c b => W6 m ρ c b

/-- At region 0's exit each of its arrays holds what the pipeline leaves and every other buffer what it held at entry. -/
theorem run_hF0 (c : Dev nD) (w : Fin cfg0.W) : (dat0 (V0 m ρ) c).arrAt w cfg0.N = V1 m ρ c (Pipeline.arrRef spec0 w) :=
  (W1_arr m ρ c w).symm
theorem run_hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- At region 1's exit each of its arrays holds what the pipeline leaves and every other buffer what it held at entry. -/
theorem run_hF1 (c : Dev nD) (w : Fin cfg1.W) : (dat1 (V2 m ρ) c).arrAt w cfg1.N = V3 m ρ c (Pipeline.arrRef spec1 w) :=
  (W3_arr m ρ c w).symm
theorem run_hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit each of its arrays holds what the pipeline leaves and every other buffer what it held at entry. -/
theorem run_hF2 (c : Dev nD) (w : Fin cfg2.W) : (dat2 (V3 m ρ) c).arrAt w cfg2.N = V4 m ρ c (Pipeline.arrRef spec2 w) :=
  (W4_arr m ρ c w).symm
theorem run_hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- At region 3's exit each of its arrays holds what the pipeline leaves and every other buffer what it held at entry. -/
theorem run_hF3 (c : Dev nD) (w : Fin cfg3.W) : (dat3 (V5 m ρ) c).arrAt w cfg3.N = runV6 m ρ c (Pipeline.arrRef spec3 w) :=
  (W6_arr m ρ c w).symm
theorem run_hrest3 (c : Dev nD) : ∀ b, b ∉ Finset.univ.image (Pipeline.arrRef spec3) → runV6 m ρ c b = V5 m ρ c b :=
  fun b hb => W6_of_ne m ρ c b fun w e => hb (Finset.mem_image.mpr ⟨w, Finset.mem_univ _, e⟩)

abbrev run𝒱 : Variants := Variants.none
/-- No core owes another anything: no level is assigned. -/
abbrev runL : GSem nD τ sig → Finset Unit := fun _ => ∅
abbrev runLv : GSem nD τ sig → Unit → ℕ := fun _ _ => 0
/-- What rides beside the buffers through every segment: the core's generator register at some state and what it
    owes, which is nothing. -/
abbrev runR (c : Dev nD) : sProp 𝕄 := iprop((∃ r, prngReg c r) ∗ ∃ W, owes (c : Thread nD τ) (0 : CellTallies nD τ sig Unit) W)
/-- A host stretch as a segment over the unscoped references from the contents `W`, `runR` riding along: it leaves
    those references at the contents after its operations. -/
abbrev run_hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ run𝒱 runL runLv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W runR
/-- The last thread state without what the core owes: every unscoped buffer at the last boundary's contents, the
    generator register at some state. -/
abbrev runTn (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0 as a segment: entered from every unscoped buffer at `W0`, left at `W1`. Its arrays are split out of
    the unscoped buffers at entry and put back at the exit contents; the generator register and the scoped rest enter
    the region's invariant and come back; nothing is owed; the kernel has no semaphore of its own. -/
def run_reg0 : Pipeline.RegionSeg (pcfgs (F := F)) adm (pdats m ρ) () defs₀ run𝒱 runL runLv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ runL runLv 0 fun _ _ => rfl
  pre c := iprop(StableHlo.held (c : Thread nD τ) (Pipeline.ucRefs τ sig) (W0 m ρ c) ∗ runR c)
  post c := iprop(StableHlo.held (c : Thread nD τ) (Pipeline.ucRefs τ sig) (W1 m ρ c) ∗ runR c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V0 m ρ) c)
    unfold Pipeline.ΦA
    iintro ⟨Hp, -, Hr⟩
    isplitl [Hr]; · iexact Hr
    iexact Hp
  hout c := by
    refine BIBase.Entails.trans (hout0 (V0 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (run_hF0 m ρ c) (run_hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered from every unscoped buffer at `W2`, left at `W3`. Its arrays are split out of
    the unscoped buffers at entry and put back at the exit contents; the generator register and the scoped rest enter
    the region's invariant and come back; nothing is owed; the kernel has no semaphore of its own. -/
def run_reg1 : Pipeline.RegionSeg (pcfgs (F := F)) adm (pdats m ρ) () defs₀ run𝒱 runL runLv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ runL runLv 1 fun _ _ => rfl
  pre c := iprop(StableHlo.held (c : Thread nD τ) (Pipeline.ucRefs τ sig) (W2 m ρ c) ∗ runR c)
  post c := iprop(StableHlo.held (c : Thread nD τ) (Pipeline.ucRefs τ sig) (W3 m ρ c) ∗ runR c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (run_hF1 m ρ c) (run_hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered from every unscoped buffer at `W3`, left at `W4`. Its arrays are split out of
    the unscoped buffers at entry and put back at the exit contents; the generator register and the scoped rest enter
    the region's invariant and come back; nothing is owed; the kernel has no semaphore of its own. -/
def run_reg2 : Pipeline.RegionSeg (pcfgs (F := F)) adm (pdats m ρ) () defs₀ run𝒱 runL runLv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ runL runLv 2 fun _ _ => rfl
  pre c := iprop(StableHlo.held (c : Thread nD τ) (Pipeline.ucRefs τ sig) (W3 m ρ c) ∗ runR c)
  post c := iprop(StableHlo.held (c : Thread nD τ) (Pipeline.ucRefs τ sig) (W4 m ρ c) ∗ runR c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V3 m ρ) c)
    unfold Pipeline.ΦA
    iintro ⟨Hp, -, Hr⟩
    isplitl [Hr]; · iexact Hr
    iexact Hp
  hout c := by
    refine BIBase.Entails.trans (hout2 (V3 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (run_hF2 m ρ c) (run_hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as a segment: entered from every unscoped buffer at `W5`, left at `W6`. Its arrays are split out of
    the unscoped buffers at entry and put back at the exit contents; the generator register and the scoped rest enter
    the region's invariant and come back; nothing is owed; the kernel has no semaphore of its own. -/
def run_reg3 : Pipeline.RegionSeg (pcfgs (F := F)) adm (pdats m ρ) () defs₀ run𝒱 runL runLv 3 where
  win := launch3.win.to₀
  block_pos := launch3.block_pos
  stage_whole := launch3.stage_whole
  K := PEmpty
  osem k := k.elim
  ho := Pipeline.OwnSemFacts.none _
  hbody c := (body_obligation3 (V5 m ρ) c).loose
  hwaits := Pipeline.hwaits_of_owed_zero _ _ _ _ runL runLv 3 fun _ _ => rfl
  pre c := iprop(StableHlo.held (c : Thread nD τ) (Pipeline.ucRefs τ sig) (W5 m ρ c) ∗ runR c)
  post c := iprop(runTn m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V5 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V5 m ρ c) (runV6 m ρ c) ((pdats m ρ 3 c).arrAt · cfg3.N) (run_hF3 m ρ c) (run_hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

/-- @main's six segments in order. -/
abbrev run_segs : List (Pipeline.Seg (pcfgs (F := F)) adm (pdats m ρ) () defs₀ run𝒱 runL runLv) :=
  [ .region (run_reg0 m ρ),
    .host (run_hseg hostOps1 hostOps1_sub run_fresh1 (W1 m ρ)),
    .region (run_reg1 m ρ),
    .region (run_reg2 m ρ),
    .host (run_hseg hostOps3 hostOps3_sub run_fresh3 (W4 m ρ)),
    .region (run_reg3 m ρ) ]
/-- @main is the run of the segments: both are the same chain of items. -/
theorem run_main_eq (c : Dev nD) : main (F := F) c = Pipeline.Seg.run (run_segs m ρ) := (main_chain c).trans (by chain_rfl)

set_option backward.isDefEq.respectTransparency.types false in
/-- From any memory with zero counters every weakly fair execution of @main terminates, nothing faulting, and every
    final state holds every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ run𝒱 runL runLv m ρ main (run_segs m ρ)
    (fun c Q => by rw [run_main_eq m ρ c])
    (by simp only [run_segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ runR c)) (Tₙ := runTn m ρ)
    (hch := ⟨fun _ => .rfl, fun _ => .rfl, fun _ => .rfl, fun _ => .rfl, fun _ => .rfl, fun _ => .rfl, fun _ => .rfl⟩)
    (hinit := by
      refine Pipeline.initEach runL runLv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The result array at the end: what region 3's write-backs leave in its output. -/
theorem W6_result (c : Dev nD) : W6 m ρ c (Proc.devRef .tc main_v25) = (dat3 (V5 m ρ) c).arrAt 4 cfg3.N :=
  W6_arr m ρ c 4

/-- The frame: the arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c)⟩) (run_main m ρ)

/-- The run with the result named: the result array ends at what region 3 leaves, the arguments unchanged. -/
theorem run_value : θ_run defs (onTc (τ := τ) (main (F := F))) ⟨m, fun _ => 0, ρ⟩ (fun r => ∀ c : Dev nD,
      r.2.mem ((c.tc : Thread nD τ).loc main_v25) = (dat3 (V5 m ρ) c).arrAt 4 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v25 (by decide))).trans (W6_result m ρ c),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c)⟩) (run_main m ρ)

end Cert.Kernel.Hand

end
-- ==== Proof.lean ====
/-
  The certificate's claims.

  The kernel program runs four kernel regions among two stretches of host operations. Its frame — at the word level
  and at the exact instance alike — is the run of those six items, each region's body obligation discharged at every
  grid point. At the exact instance the result array is the second layer's transform of the gathered first-layer
  result and its aggregation; the reference computes the same over joined features, and the two are equal as
  extended reals because a sum over the joined axis is the sum of the sums over its halves and a matrix product
  accumulated block by block along the contracted axis is the whole product.
-/
import proofs.«161480_j6485400617280_1_alg».proof.Defs
import proofs.«161480_j6485400617280_1_alg».proof.Proof.Gen.Kernel
import proofs.«161480_j6485400617280_1_alg».proof.Proof.Gen.KernelIdeal
import proofs.«161480_j6485400617280_1_alg».proof.Proof.Gen.ReferenceIdeal
import proofs.«161480_j6485400617280_1_alg».proof.Proof.Gen.Pre_finite_inputs
import proofs.«161480_j6485400617280_1_alg».proof.Proof.Gen.ReferenceIdeal.Run
import proofs.«161480_j6485400617280_1_alg».proof.Proof.Final
import proofs.«161480_j6485400617280_1_alg».proof.Proof.BitsRun
import Idealize.ShloMosaic.Adequacy
import Idealize.ShloMosaic.Init

noncomputable section

namespace Cert.Proof

open Idealize.ShloMosaic Idealize.SL.Sem

/-- The reference is a host program: its frame is its run with the result dropped. -/
theorem frame_ref : Cert.frame_ReferenceIdeal (hReferenceIdeal := Cert.ReferenceIdeal.Gen.facts) (hPre_finite_inputs := Cert.Pre_finite_inputs.Gen.facts) := fun m ρ _ =>
  (θ_run Cert.ReferenceIdeal.defs _ _).mono (fun _ h c => (h c).2) (Cert.ReferenceIdeal.Value.run (F := Ideal) m ρ)

/-- Both idealized programs end with the same result array: the kernel's run names region 3's output, the reference's
    run names its composed term, and the two are one array. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => (Cert.KernelIdeal.Hand.dat3 (F := Ideal) (Cert.KernelIdeal.Hand.V5 m ρ) c).arrAt 4 Cert.KernelIdeal.cfg3.N,
    Cert.KernelIdeal.Hand.run_value (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, (hagree c).1, (hagree c).2.1, (hagree c).2.2.1, (hagree c).2.2.2.1,
    (hagree c).2.2.2.2.1, (hagree c).2.2.2.2.2.1, (hagree c).2.2.2.2.2.2]
  exact (Cert.KernelIdeal.Hand.kernel_result m ρ c).symm

theorem claim : Cert.Claim := ⟨Cert.Kernel.Gen.facts, Cert.KernelIdeal.Gen.facts, Cert.ReferenceIdeal.Gen.facts, Cert.Pre_finite_inputs.Gen.facts,
  fun m ρ _ => Cert.Kernel.Hand.frame (F := Bits) m ρ,
  fun m ρ _ => Cert.KernelIdeal.Hand.frame (F := Ideal) m ρ,
  frame_ref,
  trivial,
  algebraic⟩

end Cert.Proof

end
